-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4096x2048 .f32) (main_arg1 : FVec F S2048x6144 .f32) (main_arg2 : FVec F S6144 .f32) (main_arg3 : FVec F S2048x2048 .f32) (main_arg4 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x6144 .f32 := Host.absf main_arg1
  let main_cst_0 : FVec F S_ .f32 := constant S_ .f32 0x7F800000#32
  let main_v5 : FVec F S2048x6144 .f32 := broadcastInDim S2048x6144 ![] bcast_S_S2048x6144 main_cst_0
  let main_v6 : IVec S2048x6144 1 := cmpf .olt main_v4 main_v5
  let main_c_1 : IVec S_ 1 := constantI S_ 1 1#1
  let main_v7 : IVec S_ 1 := (fun x v => Host.reduce IntOp.andi x v reducesTo_S2048x6144_S_d0_1 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S4096x2048 : Shape := ⟨2, ![4096, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x6144 : Shape := ⟨2, ![1, 6144]⟩
abbrev S4096x6144 : Shape := ⟨2, ![4096, 6144]⟩
abbrev S1024x512 : Shape := ⟨2, ![1024, 512]⟩
abbrev S512x512 : Shape := ⟨2, ![512, 512]⟩
abbrev S1x512 : Shape := ⟨2, ![1, 512]⟩
abbrev S1024x128 : Shape := ⟨2, ![1024, 128]⟩
abbrev S128x1024 : Shape := ⟨2, ![128, 1024]⟩
abbrev S1024x1024 : Shape := ⟨2, ![1024, 1024]⟩
abbrev S1024x1 : Shape := ⟨2, ![1024, 1]⟩
abbrev S1x1024 : Shape := ⟨2, ![1, 1024]⟩
abbrev S1x2048 : Shape := ⟨2, ![1, 2048]⟩

abbrev nBuf : Space → Nat
  | .hbm => 10
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S1x6144, .f32⟩
  | .hbm, ⟨6, _⟩ => ⟨S4096x6144, .f32⟩
  | .hbm, ⟨7, _⟩ => ⟨S4096x2048, .f32⟩
  | .hbm, ⟨8, _⟩ => ⟨S1x2048, .f32⟩
  | .hbm, ⟨9, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x512, .f32⟩
  | .local _ .vmem, ⟨19, _⟩ => ⟨S1024x512, .f32⟩
  | .local _ .vmem, ⟨20, _⟩ => ⟨S512x512, .f32⟩
  | .local _ .vmem, ⟨21, _⟩ => ⟨S512x512, .f32⟩
  | .local _ .vmem, ⟨22, _⟩ => ⟨S1x512, .f32⟩
  | .local _ .vmem, ⟨23, _⟩ => ⟨S1x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![4, 12, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg2.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S6144_S1x6144 : S6144.ShapeCasts S1x6144
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  shapeCasts_S2048_S1x2048 : S2048.ShapeCasts S1x2048
  dot_S1024x512_S512x512_S1024x512_1_0_0_1_n_n_wf : DotDims.WF S1024x512 S512x512 S1024x512 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .f32 = 32 ∨ (Rect.block (s := S4096x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x6144.size a
  hwx0_1 : ∀ i : grid0.Coords, EltTy.bits .f32 = 32 ∨ (Rect.block (s := S2048x6144) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x6144.size a
  hwx0_2 : ∀ i : grid0.Coords, EltTy.bits .f32 = 32 ∨ (Rect.block (s := S1x6144) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x6144.size a
  hwx0_3 : ∀ i : grid0.Coords, EltTy.bits .f32 = 32 ∨ (Rect.block (s := S4096x6144) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x6144.size a
  hwx1_0 : ∀ i : grid1.Coords, EltTy.bits .f32 = 32 ∨ (Rect.block (s := S4096x6144) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x6144.size a
  hwx1_1 : ∀ i : grid1.Coords, EltTy.bits .f32 = 32 ∨ (Rect.block (s := S4096x6144) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x6144.size a
  hwx1_2 : ∀ i : grid1.Coords, EltTy.bits .f32 = 32 ∨ (Rect.block (s := S4096x6144) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x2048.size a
  hwx1_3 : ∀ i : grid1.Coords, EltTy.bits .f32 = 32 ∨ (Rect.block (s := S4096x2048) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x2048.size a
  hwx2_0 : ∀ i : grid2.Coords, EltTy.bits .f32 = 32 ∨ (Rect.block (s := S4096x2048) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S2048x2048.size a
  hwx2_1 : ∀ i : grid2.Coords, EltTy.bits .f32 = 32 ∨ (Rect.block (s := S2048x2048) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x2048.size a
  hwx2_3 : ∀ i : grid2.Coords, EltTy.bits .f32 = 32 ∨ (Rect.block (s := S4096x2048) S1024x512.size (cc2_transform_3 i) (hinb2_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S4096x6144 : Shape := ⟨2, ![4096, 6144]⟩
abbrev S1x6144 : Shape := ⟨2, ![1, 6144]⟩
abbrev S4096x16x128 : Shape := ⟨3, ![4096, 16, 128]⟩
abbrev S16x4096x128 : Shape := ⟨3, ![16, 4096, 128]⟩
abbrev S_ : Shape := ⟨0, ![]⟩
abbrev S4096x4096 : Shape := ⟨2, ![4096, 4096]⟩
abbrev S16x4096x4096 : Shape := ⟨3, ![16, 4096, 4096]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S6144, .f32⟩
  | .hbm, ⟨3, _⟩ => ⟨S2048x2048, .f32⟩
  | .hbm, ⟨4, _⟩ => ⟨S2048, .f32⟩
  | .hbm, ⟨5, _⟩ => ⟨S4096x6144, .f32⟩
  | .hbm, ⟨6, _⟩ => ⟨S1x6144, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x16x128, .f32⟩
  | .hbm, ⟨13, _⟩ => ⟨S16x4096x128, .f32⟩
  | .hbm, ⟨14, _⟩ => ⟨S4096x16x128, .f32⟩
  | .hbm, ⟨15, _⟩ => ⟨S16x4096x128, .f32⟩
  | .hbm, ⟨16, _⟩ => ⟨S4096x16x128, .f32⟩
  | .hbm, ⟨17, _⟩ => ⟨S16x4096x128, .f32⟩
  | .hbm, ⟨18, _⟩ => ⟨S_, .i1⟩
  | .hbm, ⟨19, _⟩ => ⟨S4096x4096, .i1⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .i1⟩
  | .hbm, ⟨27, _⟩ => ⟨S4096x4096, .i1⟩
  | .hbm, ⟨28, _⟩ => ⟨S4096x4096, .i1⟩
  | .hbm, ⟨29, _⟩ => ⟨S16x4096x4096, .f32⟩
  | .hbm, ⟨30, _⟩ => ⟨S_, .f32⟩
  | .hbm, ⟨31, _⟩ => ⟨S_, .f32⟩
  | .hbm, ⟨32, _⟩ => ⟨S16x4096x4096, .i1⟩
  | .hbm, ⟨33, _⟩ => ⟨S16x4096x4096, .f32⟩
  | .hbm, ⟨34, _⟩ => ⟨S16x4096x4096, .f32⟩
  | .hbm, ⟨35, _⟩ => ⟨S16x4096x128, .f32⟩
  | .hbm, ⟨36, _⟩ => ⟨S4096x16x128, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  shapeCasts_S4096x2048_S4096x16x128 : S4096x2048.ShapeCasts S4096x16x128
  transposes_S4096x16x128_S16x4096x128_1_0_2 : S4096x16x128.Transposes [1, 0, 2] S16x4096x128
  bcast_S_S4096x4096 : S_.BroadcastsInDim S4096x4096 (![] : Fin 0 → Fin S4096x4096.rank)
  bcast_S4096x4096_S16x4096x4096_1_2 : S4096x4096.BroadcastsInDim S16x4096x4096 (![1, 2] : Fin 2 → Fin S16x4096x4096.rank)
  bcast_S_S16x4096x4096 : S_.BroadcastsInDim S16x4096x4096 (![] : Fin 0 → Fin S16x4096x4096.rank)
  transposes_S16x4096x128_S4096x16x128_1_0_2 : S16x4096x128.Transposes [1, 0, 2] S4096x16x128
  shapeCasts_S4096x16x128_S4096x2048 : S4096x16x128.ShapeCasts S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x6144_S4096x6144_1_0_0_1_n_n_wf : DotDims.WF S4096x2048 S2048x6144 S4096x6144 [1] [0] [0] [1] [] []
  dot_S16x4096x128_S16x4096x128_S16x4096x4096_2_2_1_1_0_0_wf : DotDims.WF S16x4096x128 S16x4096x128 S16x4096x4096 [2] [2] [1] [1] [0] [0]
  dot_S16x4096x4096_S16x4096x128_S16x4096x128_2_1_1_2_0_0_wf : DotDims.WF S16x4096x4096 S16x4096x128 S16x4096x128 [2] [1] [1] [2] [0] [0]
  dot_S4096x2048_S2048x2048_S4096x2048_1_0_0_1_n_n_wf : DotDims.WF S4096x2048 S2048x2048 S4096x2048 [1] [0] [0] [1] [] []

variable [Facts₀]

def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf
def dot_S16x4096x128_S16x4096x128_S16x4096x4096_2_2_1_1_0_0 : DotDims S16x4096x128 S16x4096x128 S16x4096x4096 where
  lhsContracting := [2]
  rhsContracting := [2]
  lhsNonContracting := [1]
  rhsNonContracting := [1]
  lhsBatch := [0]
  rhsBatch := [0]
  wf := dot_S16x4096x128_S16x4096x128_S16x4096x4096_2_2_1_1_0_0_wf
def dot_S16x4096x4096_S16x4096x128_S16x4096x128_2_1_1_2_0_0 : DotDims S16x4096x4096 S16x4096x128 S16x4096x128 where
  lhsContracting := [2]
  rhsContracting := [1]
  lhsNonContracting := [1]
  rhsNonContracting := [2]
  lhsBatch := [0]
  rhsBatch := [0]
  wf := dot_S16x4096x4096_S16x4096x128_S16x4096x128_2_1_1_2_0_0_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.K.Scoped0.lean ====
/-
  Region 0's scoped buffers apart from its own staging buffers: its accumulator, and the other regions' staging buffers
  and accumulators, which it never touches. The region's standing invariant holds all of them at some contents; this module
  separates the accumulator from the rest.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the core that are neither a staging buffer of this region nor its accumulator. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The accumulator as a memref. -/
abbrev scM : Memref sig .tc .vmem S1024x512 .f32 := Memref.whole cc0_scratch0

/-- The region's scoped rest holds the accumulator at some contents, and the others; -/
theorem PhiA_in (c : Dev nD) :
    (Pipeline.ΦA spec0 c : sProp 𝕄) ⊢ iprop(((∃ d, owns (c : Thread nD τ) scM fullShare d) ∗ others (F := F) c) ∗ (∃ r, prngReg c r)) := by
  unfold Pipeline.ΦA others; rw [scopedRest0_eq]; simp only [scM, owns_whole]
  iintro ⟨⟨HS, H1, H2, H3, H4, H5, H6, H7, H8, H9, H10, H11, H12, H13, H14, H15, H16, H17, H18⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

/-- and is made of them. -/
theorem PhiA_out (c : Dev nD) :
    iprop(((∃ d, owns (c : Thread nD τ) scM fullShare d) ∗ others (F := F) c) ∗ (∃ r, prngReg c r)) ⊢ (Pipeline.ΦA spec0 c : sProp 𝕄) := by
  unfold Pipeline.ΦA others; rw [scopedRest0_eq]; simp only [scM, owns_whole]
  iintro ⟨⟨HS, H1, H2, H3, H4, H5, H6, H7, H8, H9, H10, H11, H12, H13, H14, H15, H16, H17, H18⟩, Hg⟩
  isplitr [Hg]
  ·
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

end Cert.Kernel.R0

end
-- ==== Proof.K.Data0.lean ====
/-
  The first projection, region 0 of the program: the grid is (row block i of 4, column block j of 12, depth block k of 4),
  point t = (i·12 + j)·4 + k. At each point the body adds the product of the 1024×512 block (i,k) of the left array and
  the 512×512 block (k,j) of the right array into a 1024×512 accumulator kept in scratch, which it clears at k = 0; at k = 3
  it adds the bias row's block j and stores the sum into the output window, the only point of the four that writes block (i,j) back.
  This module names what the scratch and the windows hold after each point.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Scoped0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left block, the right block and the bias block of point t, at their literal types. -/
abbrev xblk (c : Dev nD) (t : Fin cfg0.N) : Vec F S1024x512 .f32 := iblk V c 0 t
abbrev wblk (c : Dev nD) (t : Fin cfg0.N) : Vec F S512x512 .f32 := iblk V c 1 t
abbrev bblk (c : Dev nD) (t : Fin cfg0.N) : Vec F S1x512 .f32 := iblk V c 2 t

/-- The accumulator after point n: the product of point n's blocks added to what point n − 1 left, or to zero
    at the first of each run of four points. -/
def acc (c : Dev nD) : (n : ℕ) → n < cfg0.N → Vec F S1024x512 .f32
  | 0, h => k0_pay2 (xblk V c ⟨0, h⟩) (wblk V c ⟨0, h⟩) k0_pay1
  | n + 1, h => k0_pay2 (xblk V c ⟨n + 1, h⟩) (wblk V c ⟨n + 1, h⟩)
      (if (n + 1) % 4 = 0 then k0_pay1 else acc c n (Nat.lt_of_succ_lt h))

theorem acc_reset (c : Dev nD) (t : Fin cfg0.N) (h : t.val % 4 = 0) :
    acc V c t.val t.isLt = k0_pay2 (xblk V c t) (wblk V c t) k0_pay1 := by
  obtain ⟨n, hn⟩ := t
  cases n with
  | zero => rfl
  | succ n => simp only [acc]; rw [if_pos h]

theorem acc_step (c : Dev nD) (t : Fin cfg0.N) (h : ¬ t.val % 4 = 0) :
    acc V c t.val t.isLt = k0_pay2 (xblk V c t) (wblk V c t) (acc V c (t.val - 1) (Nat.lt_of_le_of_lt (Nat.sub_le _ _) t.isLt)) := by
  obtain ⟨n, hn⟩ := t
  cases n with
  | zero => exact absurd (Nat.zero_mod _) h
  | succ n => simp only [acc]; rw [if_neg h]; rfl

/-- The region invariant before position n: before the first point every scoped buffer at anything; afterwards the
    accumulator at what the point before left. -/
def PhiS (c : Dev nD) : (n : ℕ) → n ≤ cfg0.N → sProp 𝕄
  | 0, _ => Pipeline.ΦA spec0 c
  | n + 1, hn => iprop((owns (c : Thread nD τ) scM fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg0.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-- The proof data of the region on core c: the arrays as the region finds them; after the body each input window at its
    block and the output window at the accumulator plus the bias block; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (acc V c t.val t.isLt) (bblk V c t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay3 (acc V c t.val t.isLt) (bblk V c t) := by dsimp only [dat]

theorem Phi_castSucc (c : Dev nD) (t : Fin cfg0.N) :
    (dat V c).Φ t.castSucc = PhiS V c t.val (Nat.le_of_lt t.isLt) := by
  dsimp only [dat]; simp only [Fin.coe_castSucc]

end Cert.Kernel.R0

end
-- ==== Proof.K.Run0.lean ====
/-
  Region 0's body, case by case: at depth block k = 0 the accumulator is cleared and the first product added;
  at 0 < k < 3 the next product is added to what it holds; at k = 3 the last product is added and the sum plus the bias
  block is stored into the output window.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Data0
import Idealize.ShloMosaic.Lib.Pipeline.Value
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "The depth block is the first": the body's first test, over the grid coordinates. -/
abbrev isFirst (i : grid0.Coords) : Prop := (Scalar.cmpi .ne (Scalar.extui (Scalar.cmpi .eq (BitVec.ofNat 32 (i 2).val) 0#32)) 0#32) = 1#1
/-- "The depth block is the last": the body's second test. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- Every access of the body is the whole buffer: the offsets are zero. -/
theorem hz : (![0, 0] : Fin 2 → Nat) = fun _ => 0 := funext fun a => by fin_cases a <;> rfl

set_option maxHeartbeats 1000000 in
/-- A first point: the accumulator, whatever it held, is cleared and the product of the two input blocks added. -/
theorem run_first (c : Dev nD) (E : Set ℕ) (i : grid0.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : isFirst i) (h2 : ¬ isLast i)
    (x : Vec F S1024x512 .f32) (w : Vec F S512x512 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w ∗ owns (c : Thread nD τ) arg7 fullShare (k0_pay2 x w k0_pay1)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A middle point: the product of the two input blocks is added to the accumulator; nothing else is touched. -/
theorem run_mid (c : Dev nD) (E : Set ℕ) (i : grid0.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : ¬ isLast i)
    (x : Vec F S1024x512 .f32) (w : Vec F S512x512 .f32) (s : Vec F S1024x512 .f32) (K : PUnit → sProp 𝕄) :
    iprop(owns (c : Thread nD τ) arg3 fullShare x ∗ owns (c : Thread nD τ) arg4 fullShare w ∗ owns (c : Thread nD τ) arg7 fullShare s
        ∗ (iprop(owns (c : Thread nD τ) arg3 fullShare x ∗ owns (c : Thread nD τ) arg4 fullShare w ∗ owns (c : Thread nD τ) arg7 fullShare (k0_pay2 x w s)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A last point: the product is added to the accumulator, and the accumulator plus the bias block is stored into the
    output window's buffer, whatever that held. -/
theorem run_last (c : Dev nD) (E : Set ℕ) (i : grid0.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : isLast i)
    (x : Vec F S1024x512 .f32) (w : Vec F S512x512 .f32) (b : Vec F S1x512 .f32) (s : Vec F S1024x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b) ∗ owns (c : Thread nD τ) arg7 fullShare (k0_pay2 x w s)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (View.cover_of_tiled _ S1024x512.size (by rfl))]
    rw [View.canon_cons_unit_zero (S := S1024x512) hz]
    simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

end Cert.Kernel.R0

end
-- ==== Proof.K.Frame0.lean ====
/-
  Region 0's body obligation: at every grid point the body, called on the windows' current buffers and the accumulator
  as the invariant holds it, leaves the input windows at their blocks, the accumulator at its next value and, at a last
  depth block, the output window at the accumulator plus the bias block; elsewhere the output window's buffer is handed
  back untouched.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Run0
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Where the output window is idle (not a last depth block) and where it is live; it is written back only where live. -/
theorem idle_3 : ∀ t : Fin cfg0.N, ¬ isLast (grid0.coords t) → cfg0.idle 3 (grid0.coords t) = true := by decide +kernel
theorem live_3 : ∀ t : Fin cfg0.N, isLast (grid0.coords t) → cfg0.idle 3 (grid0.coords t) = false := by decide +kernel
theorem noflush_3 : ∀ t : Fin cfg0.N, ¬ isLast (grid0.coords t) → (cfg0.win 3).flush t = false := by decide +kernel
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-- The windows' current staging memrefs at point t, spelled as the pipeline passes them. -/
abbrev ms0 (t : Fin cfg0.N) : Memref sig .tc .vmem S1024x512 .f32 := win0_0.stage (cfg0.slots t 0)
abbrev ms1 (t : Fin cfg0.N) : Memref sig .tc .vmem S512x512 .f32 := win0_1.stage (cfg0.slots t 1)
abbrev ms2 (t : Fin cfg0.N) : Memref sig .tc .vmem S1x512 .f32 := win0_2.stage (cfg0.slots t 2)
abbrev ms3 (t : Fin cfg0.N) : Memref sig .tc .vmem S1024x512 .f32 := win0_3.stage (cfg0.slots t 3)

/-- What the body is called with at point t, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Before any point the invariant holds the accumulator at some contents. -/
theorem Phi_some (c : Dev nD) (t : Fin cfg0.N) :
    (dat V c).Φ t.castSucc ⊢ iprop(((∃ s, owns (c : Thread nD τ) scM fullShare s) ∗ others (F := F) c) ∗ (∃ r, prngReg c r)) := by
  rw [Phi_castSucc]
  by_cases hz : t.val = 0
  · rw [PhiS_zero V c _ _ hz]; exact PhiA_in c
  · rw [PhiS_pos V c _ _ hz]
    iintro ⟨⟨HS, Ho⟩, Hg⟩
    isplitl [HS Ho]
    · isplitl [HS]
      · iexists _; iexact HS
      iexact Ho
    iexact Hg

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 192 := lt_of_lt_of_eq t.isLt (show cfg0.N = 192 from N_0)
  by_cases h0 : t.val % 4 = 0
  · have hF : isFirst (grid0.coords t) := (isFirst_iff t).mpr h0
    have hL : ¬ isLast (grid0.coords t) := fun h => by have := (isLast_iff t).mp h; omega
    rw [Dat.leavesExact_idle (dat V c) 3 t (idle_3 t hL) (noflush_3 t hL)]
    rw [acc_reset V c t h0]
    iintro ⟨HΦ, Ho, H0, H1, H2, H3⟩
    ihave HΦ' := (Phi_some V c t) $$ HΦ
    icases HΦ' with ⟨⟨HS, Hoth⟩, Hg⟩
    icases H0 with ⟨%d0, H0⟩
    icases H1 with ⟨%d1, H1⟩
    icases H2 with ⟨%d2, H2⟩
    iapply (run_first c Set.univ (grid0.coords t) _ _ _ _ _ _ _ _ _ _ hF hL (xblk V c t) (wblk V c t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hF : ¬ isFirst (grid0.coords t) := fun h => h0 ((isFirst_iff t).mp h)
    have hz : t.val ≠ 0 := fun e => h0 (by rw [e])
    rw [acc_step V c t h0]
    rw [Phi_castSucc, PhiS_pos V c _ _ hz]
    by_cases h3 : t.val % 4 = 3
    · have hL : isLast (grid0.coords t) := (isLast_iff t).mpr h3
      rw [show (dat V c).leavesExact 3 t = owns (c : Thread nD τ) (ms3 t) fullShare ((dat V c).after 3 t) from by
        unfold Dat.leavesExact; rw [live_3 t hL], after_3, acc_step V c t h0]
      iintro ⟨⟨⟨HS, Hoth⟩, Hg⟩, Ho, H0, H1, H2, H3⟩
      icases H0 with ⟨%d0, H0⟩
      icases H1 with ⟨%d1, H1⟩
      icases H2 with ⟨%d2, H2⟩
      iapply (run_last c Set.univ (grid0.coords t) _ _ _ _ _ _ _ _ _ _ hF hL (xblk V c t) (wblk V c t) (bblk V c t) _ _)
      isplitl [H0]; · iexact H0
      isplitl [H1]; · iexact H1
      isplitl [H2]; · iexact H2
      isplitl [H3]; · icases H3 with ⟨%d3, H3⟩; iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hL : ¬ isLast (grid0.coords t) := fun h => h3 ((isLast_iff t).mp h)
      rw [Dat.leavesExact_idle (dat V c) 3 t (idle_3 t hL) (noflush_3 t hL)]
      iintro ⟨⟨⟨HS, Hoth⟩, Hg⟩, Ho, H0, H1, H2, H3⟩
      icases H0 with ⟨%d0, H0⟩
      icases H1 with ⟨%d1, H1⟩
      icases H2 with ⟨%d2, H2⟩
      iapply (run_mid c Set.univ (grid0.coords t) _ _ _ _ _ _ _ _ _ _ hF hL (xblk V c t) (wblk V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the scoped rest back, the accumulator's contents forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 192 := N_0; omega)]
  refine .trans ?_ (PhiA_out c)
  iintro ⟨⟨HS, Ho⟩, Hg⟩
  isplitl [HS Ho]
  · isplitl [HS]
    · iexists _; iexact HS
    iexact Ho
  iexact Hg

end Cert.Kernel.R0

end
-- ==== Proof.K.Scoped1.lean ====
/-
  Region 1's scoped buffers apart from its own staging buffers: its accumulator, and the other regions' staging buffers
  and accumulators, which it never touches. The region's standing invariant holds all of them at some contents; this module
  separates the accumulator from the rest.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the core that are neither a staging buffer of this region nor its accumulator. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The accumulator as a memref. -/
abbrev scM : Memref sig .tc .vmem S1024x128 .f32 := Memref.whole cc1_scratch0

/-- The region's scoped rest holds the accumulator at some contents, and the others; -/
theorem PhiA_in (c : Dev nD) :
    (Pipeline.ΦA spec1 c : sProp 𝕄) ⊢ iprop(((∃ d, owns (c : Thread nD τ) scM fullShare d) ∗ others (F := F) c) ∗ (∃ r, prngReg c r)) := by
  unfold Pipeline.ΦA others; rw [scopedRest1_eq]; simp only [scM, owns_whole]
  iintro ⟨⟨H0, H1, H2, H3, H4, H5, H6, H7, H8, HS, H10, H11, H12, H13, H14, H15, H16, H17, H18⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

/-- and is made of them. -/
theorem PhiA_out (c : Dev nD) :
    iprop(((∃ d, owns (c : Thread nD τ) scM fullShare d) ∗ others (F := F) c) ∗ (∃ r, prngReg c r)) ⊢ (Pipeline.ΦA spec1 c : sProp 𝕄) := by
  unfold Pipeline.ΦA others; rw [scopedRest1_eq]; simp only [scM, owns_whole]
  iintro ⟨⟨HS, H0, H1, H2, H3, H4, H5, H6, H7, H8, H10, H11, H12, H13, H14, H15, H16, H17, H18⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

end Cert.Kernel.R1

end
-- ==== Proof.K.Data1.lean ====
/-
  The causal attention, region 1 of the program: the grid is (head h of 16, query block qi of 4, key block ki of 4),
  point t = (h·4 + qi)·4 + ki. The three input windows read ONE array, the projection: the query block (qi, 16 + h),
  the key block (ki, h) and the value block (ki, 32 + h), each 1024×128. An accumulator kept in scratch is cleared at
  ki = 0; where ki ≤ qi the body adds (mask ∘ (q·kᵀ))·v to it, the mask keeping the entries whose row index
  1024·qi + r is at least the column index 1024·ki + c; at ki = 3 the accumulator is stored into the output window,
  block (qi, h) of the result. This module names what the scratch and the windows hold after each point.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Scoped1
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, the key block and the value block of point t, at their literal types. -/
abbrev qblk (c : Dev nD) (t : Fin cfg1.N) : Vec F S1024x128 .f32 := iblk V c 0 t
abbrev kblk (c : Dev nD) (t : Fin cfg1.N) : Vec F S1024x128 .f32 := iblk V c 1 t
abbrev vblk (c : Dev nD) (t : Fin cfg1.N) : Vec F S1024x128 .f32 := iblk V c 2 t

/-- "The key block is the first", "the key block is not after the query block", "the key block is the last": the body's three tests. -/
abbrev isFirst (i : grid1.Coords) : Prop := (Scalar.cmpi .ne (Scalar.extui (Scalar.cmpi .eq (BitVec.ofNat 32 (i 2).val) 0#32)) 0#32) = 1#1
abbrev isLE (i : grid1.Coords) : Prop := (Scalar.cmpi .ne (Scalar.extui (Scalar.cmpi .sle (BitVec.ofNat 32 (i 2).val) (BitVec.ofNat 32 (i 1).val))) 0#32) = 1#1
abbrev isLast (i : grid1.Coords) : Prop := k1_cond3 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLE_iff : ∀ t : Fin cfg1.N, isLE (grid1.coords t) ↔ t.val % 4 ≤ t.val / 4 % 4 :=
  (by decide +kernel : ∀ t : Fin grid1.N, isLE (grid1.coords t) ↔ t.val % 4 ≤ t.val / 4 % 4)
theorem isLast_iff : ∀ t : Fin cfg1.N, isLast (grid1.coords t) ↔ t.val % 4 = 3 :=
  (by decide +kernel : ∀ t : Fin grid1.N, isLast (grid1.coords t) ↔ t.val % 4 = 3)

/-- One point's contribution added to s where the key block is not after the query block; s unchanged elsewhere. -/
def step (c : Dev nD) (t : Fin cfg1.N) (s : Vec F S1024x128 .f32) : Vec F S1024x128 .f32 :=
  if isLE (grid1.coords t) then k1_pay2 (grid1.coords t) (qblk V c t) (kblk V c t) (vblk V c t) s else s

/-- The accumulator after point n: point n's step from what point n − 1 left, or from zero at the first of each run of four. -/
def acc (c : Dev nD) : (n : ℕ) → n < cfg1.N → Vec F S1024x128 .f32
  | 0, h => step V c ⟨0, h⟩ k1_pay1
  | n + 1, h => step V c ⟨n + 1, h⟩ (if (n + 1) % 4 = 0 then k1_pay1 else acc c n (Nat.lt_of_succ_lt h))

theorem acc_reset (c : Dev nD) (t : Fin cfg1.N) (h : t.val % 4 = 0) :
    acc V c t.val t.isLt = step V c t k1_pay1 := by
  obtain ⟨n, hn⟩ := t
  cases n with
  | zero => rfl
  | succ n => simp only [acc]; rw [if_pos h]

theorem acc_step (c : Dev nD) (t : Fin cfg1.N) (h : ¬ t.val % 4 = 0) :
    acc V c t.val t.isLt = step V c t (acc V c (t.val - 1) (Nat.lt_of_le_of_lt (Nat.sub_le _ _) t.isLt)) := by
  obtain ⟨n, hn⟩ := t
  cases n with
  | zero => exact absurd (Nat.zero_mod _) h
  | succ n => simp only [acc]; rw [if_neg h]; rfl

/-- The region invariant before position n: before the first point every scoped buffer at anything; afterwards the
    accumulator at what the point before left. -/
def PhiS (c : Dev nD) : (n : ℕ) → n ≤ cfg1.N → sProp 𝕄
  | 0, _ => Pipeline.ΦA spec1 c
  | n + 1, hn => iprop((owns (c : Thread nD τ) scM fullShare (acc V c n hn) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg1.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-- The three shares the one input array is held at, one per input window: a half and two quarters of the whole. -/
abbrev shQ : PosShare TreeShare := fullShare.left
abbrev shK : PosShare TreeShare := fullShare.right.left
abbrev shV : PosShare TreeShare := fullShare.right.right

/-- The proof data of the region on core c: the arrays as the region finds them; after the body each input window at its
    block and the output window at the accumulator; the invariant above; nothing owed; the input array shared three ways. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => acc V c t.val t.isLt
  Φ t := PhiS V c t.val (Nat.le_of_lt_succ t.isLt)
  q w := match w with
    | ⟨0, _⟩ => shQ
    | ⟨1, _⟩ => shK
    | ⟨2, _⟩ => shV
    | ⟨3, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = acc V c t.val t.isLt := by dsimp only [dat]

theorem Phi_castSucc (c : Dev nD) (t : Fin cfg1.N) :
    (dat V c).Φ t.castSucc = PhiS V c t.val (Nat.le_of_lt t.isLt) := by
  dsimp only [dat]; simp only [Fin.coe_castSucc]

end Cert.Kernel.R1

end
-- ==== Proof.K.Run1.lean ====
/-
  Region 1's body, case by case, by where the key block stands: first (the accumulator is cleared, and the key block,
  not being after the query block, contributes), in the middle and contributing, in the middle and skipped, last and
  contributing (the query block is the last too), last and skipped; at a last key block the accumulator is stored
  into the output window.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Data1
import Idealize.ShloMosaic.Lib.Pipeline.Value
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Every access of the body is the whole buffer: the offsets are zero. -/
theorem hz : (![0, 0] : Fin 2 → Nat) = fun _ => 0 := funext fun a => by fin_cases a <;> rfl

set_option maxHeartbeats 2000000 in
/-- A first key block: the accumulator, whatever it held, is cleared and the block's contribution added. -/
theorem run_first (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : isFirst i) (h2 : isLE i) (h3 : ¬ isLast i)
    (q k v : Vec F S1024x128 .f32) (K : PUnit → sProp 𝕄) :
    iprop(owns (c : Thread nD τ) arg3 fullShare q ∗ owns (c : Thread nD τ) arg4 fullShare k ∗ owns (c : Thread nD τ) arg5 fullShare v ∗ (∃ s, owns (c : Thread nD τ) arg7 fullShare s)
        ∗ (iprop(owns (c : Thread nD τ) arg3 fullShare q ∗ owns (c : Thread nD τ) arg4 fullShare k ∗ owns (c : Thread nD τ) arg5 fullShare v ∗ owns (c : Thread nD τ) arg7 fullShare (k1_pay2 i q k v k1_pay1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%s, %f7, -, H7⟩, Hk⟩
  obtain rfl := harg3.eq_unread hf3; obtain rfl := harg4.eq_unread hf4; obtain rfl := harg5.eq_unread hf5
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (View.cover_of_tiled _ S1024x128.size (by rfl))]
  rw [View.canon_cons_unit_zero (S := S1024x128) hz]
  simp only [View.readAt_eq_ld, harg3.read_unread, harg4.read_unread, harg5.read_unread, harg7.read_unread, View.ld_unit_zero (S := S1024x128) hz, View.readCov_unit_zero (S := S1024x128) _ hz]

set_option maxHeartbeats 2000000 in
/-- A middle key block not after the query block: its contribution is added to the accumulator. -/
theorem run_add (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : isLE i) (h3 : ¬ isLast i)
    (q k v s : Vec F S1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg7 fullShare s
        ∗ (iprop(owns (c : Thread nD τ) arg3 fullShare q ∗ owns (c : Thread nD τ) arg4 fullShare k ∗ owns (c : Thread nD τ) arg5 fullShare v ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (View.cover_of_tiled _ S1024x128.size (by rfl))]
  rw [View.canon_cons_unit_zero (S := S1024x128) hz]
  simp only [View.readAt_eq_ld, harg3.read_unread, harg4.read_unread, harg5.read_unread, harg7.read_unread, View.ld_unit_zero (S := S1024x128) hz, View.readCov_unit_zero (S := S1024x128) _ hz]

set_option maxHeartbeats 2000000 in
/-- A middle key block after the query block: the body does nothing. -/
theorem run_skip (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : ¬ isLE i) (h3 : ¬ isLast i) (K : PUnit → sProp 𝕄) :
    iprop(K ⟨⟩) ⊢ wp frame (wpE (defs₀ (F := F)) Variants.none c none) E (cc1_kernel i arg3 harg3 arg4 harg4 arg5 harg5 arg6 harg6 arg7 harg7) K := by
  simp only [cc1_kernel_eq_skeleton]; unfold cc1_kernel_skel
  iintro Hk
  sl_exec (disch := first | exact h1 | exact h2 | exact h3)
  sl_step
  iexact Hk

set_option maxHeartbeats 2000000 in
/-- A last key block that contributes: its contribution is added, and the accumulator stored into the output window's buffer. -/
theorem run_last_add (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : isLE i) (h3 : isLast i)
    (q k v s : Vec F S1024x128 .f32) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d) ∗ owns (c : Thread nD τ) arg7 fullShare s
        ∗ (iprop(owns (c : Thread nD τ) arg3 fullShare q ∗ owns (c : Thread nD τ) arg4 fullShare k ∗ owns (c : Thread nD τ) arg5 fullShare v ∗ owns (c : Thread nD τ) arg6 fullShare (k1_pay2 i q k v s) ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (View.cover_of_tiled _ S1024x128.size (by rfl))]
    rw [View.canon_cons_unit_zero (S := S1024x128) hz]
    simp only [View.readAt_eq_ld, harg3.read_unread, harg4.read_unread, harg5.read_unread, harg7.read_unread, View.ld_unit_zero (S := S1024x128) hz, View.readCov_unit_zero (S := S1024x128) _ hz]
  iexists _; isplitr
  swap; · iexact H7
  ipureintro
  sl_unfold_words
  rw [View.read_writes_eq_canon _ _ _ (View.cover_of_tiled _ S1024x128.size (by rfl))]
  rw [View.canon_cons_unit_zero (S := S1024x128) hz]
  simp only [View.readAt_eq_ld, harg3.read_unread, harg4.read_unread, harg5.read_unread, harg7.read_unread, View.ld_unit_zero (S := S1024x128) hz, View.readCov_unit_zero (S := S1024x128) _ hz]

set_option maxHeartbeats 2000000 in
/-- A last key block that is skipped: the accumulator, unchanged, is stored into the output window's buffer. -/
theorem run_last_skip (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : ¬ isLE i) (h3 : isLast i)
    (s : Vec F S1024x128 .f32) (K : PUnit → sProp 𝕄) :
    iprop((∃ d, owns (c : Thread nD τ) arg6 fullShare d) ∗ owns (c : Thread nD τ) arg7 fullShare s
        ∗ (iprop(owns (c : Thread nD τ) arg6 fullShare s ∗ owns (c : Thread nD τ) arg7 fullShare s) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%d, %f6, -, H6⟩, ⟨%f7, %hf7, H7⟩, Hk⟩
  obtain rfl := harg7.eq_unread hf7
  sl_exec (disch := first | exact h1 | exact h2 | exact h3)
  sl_step
  iapply Hk
  isplitl [H6]
  · iexists _; isplitr
    swap; · iexact H6
    ipureintro
    sl_unfold_words
    rw [View.read_writes_eq_canon _ _ _ (View.cover_of_tiled _ S1024x128.size (by rfl))]
    rw [View.canon_cons_unit_zero (S := S1024x128) hz]
    simp only [View.readAt_eq_ld, harg3.read_unread, harg4.read_unread, harg5.read_unread, harg7.read_unread, View.ld_unit_zero (S := S1024x128) hz, View.readCov_unit_zero (S := S1024x128) _ hz]
  iexists _; isplitr; · ipureintro; exact harg7.read_unread _
  iexact H7

end Cert.Kernel.R1

end
-- ==== Proof.K.Frame1.lean ====
/-
  Region 1's body obligation: at every grid point the body, called on the windows' current buffers and the accumulator
  as the invariant holds it, leaves the input windows at their blocks, the accumulator at its next value (the point's
  step) and, at a last key block, the output window at the accumulator; elsewhere the output window's buffer is handed
  back untouched.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Run1
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem step_pos (c : Dev nD) (t : Fin cfg1.N) (s : Vec F S1024x128 .f32) (h : isLE (grid1.coords t)) :
    step V c t s = k1_pay2 (grid1.coords t) (qblk V c t) (kblk V c t) (vblk V c t) s := if_pos h
theorem step_neg (c : Dev nD) (t : Fin cfg1.N) (s : Vec F S1024x128 .f32) (h : ¬ isLE (grid1.coords t)) :
    step V c t s = s := if_neg h

/-- Each input window's current buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Where the output window is idle (not a last key block) and where it is live; it is written back only where live. -/
theorem idle_3 : ∀ t : Fin cfg1.N, ¬ isLast (grid1.coords t) → cfg1.idle 3 (grid1.coords t) = true := by decide +kernel
theorem live_3 : ∀ t : Fin cfg1.N, isLast (grid1.coords t) → cfg1.idle 3 (grid1.coords t) = false := by decide +kernel
theorem noflush_3 : ∀ t : Fin cfg1.N, ¬ isLast (grid1.coords t) → (cfg1.win 3).flush t = false := by decide +kernel
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel

/-- The windows' current staging memrefs at point t, spelled as the pipeline passes them. -/
abbrev ms0 (t : Fin cfg1.N) : Memref sig .tc .vmem S1024x128 .f32 := win1_0.stage (cfg1.slots t 0)
abbrev ms1 (t : Fin cfg1.N) : Memref sig .tc .vmem S1024x128 .f32 := win1_1.stage (cfg1.slots t 1)
abbrev ms2 (t : Fin cfg1.N) : Memref sig .tc .vmem S1024x128 .f32 := win1_2.stage (cfg1.slots t 2)
abbrev ms3 (t : Fin cfg1.N) : Memref sig .tc .vmem S1024x128 .f32 := win1_3.stage (cfg1.slots t 3)

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Before any point the invariant holds the accumulator at some contents. -/
theorem Phi_some (c : Dev nD) (t : Fin cfg1.N) :
    (dat V c).Φ t.castSucc ⊢ iprop(((∃ s, owns (c : Thread nD τ) scM fullShare s) ∗ others (F := F) c) ∗ (∃ r, prngReg c r)) := by
  rw [Phi_castSucc]
  by_cases hz : t.val = 0
  · rw [PhiS_zero V c _ _ hz]; exact PhiA_in c
  · rw [PhiS_pos V c _ _ hz]
    iintro ⟨⟨HS, Ho⟩, Hg⟩
    isplitl [HS Ho]
    · isplitl [HS]
      · iexists _; iexact HS
      iexact Ho
    iexact Hg

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 256 := lt_of_lt_of_eq t.isLt (show cfg1.N = 256 from N_1)
  by_cases h0 : t.val % 4 = 0
  · have hF : isFirst (grid1.coords t) := (isFirst_iff t).mpr h0
    have hLE : isLE (grid1.coords t) := (isLE_iff t).mpr (by omega)
    have hL : ¬ isLast (grid1.coords t) := fun h => by have := (isLast_iff t).mp h; omega
    rw [Dat.leavesExact_idle (dat V c) 3 t (idle_3 t hL) (noflush_3 t hL)]
    rw [acc_reset V c t h0, step_pos V c t _ hLE]
    iintro ⟨HΦ, Ho, H0, H1, H2, H3⟩
    ihave HΦ' := (Phi_some V c t) $$ HΦ
    icases HΦ' with ⟨⟨HS, Hoth⟩, Hg⟩
    icases H0 with ⟨%d0, H0⟩
    icases H1 with ⟨%d1, H1⟩
    icases H2 with ⟨%d2, H2⟩
    iapply (run_first c Set.univ (grid1.coords t) _ _ _ _ _ _ _ _ _ _ hF hLE hL (qblk V c t) (kblk V c t) (vblk V c t) _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hF : ¬ isFirst (grid1.coords t) := fun h => h0 ((isFirst_iff t).mp h)
    have hz : t.val ≠ 0 := fun e => h0 (by rw [e])
    rw [acc_step V c t h0]
    rw [Phi_castSucc, PhiS_pos V c _ _ hz]
    by_cases hLE : isLE (grid1.coords t)
    · rw [step_pos V c t _ hLE]
      by_cases h3 : t.val % 4 = 3
      · have hL : isLast (grid1.coords t) := (isLast_iff t).mpr h3
        rw [show (dat V c).leavesExact 3 t = owns (c : Thread nD τ) (ms3 t) fullShare ((dat V c).after 3 t) from by
          unfold Dat.leavesExact; rw [live_3 t hL], after_3, acc_step V c t h0, step_pos V c t _ hLE]
        iintro ⟨⟨⟨HS, Hoth⟩, Hg⟩, Ho, H0, H1, H2, H3⟩
        icases H0 with ⟨%d0, H0⟩
        icases H1 with ⟨%d1, H1⟩
        icases H2 with ⟨%d2, H2⟩
        iapply (run_last_add c Set.univ (grid1.coords t) _ _ _ _ _ _ _ _ _ _ hF hLE hL (qblk V c t) (kblk V c t) (vblk V c t) _ _)
        isplitl [H0]; · iexact H0
        isplitl [H1]; · iexact H1
        isplitl [H2]; · iexact H2
        isplitl [H3]; · icases H3 with ⟨%d3, H3⟩; iexists _; iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · have hL : ¬ isLast (grid1.coords t) := fun h => h3 ((isLast_iff t).mp h)
        rw [Dat.leavesExact_idle (dat V c) 3 t (idle_3 t hL) (noflush_3 t hL)]
        iintro ⟨⟨⟨HS, Hoth⟩, Hg⟩, Ho, H0, H1, H2, H3⟩
        icases H0 with ⟨%d0, H0⟩
        icases H1 with ⟨%d1, H1⟩
        icases H2 with ⟨%d2, H2⟩
        iapply (run_add c Set.univ (grid1.coords t) _ _ _ _ _ _ _ _ _ _ hF hLE hL (qblk V c t) (kblk V c t) (vblk V c t) _ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
    · rw [step_neg V c t _ hLE]
      by_cases h3 : t.val % 4 = 3
      · have hL : isLast (grid1.coords t) := (isLast_iff t).mpr h3
        rw [show (dat V c).leavesExact 3 t = owns (c : Thread nD τ) (ms3 t) fullShare ((dat V c).after 3 t) from by
          unfold Dat.leavesExact; rw [live_3 t hL], after_3, acc_step V c t h0, step_neg V c t _ hLE]
        iintro ⟨⟨⟨HS, Hoth⟩, Hg⟩, Ho, H0, H1, H2, H3⟩
        icases H0 with ⟨%d0, H0⟩
        icases H1 with ⟨%d1, H1⟩
        icases H2 with ⟨%d2, H2⟩
        iapply (run_last_skip c Set.univ (grid1.coords t) _ _ _ _ _ _ _ _ _ _ hF hLE hL _ _)
        isplitl [H3]; · icases H3 with ⟨%d3, H3⟩; iexists _; iexact H3
        isplitl [HS]; · iexact HS
        iintro ⟨H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · have hL : ¬ isLast (grid1.coords t) := fun h => h3 ((isLast_iff t).mp h)
        rw [Dat.leavesExact_idle (dat V c) 3 t (idle_3 t hL) (noflush_3 t hL)]
        iintro ⟨⟨⟨HS, Hoth⟩, Hg⟩, Ho, H0, H1, H2, H3⟩
        icases H0 with ⟨%d0, H0⟩
        icases H1 with ⟨%d1, H1⟩
        icases H2 with ⟨%d2, H2⟩
        iapply (run_skip c Set.univ (grid1.coords t) _ _ _ _ _ _ _ _ _ _ hF hLE hL _)
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After the last point the invariant gives the scoped rest back, the accumulator's contents forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  refine .trans ?_ (PhiA_out c)
  iintro ⟨⟨HS, Ho⟩, Hg⟩
  isplitl [HS Ho]
  · isplitl [HS]
    · iexists _; iexact HS
    iexact Ho
  iexact Hg

end Cert.Kernel.R1

end
-- ==== Proof.K.Scoped2.lean ====
/-
  Region 2's scoped buffers apart from its own staging buffers: its accumulator, and the other regions' staging buffers
  and accumulators, which it never touches. The region's standing invariant holds all of them at some contents; this module
  separates the accumulator from the rest.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scoped buffers of the core that are neither a staging buffer of this region nor its accumulator. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The accumulator as a memref. -/
abbrev scM : Memref sig .tc .vmem S1024x512 .f32 := Memref.whole cc2_scratch0

/-- The region's scoped rest holds the accumulator at some contents, and the others; -/
theorem PhiA_in (c : Dev nD) :
    (Pipeline.ΦA spec2 c : sProp 𝕄) ⊢ iprop(((∃ d, owns (c : Thread nD τ) scM fullShare d) ∗ others (F := F) c) ∗ (∃ r, prngReg c r)) := by
  unfold Pipeline.ΦA others; rw [scopedRest2_eq]; simp only [scM, owns_whole]
  iintro ⟨⟨H0, H1, H2, H3, H4, H5, H6, H7, H8, H9, H10, H11, H12, H13, H14, H15, H16, H17, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hg

/-- and is made of them. -/
theorem PhiA_out (c : Dev nD) :
    iprop(((∃ d, owns (c : Thread nD τ) scM fullShare d) ∗ others (F := F) c) ∗ (∃ r, prngReg c r)) ⊢ (Pipeline.ΦA spec2 c : sProp 𝕄) := by
  unfold Pipeline.ΦA others; rw [scopedRest2_eq]; simp only [scM, owns_whole]
  iintro ⟨⟨HS, H0, H1, H2, H3, H4, H5, H6, H7, H8, H9, H10, H11, H12, H13, H14, H15, H16, H17⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact HS
  iexact Hg

end Cert.Kernel.R2

end
-- ==== Proof.K.Data2.lean ====
/-
  The last projection, region 2 of the program: the grid is (row block i of 4, column block j of 4, depth block k of 4),
  point t = (i·4 + j)·4 + k. At each point the body adds the product of the 1024×512 block (i,k) of the left array and
  the 512×512 block (k,j) of the right array into a 1024×512 accumulator kept in scratch, which it clears at k = 0; at k = 3
  it adds the bias row's block j and stores the sum into the output window, the only point of the four that writes block (i,j) back.
  This module names what the scratch and the windows hold after each point.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Scoped2

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left block, the right block and the bias block of point t, at their literal types. -/
abbrev xblk (c : Dev nD) (t : Fin cfg2.N) : Vec F S1024x512 .f32 := iblk V c 0 t
abbrev wblk (c : Dev nD) (t : Fin cfg2.N) : Vec F S512x512 .f32 := iblk V c 1 t
abbrev bblk (c : Dev nD) (t : Fin cfg2.N) : Vec F S1x512 .f32 := iblk V c 2 t

/-- The accumulator after point n: the product of point n's blocks added to what point n − 1 left, or to zero
    at the first of each run of four points. -/
def acc (c : Dev nD) : (n : ℕ) → n < cfg2.N → Vec F S1024x512 .f32
  | 0, h => k2_pay2 (xblk V c ⟨0, h⟩) (wblk V c ⟨0, h⟩) k2_pay1
  | n + 1, h => k2_pay2 (xblk V c ⟨n + 1, h⟩) (wblk V c ⟨n + 1, h⟩)
      (if (n + 1) % 4 = 0 then k2_pay1 else acc c n (Nat.lt_of_succ_lt h))

theorem acc_reset (c : Dev nD) (t : Fin cfg2.N) (h : t.val % 4 = 0) :
    acc V c t.val t.isLt = k2_pay2 (xblk V c t) (wblk V c t) k2_pay1 := by
  obtain ⟨n, hn⟩ := t
  cases n with
  | zero => rfl
  | succ n => simp only [acc]; rw [if_pos h]

theorem acc_step (c : Dev nD) (t : Fin cfg2.N) (h : ¬ t.val % 4 = 0) :
    acc V c t.val t.isLt = k2_pay2 (xblk V c t) (wblk V c t) (acc V c (t.val - 1) (Nat.lt_of_le_of_lt (Nat.sub_le _ _) t.isLt)) := by
  obtain ⟨n, hn⟩ := t
  cases n with
  | zero => exact absurd (Nat.zero_mod _) h
  | succ n => simp only [acc]; rw [if_neg h]; rfl

/-- The region invariant before position n: before the first point every scoped buffer at anything; afterwards the
    accumulator at what the point before left. -/
def PhiS (c : Dev nD) : (n : ℕ) → n ≤ cfg2.N → sProp 𝕄
  | 0, _ => Pipeline.ΦA spec2 c
  | n + 1, hn => iprop((owns (c : Thread nD τ) scM fullShare (acc V c n hn) ∗ others (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg2.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-- The proof data of the region on core c: the arrays as the region finds them; after the body each input window at its
    block and the output window at the accumulator plus the bias block; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (acc V c t.val t.isLt) (bblk V c t)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (acc V c t.val t.isLt) (bblk V c t) := by dsimp only [dat]

theorem Phi_castSucc (c : Dev nD) (t : Fin cfg2.N) :
    (dat V c).Φ t.castSucc = PhiS V c t.val (Nat.le_of_lt t.isLt) := by
  dsimp only [dat]; simp only [Fin.coe_castSucc]

end Cert.Kernel.R2

end
-- ==== Proof.K.Run2.lean ====
/-
  Region 2's body, case by case: at depth block k = 0 the accumulator is cleared and the first product added;
  at 0 < k < 3 the next product is added to what it holds; at k = 3 the last product is added and the sum plus the bias
  block is stored into the output window.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Data2
import Idealize.ShloMosaic.Lib.Pipeline.Value
set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "The depth block is the first": the body's first test, over the grid coordinates. -/
abbrev isFirst (i : grid2.Coords) : Prop := (Scalar.cmpi .ne (Scalar.extui (Scalar.cmpi .eq (BitVec.ofNat 32 (i 2).val) 0#32)) 0#32) = 1#1
/-- "The depth block is the last": the body's second test. -/
abbrev isLast (i : grid2.Coords) : Prop := k2_cond2 i = 1#1

theorem isFirst_iff : ∀ t : Fin cfg2.N, isFirst (grid2.coords t) ↔ t.val % 4 = 0 :=
  (by decide +kernel : ∀ t : Fin grid2.N, isFirst (grid2.coords t) ↔ t.val % 4 = 0)
theorem isLast_iff : ∀ t : Fin cfg2.N, isLast (grid2.coords t) ↔ t.val % 4 = 3 :=
  (by decide +kernel : ∀ t : Fin grid2.N, isLast (grid2.coords t) ↔ t.val % 4 = 3)

/-- Every access of the body is the whole buffer: the offsets are zero. -/
theorem hz : (![0, 0] : Fin 2 → Nat) = fun _ => 0 := funext fun a => by fin_cases a <;> rfl

set_option maxHeartbeats 1000000 in
/-- A first point: the accumulator, whatever it held, is cleared and the product of the two input blocks added. -/
theorem run_first (c : Dev nD) (E : Set ℕ) (i : grid2.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : isFirst i) (h2 : ¬ isLast i)
    (x : Vec F S1024x512 .f32) (w : Vec F S512x512 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w ∗ owns (c : Thread nD τ) arg7 fullShare (k2_pay2 x w k2_pay1)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A middle point: the product of the two input blocks is added to the accumulator; nothing else is touched. -/
theorem run_mid (c : Dev nD) (E : Set ℕ) (i : grid2.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : ¬ isLast i)
    (x : Vec F S1024x512 .f32) (w : Vec F S512x512 .f32) (s : Vec F S1024x512 .f32) (K : PUnit → sProp 𝕄) :
    iprop(owns (c : Thread nD τ) arg3 fullShare x ∗ owns (c : Thread nD τ) arg4 fullShare w ∗ owns (c : Thread nD τ) arg7 fullShare s
        ∗ (iprop(owns (c : Thread nD τ) arg3 fullShare x ∗ owns (c : Thread nD τ) arg4 fullShare w ∗ owns (c : Thread nD τ) arg7 fullShare (k2_pay2 x w s)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A last point: the product is added to the accumulator, and the accumulator plus the bias block is stored into the
    output window's buffer, whatever that held. -/
theorem run_last (c : Dev nD) (E : Set ℕ) (i : grid2.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : isLast i)
    (x : Vec F S1024x512 .f32) (w : Vec F S512x512 .f32) (b : Vec F S1x512 .f32) (s : Vec F S1024x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 x w s) b) ∗ owns (c : Thread nD τ) arg7 fullShare (k2_pay2 x w s)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (View.cover_of_tiled _ S1024x512.size (by rfl))]
    rw [View.canon_cons_unit_zero (S := S1024x512) hz]
    simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

end Cert.Kernel.R2

end
-- ==== Proof.K.Frame2.lean ====
/-
  Region 2's body obligation: at every grid point the body, called on the windows' current buffers and the accumulator
  as the invariant holds it, leaves the input windows at their blocks, the accumulator at its next value and, at a last
  depth block, the output window at the accumulator plus the bias block; elsewhere the output window's buffer is handed
  back untouched.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Run2
set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Where the output window is idle (not a last depth block) and where it is live; it is written back only where live. -/
theorem idle_3 : ∀ t : Fin cfg2.N, ¬ isLast (grid2.coords t) → cfg2.idle 3 (grid2.coords t) = true := by decide +kernel
theorem live_3 : ∀ t : Fin cfg2.N, isLast (grid2.coords t) → cfg2.idle 3 (grid2.coords t) = false := by decide +kernel
theorem noflush_3 : ∀ t : Fin cfg2.N, ¬ isLast (grid2.coords t) → (cfg2.win 3).flush t = false := by decide +kernel
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel

/-- The windows' current staging memrefs at point t, spelled as the pipeline passes them. -/
abbrev ms0 (t : Fin cfg2.N) : Memref sig .tc .vmem S1024x512 .f32 := win2_0.stage (cfg2.slots t 0)
abbrev ms1 (t : Fin cfg2.N) : Memref sig .tc .vmem S512x512 .f32 := win2_1.stage (cfg2.slots t 1)
abbrev ms2 (t : Fin cfg2.N) : Memref sig .tc .vmem S1x512 .f32 := win2_2.stage (cfg2.slots t 2)
abbrev ms3 (t : Fin cfg2.N) : Memref sig .tc .vmem S1024x512 .f32 := win2_3.stage (cfg2.slots t 3)

/-- What the body is called with at point t, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Before any point the invariant holds the accumulator at some contents. -/
theorem Phi_some (c : Dev nD) (t : Fin cfg2.N) :
    (dat V c).Φ t.castSucc ⊢ iprop(((∃ s, owns (c : Thread nD τ) scM fullShare s) ∗ others (F := F) c) ∗ (∃ r, prngReg c r)) := by
  rw [Phi_castSucc]
  by_cases hz : t.val = 0
  · rw [PhiS_zero V c _ _ hz]; exact PhiA_in c
  · rw [PhiS_pos V c _ _ hz]
    iintro ⟨⟨HS, Ho⟩, Hg⟩
    isplitl [HS Ho]
    · isplitl [HS]
      · iexists _; iexact HS
      iexact Ho
    iexact Hg

set_option maxHeartbeats 4000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 64 := lt_of_lt_of_eq t.isLt (show cfg2.N = 64 from N_2)
  by_cases h0 : t.val % 4 = 0
  · have hF : isFirst (grid2.coords t) := (isFirst_iff t).mpr h0
    have hL : ¬ isLast (grid2.coords t) := fun h => by have := (isLast_iff t).mp h; omega
    rw [Dat.leavesExact_idle (dat V c) 3 t (idle_3 t hL) (noflush_3 t hL)]
    rw [acc_reset V c t h0]
    iintro ⟨HΦ, Ho, H0, H1, H2, H3⟩
    ihave HΦ' := (Phi_some V c t) $$ HΦ
    icases HΦ' with ⟨⟨HS, Hoth⟩, Hg⟩
    icases H0 with ⟨%d0, H0⟩
    icases H1 with ⟨%d1, H1⟩
    icases H2 with ⟨%d2, H2⟩
    iapply (run_first c Set.univ (grid2.coords t) _ _ _ _ _ _ _ _ _ _ hF hL (xblk V c t) (wblk V c t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hF : ¬ isFirst (grid2.coords t) := fun h => h0 ((isFirst_iff t).mp h)
    have hz : t.val ≠ 0 := fun e => h0 (by rw [e])
    rw [acc_step V c t h0]
    rw [Phi_castSucc, PhiS_pos V c _ _ hz]
    by_cases h3 : t.val % 4 = 3
    · have hL : isLast (grid2.coords t) := (isLast_iff t).mpr h3
      rw [show (dat V c).leavesExact 3 t = owns (c : Thread nD τ) (ms3 t) fullShare ((dat V c).after 3 t) from by
        unfold Dat.leavesExact; rw [live_3 t hL], after_3, acc_step V c t h0]
      iintro ⟨⟨⟨HS, Hoth⟩, Hg⟩, Ho, H0, H1, H2, H3⟩
      icases H0 with ⟨%d0, H0⟩
      icases H1 with ⟨%d1, H1⟩
      icases H2 with ⟨%d2, H2⟩
      iapply (run_last c Set.univ (grid2.coords t) _ _ _ _ _ _ _ _ _ _ hF hL (xblk V c t) (wblk V c t) (bblk V c t) _ _)
      isplitl [H0]; · iexact H0
      isplitl [H1]; · iexact H1
      isplitl [H2]; · iexact H2
      isplitl [H3]; · icases H3 with ⟨%d3, H3⟩; iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hL : ¬ isLast (grid2.coords t) := fun h => h3 ((isLast_iff t).mp h)
      rw [Dat.leavesExact_idle (dat V c) 3 t (idle_3 t hL) (noflush_3 t hL)]
      iintro ⟨⟨⟨HS, Hoth⟩, Hg⟩, Ho, H0, H1, H2, H3⟩
      icases H0 with ⟨%d0, H0⟩
      icases H1 with ⟨%d1, H1⟩
      icases H2 with ⟨%d2, H2⟩
      iapply (run_mid c Set.univ (grid2.coords t) _ _ _ _ _ _ _ _ _ _ hF hL (xblk V c t) (wblk V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]

/-- After the last point the invariant gives the scoped rest back, the accumulator's contents forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 64 := N_2; omega)]
  refine .trans ?_ (PhiA_out c)
  iintro ⟨⟨HS, Ho⟩, Hg⟩
  isplitl [HS Ho]
  · isplitl [HS]
    · iexists _; iexact HS
    iexact Ho
  iexact Hg

end Cert.Kernel.R2

end
-- ==== Proof.K.Pdats.lean ====
/-
  The program as a whole: what the core's unscoped buffers hold between @main's items — the launch contents, the bias row
  reshaped, then after each region its output array at what that region's proof data compute — and, over them, every
  region's proof data at once.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Frame0
import proofs.«123105_j28527172780035_1_alg».proof.Proof.K.Frame1
import proofs.«123105_j28527172780035_1_alg».proof.Proof.K.Frame2
import proofs.«123105_j28527172780035_1_alg».proof.Proof.Gen.Kernel.Regions
set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The contents region 0 is entered with: the launch contents after the first host stretch. -/
abbrev E1 (c : Dev nD) : (b : Ref sig .tc) → Buf (Elt F) ((c : Thread nD τ).loc b) := fun b => V1 m c b
/-- What region 0 leaves in its output array. -/
def o1 (c : Dev nD) : Buf (Elt F) ((c : Thread nD τ).loc main_v1) := (R0.dat (E1 m) c).arrAt 3 cfg0.N
/-- The contents after region 0, -/
abbrev W2 (c : Dev nD) : Valuation τ sig (Elt F) := Function.update (V1 m c) main_v1 (o1 m c)
abbrev E2 (c : Dev nD) : (b : Ref sig .tc) → Buf (Elt F) ((c : Thread nD τ).loc b) := fun b => W2 m c b
/-- what region 1 leaves in its output array, -/
def o2 (c : Dev nD) : Buf (Elt F) ((c : Thread nD τ).loc main_v2) := (R1.dat (E2 m) c).arrAt 3 cfg1.N
/-- the contents after region 1, after the second host stretch, -/
abbrev W3 (c : Dev nD) : Valuation τ sig (Elt F) := Function.update (W2 m c) main_v2 (o2 m c)
abbrev W4 (c : Dev nD) : Valuation τ sig (Elt F) := StableHlo.after hostOps2 (W3 m c)
abbrev E4 (c : Dev nD) : (b : Ref sig .tc) → Buf (Elt F) ((c : Thread nD τ).loc b) := fun b => W4 m c b
/-- what region 2 leaves in its output array, and the contents at the end. -/
def o4 (c : Dev nD) : Buf (Elt F) ((c : Thread nD τ).loc main_v4) := (R2.dat (E4 m) c).arrAt 3 cfg2.N
abbrev W5 (c : Dev nD) : Valuation τ sig (Elt F) := Function.update (W4 m c) main_v4 (o4 m c)

/-- What the regions leave, as the family the generated valuations are written over (read only at the three output arrays). -/
def outs : Outs (F := F) := fun _ r c =>
  if h : r = main_v1 then h ▸ o1 m c else if h : r = main_v2 then h ▸ o2 m c else if h : r = main_v4 then h ▸ o4 m c else V0 m c r

theorem outs_v1 (J : ℕ) (c : Dev nD) : outs m J main_v1 c = o1 m c := by
  unfold outs; rw [dif_pos rfl]
theorem outs_v2 (J : ℕ) (c : Dev nD) : outs m J main_v2 c = o2 m c := by
  unfold outs; rw [dif_neg (by decide), dif_pos rfl]
theorem outs_v4 (J : ℕ) (c : Dev nD) : outs m J main_v4 c = o4 m c := by
  unfold outs; rw [dif_neg (by decide), dif_neg (by decide), dif_pos rfl]

/-- The generated valuations at this family are the contents above. -/
theorem V2_eq (c : Dev nD) : V2 m (outs m) c = W2 m c := by
  show Function.update (V1 m c) main_v1 (outs m 2 main_v1 c) = Function.update (V1 m c) main_v1 (o1 m c)
  rw [outs_v1]
theorem V3_eq (c : Dev nD) : V3 m (outs m) c = W3 m c := by
  show Function.update (V2 m (outs m) c) main_v2 (outs m 3 main_v2 c) = Function.update (W2 m c) main_v2 (o2 m c)
  rw [outs_v2, V2_eq]
theorem V4_eq (c : Dev nD) : V4 m (outs m) c = W4 m c := by
  show StableHlo.after hostOps2 (V3 m (outs m) c) = StableHlo.after hostOps2 (W3 m c)
  rw [V3_eq]
theorem V5_eq (c : Dev nD) : V5 m (outs m) c = W5 m c := by
  show Function.update (V4 m (outs m) c) main_v4 (outs m 5 main_v4 c) = Function.update (W4 m c) main_v4 (o4 m c)
  rw [outs_v4, V4_eq]

/-- The contents after a region, read at its output array and off it. -/
theorem W2_v1 (c : Dev nD) : W2 m c main_v1 = o1 m c := by simp only [W2, Function.update_self]
theorem W2_of (c : Dev nD) (r : Ref sig .tc) (h : r ≠ main_v1) : W2 m c r = V1 m c r := by
  simp only [W2, Function.update_of_ne (StableHlo.devRef_ne_of_ne h : (Proc.devRef .tc r : DevRef τ sig) ≠ Proc.devRef .tc main_v1)]
theorem W3_v2 (c : Dev nD) : W3 m c main_v2 = o2 m c := by simp only [W3, Function.update_self]
theorem W3_of (c : Dev nD) (r : Ref sig .tc) (h : r ≠ main_v2) : W3 m c r = W2 m c r := by
  simp only [W3, Function.update_of_ne (StableHlo.devRef_ne_of_ne h : (Proc.devRef .tc r : DevRef τ sig) ≠ Proc.devRef .tc main_v2)]
theorem W5_v4 (c : Dev nD) : W5 m c main_v4 = o4 m c := by simp only [W5, Function.update_self]
theorem W5_of (c : Dev nD) (r : Ref sig .tc) (h : r ≠ main_v4) : W5 m c r = W4 m c r := by
  simp only [W5, Function.update_of_ne (StableHlo.devRef_ne_of_ne h : (Proc.devRef .tc r : DevRef τ sig) ≠ Proc.devRef .tc main_v4)]

/-- Every region's proof data, each at its region's entry contents: a literal match on the region. -/
def pdats : (p : Fin 3) → (c : Dev nD) → Dat τ (Elt F) Unit ℕ (UR sig nD τ) ℕ (cfgs p) c
  | ⟨0, _⟩ => fun c => R0.dat (E1 m) c
  | ⟨1, _⟩ => fun c => R1.dat (E2 m) c
  | ⟨2, _⟩ => fun c => R2.dat (E4 m) c

/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)

end Cert.Kernel.Asm

end
-- ==== Proof.K.Seg0.lean ====
/-
  Region 0 as a segment of @main: entered from the contents after the first host stretch, left at those contents with
  its output array at what its proof data compute.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Pdats
set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the valuation after it says: an input array what it held, the
    output array what the proof data compute. -/
theorem hF0 (c : Dev nD) : ∀ w : Fin cfg0.W, (pdats m 0 c).arrAt w cfg0.N = W2 m c (Pipeline.arrRef spec0 w)
  | ⟨0, h⟩ => by
      have h1 : (R0.dat (E1 m) c).arrAt ⟨0, h⟩ cfg0.N = (R0.dat (E1 m) c).A ⟨0, h⟩ := (R0.dat (E1 m) c).arrAt_in ⟨0, h⟩ rfl _
      have h2 : (R0.dat (E1 m) c).A ⟨0, h⟩ = V1 m c main_arg0 := rfl
      exact h1.trans (h2.trans (W2_of m c main_arg0 (by decide)).symm)
  | ⟨1, h⟩ => by
      have h1 : (R0.dat (E1 m) c).arrAt ⟨1, h⟩ cfg0.N = (R0.dat (E1 m) c).A ⟨1, h⟩ := (R0.dat (E1 m) c).arrAt_in ⟨1, h⟩ rfl _
      have h2 : (R0.dat (E1 m) c).A ⟨1, h⟩ = V1 m c main_arg1 := rfl
      exact h1.trans (h2.trans (W2_of m c main_arg1 (by decide)).symm)
  | ⟨2, h⟩ => by
      have h1 : (R0.dat (E1 m) c).arrAt ⟨2, h⟩ cfg0.N = (R0.dat (E1 m) c).A ⟨2, h⟩ := (R0.dat (E1 m) c).arrAt_in ⟨2, h⟩ rfl _
      have h2 : (R0.dat (E1 m) c).A ⟨2, h⟩ = V1 m c main_v0 := rfl
      exact h1.trans (h2.trans (W2_of m c main_v0 (by decide)).symm)
  | ⟨3, _⟩ => (W2_v1 m c).symm
/-- Off the region's arrays the valuation after it is the one before. -/
theorem hrest0 (c : Dev nD) : ∀ b, b ∉ Finset.univ.image (Pipeline.arrRef spec0) → W2 m c b = V1 m c b :=
  fun b hb => W2_of m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 0 over the thread state "every unscoped buffer at the contents before it, the generator register at some state,
    nothing owed": its arrays split out of the unscoped buffers at entry and put back at the exit contents; the generator
    register into the invariant and out; no semaphore of the kernel's own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin (E1 m) c)
    unfold Pipeline.ΦA
    iintro ⟨Hp, -, Hr⟩
    isplitl [Hr]; · iexact Hr
    iexact Hp
  hout c := by
    rw [Pipeline.ownSems0_none]
    refine (R0.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.K.Shared1.lean ====
/-
  Region 1's three input windows read ONE array, the projection. At the region's entry the core's unscoped buffers,
  each held whole, give the region its arrays with that one buffer's full share dealt three ways (a half to the query
  window, a quarter each to the key and the value window); at its exit the three shares, all at the same contents,
  make the whole again, beside the output array at what the region wrote.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Data1
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Buffer b of core c held whole at share q at the contents G gives it. -/
abbrev pt (c : Dev nD) (G : (b : Ref sig .tc) → Buf (Elt F) ((c : Thread nD τ).loc b)) (q : PosShare TreeShare)
    (b : Ref sig .tc) : sProp 𝕄 :=
  ((c : Thread nD τ).loc b) ↦{q} G b

/-- The shares the region's data holds its four windows' arrays at: the three pieces of the whole for the inputs, the
    whole for the output. -/
theorem share_0 (c : Dev nD) : (dat V c).share 0 = shQ := by
  unfold Dat.share; rw [if_neg (by decide)]; rfl
theorem share_1 (c : Dev nD) : (dat V c).share 1 = shK := by
  unfold Dat.share; rw [if_neg (by decide)]; rfl
theorem share_2 (c : Dev nD) : (dat V c).share 2 = shV := by
  unfold Dat.share; rw [if_neg (by decide)]; rfl
theorem share_3 (c : Dev nD) : (dat V c).share 3 = fullShare := by
  unfold Dat.share; rw [if_pos (by decide)]

/-- One window's array, a whole buffer, at contents read off G is the buffer behind it at the window's share. -/
theorem win_eq (c : Dev nD) (G : (b : Ref sig .tc) → Buf (Elt F) ((c : Thread nD τ).loc b))
    (A : (w : Fin cfg1.W) → Buf (Elt F) ((cfg1.win w).arr.view.loc (c : Thread nD τ)))
    (h : ∀ w, A w = G (Pipeline.arrRef spec1 w)) (w : Fin cfg1.W) :
    ((cfg1.win w).arr.view.loc (c : Thread nD τ) ↦[(cfg1.win w).arr.view.set]{(dat V c).share w} A w : sProp 𝕄)
      = pt c G ((dat V c).share w) (Pipeline.arrRef spec1 w) := by
  rw [h w, (arr_whole1 w).set_eq_univ]

/-- The whole share of a buffer is its left half, and the left and the right half of its right half. -/
theorem pt_deal (c : Dev nD) (G : (b : Ref sig .tc) → Buf (Elt F) ((c : Thread nD τ).loc b)) (b : Ref sig .tc) :
    (pt c G fullShare b : sProp 𝕄) = iprop(pt c G shQ b ∗ pt c G shK b ∗ pt c G shV b) := by
  have h1 : (pt c G fullShare b : sProp 𝕄) = iprop(pt c G shQ b ∗ pt c G fullShare.right b) :=
    equiv_iff.mp ⟨(pointsTo_share (PosShare.mem_left_op_right fullShare)).1, (pointsTo_share (PosShare.mem_left_op_right fullShare)).2⟩
  have h2 : (pt c G fullShare.right b : sProp 𝕄) = iprop(pt c G shK b ∗ pt c G shV b) :=
    equiv_iff.mp ⟨(pointsTo_share (PosShare.mem_left_op_right fullShare.right)).1, (pointsTo_share (PosShare.mem_left_op_right fullShare.right)).2⟩
  rw [h1, h2]

/-- The distinct buffers behind the region's arrays are two: the shared input array and the output array. -/
theorem arrBufs_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop(pt c G fullShare main_v1 ∗ pt c G fullShare main_v2) := by
  unfold Pipeline.arrBufs
  exact bigSep_eq_bigSepL_of_eq [main_v1, main_v2] (by decide) (by decide) _

/-- The region's arrays at contents read off G: the input array three times, at the three pieces of the whole, and the
    output array whole. -/
theorem arrays_eq4 (c : Dev nD) (G : (b : Ref sig .tc) → Buf (Elt F) ((c : Thread nD τ).loc b))
    (A : (w : Fin cfg1.W) → Buf (Elt F) ((cfg1.win w).arr.view.loc (c : Thread nD τ)))
    (h : ∀ w, A w = G (Pipeline.arrRef spec1 w)) :
    ((dat V c).arrays A : sProp 𝕄)
      = iprop(pt c G shQ main_v1 ∗ pt c G shK main_v1 ∗ pt c G shV main_v1 ∗ pt c G fullShare main_v2) := by
  unfold Dat.arrays
  rw [bigSep_W1, win_eq V c G A h 0, win_eq V c G A h 1, win_eq V c G A h 2, win_eq V c G A h 3,
    share_0, share_1, share_2, share_3]

/-- ENTRY: the core's unscoped buffers at V are the region's arrays at their entry contents, the shared input array
    dealt among its three windows, and the unscoped buffers that are no array of the region. -/
theorem arrays_of_bufs (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec1 c (V c)) := by
  rw [Pipeline.PerCore.unscopedBufs_split₀ (fun _ (_ : Unit) => cfg1) () c winFacts₀1.arr_unscoped (V c),
    arrBufs_eq, pt_deal, arrays_eq4 V c (V c) ((dat V c).arrAt · 0) (fun w => rfl)]
  iintro ⟨⟨⟨H0, H1, H2⟩, H3⟩, HR⟩
  isplitr [HR]
  · isplitl [H0]; · iexact H0
    isplitl [H1]; · iexact H1
    isplitl [H2]; · iexact H2
    iexact H3
  · iexact HR

/-- EXIT: the region's arrays at their final contents and the unscoped rest at V are the core's unscoped buffers at any
    valuation V' that has the arrays at those contents and agrees with V off them. -/
theorem bufs_of_arrays (c : Dev nD) (V' : (b : Ref sig .tc) → Buf (Elt F) ((c : Thread nD τ).loc b))
    (hF : ∀ w, (dat V c).arrAt w cfg1.N = V' (Pipeline.arrRef spec1 w))
    (hrest : ∀ b, b ∉ Finset.univ.image (Pipeline.arrRef spec1) → V' b = V c b) :
    iprop((dat V c).arrays ((dat V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hR : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [Pipeline.PerCore.unscopedBufs_split₀ (fun _ (_ : Unit) => cfg1) () c winFacts₀1.arr_unscoped V',
    arrBufs_eq, pt_deal, arrays_eq4 V c V' ((dat V c).arrAt · cfg1.N) hF, hR]
  iintro ⟨⟨H0, H1, H2, H3⟩, HR⟩
  isplitr [HR]
  · isplitr [H3]
    · isplitl [H0]; · iexact H0
      isplitl [H1]; · iexact H1
      iexact H2
    · iexact H3
  · iexact HR

end Cert.Kernel.R1

end
-- ==== Proof.K.Seg1.lean ====
/-
  Region 1 as a segment of @main: entered from the contents after region 0, left at those contents with its output array
  at what its proof data compute. Its three input windows share one array: the entry and the exit deal that array's share
  among them and gather it again.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Pdats
import proofs.«123105_j28527172780035_1_alg».proof.Proof.K.Shared1
set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the valuation after it says: an input array what it held, the
    output array what the proof data compute. -/
theorem hF1 (c : Dev nD) : ∀ w : Fin cfg1.W, (pdats m 1 c).arrAt w cfg1.N = W3 m c (Pipeline.arrRef spec1 w)
  | ⟨0, h⟩ => by
      have h1 : (R1.dat (E2 m) c).arrAt ⟨0, h⟩ cfg1.N = (R1.dat (E2 m) c).A ⟨0, h⟩ := (R1.dat (E2 m) c).arrAt_in ⟨0, h⟩ rfl _
      have h2 : (R1.dat (E2 m) c).A ⟨0, h⟩ = W2 m c main_v1 := rfl
      exact h1.trans (h2.trans (W3_of m c main_v1 (by decide)).symm)
  | ⟨1, h⟩ => by
      have h1 : (R1.dat (E2 m) c).arrAt ⟨1, h⟩ cfg1.N = (R1.dat (E2 m) c).A ⟨1, h⟩ := (R1.dat (E2 m) c).arrAt_in ⟨1, h⟩ rfl _
      have h2 : (R1.dat (E2 m) c).A ⟨1, h⟩ = W2 m c main_v1 := rfl
      exact h1.trans (h2.trans (W3_of m c main_v1 (by decide)).symm)
  | ⟨2, h⟩ => by
      have h1 : (R1.dat (E2 m) c).arrAt ⟨2, h⟩ cfg1.N = (R1.dat (E2 m) c).A ⟨2, h⟩ := (R1.dat (E2 m) c).arrAt_in ⟨2, h⟩ rfl _
      have h2 : (R1.dat (E2 m) c).A ⟨2, h⟩ = W2 m c main_v1 := rfl
      exact h1.trans (h2.trans (W3_of m c main_v1 (by decide)).symm)
  | ⟨3, _⟩ => (W3_v2 m c).symm
/-- Off the region's arrays the valuation after it is the one before. -/
theorem hrest1 (c : Dev nD) : ∀ b, b ∉ Finset.univ.image (Pipeline.arrRef spec1) → W3 m c b = W2 m c b :=
  fun b hb => W3_of m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 1 over the thread state "every unscoped buffer at the contents before it, the generator register at some state,
    nothing owed": its arrays split out of the unscoped buffers at entry and put back at the exit contents; the generator
    register into the invariant and out; no semaphore of the kernel's own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (R1.body_obligation (E2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := R1.arrays_of_bufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin (E2 m) c)
    unfold Pipeline.ΦA
    iintro ⟨Hp, -, Hr⟩
    isplitl [Hr]; · iexact Hr
    iexact Hp
  hout c := by
    rw [Pipeline.ownSems0_none]
    refine (R1.hout (E2 m) c).trans ?_
    unfold Pipeline.ΦA
    iintro ⟨Hr, Hp⟩
    isplitl [Hp]; · iexact Hp
    isplitr; · iempintro
    iexact Hr
  hexit c := by
    have hjoin := R1.bufs_of_arrays (E2 m) c (fun b => W3 m c b) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Asm

end
-- ==== Proof.K.Seg2.lean ====
/-
  Region 2 as a segment of @main: entered from the contents after the second host stretch, left at those contents with
  its output array at what its proof data compute.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Pdats
set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the valuation after it says: an input array what it held, the
    output array what the proof data compute. -/
theorem hF2 (c : Dev nD) : ∀ w : Fin cfg2.W, (pdats m 2 c).arrAt w cfg2.N = W5 m c (Pipeline.arrRef spec2 w)
  | ⟨0, h⟩ => by
      have h1 : (R2.dat (E4 m) c).arrAt ⟨0, h⟩ cfg2.N = (R2.dat (E4 m) c).A ⟨0, h⟩ := (R2.dat (E4 m) c).arrAt_in ⟨0, h⟩ rfl _
      have h2 : (R2.dat (E4 m) c).A ⟨0, h⟩ = W4 m c main_v2 := rfl
      exact h1.trans (h2.trans (W5_of m c main_v2 (by decide)).symm)
  | ⟨1, h⟩ => by
      have h1 : (R2.dat (E4 m) c).arrAt ⟨1, h⟩ cfg2.N = (R2.dat (E4 m) c).A ⟨1, h⟩ := (R2.dat (E4 m) c).arrAt_in ⟨1, h⟩ rfl _
      have h2 : (R2.dat (E4 m) c).A ⟨1, h⟩ = W4 m c main_arg3 := rfl
      exact h1.trans (h2.trans (W5_of m c main_arg3 (by decide)).symm)
  | ⟨2, h⟩ => by
      have h1 : (R2.dat (E4 m) c).arrAt ⟨2, h⟩ cfg2.N = (R2.dat (E4 m) c).A ⟨2, h⟩ := (R2.dat (E4 m) c).arrAt_in ⟨2, h⟩ rfl _
      have h2 : (R2.dat (E4 m) c).A ⟨2, h⟩ = W4 m c main_v3 := rfl
      exact h1.trans (h2.trans (W5_of m c main_v3 (by decide)).symm)
  | ⟨3, _⟩ => (W5_v4 m c).symm
/-- Off the region's arrays the valuation after it is the one before. -/
theorem hrest2 (c : Dev nD) : ∀ b, b ∉ Finset.univ.image (Pipeline.arrRef spec2) → W5 m c b = W4 m c b :=
  fun b hb => W5_of m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 2 over the thread state "every unscoped buffer at the contents before it, the generator register at some state,
    nothing owed": its arrays split out of the unscoped buffers at entry and put back at the exit contents; the generator
    register into the invariant and out; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (R2.body_obligation (E4 m) c).loose
  hwaits := Pipeline.hwaits_of_owed_zero _ _ _ _ L lv 2 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R2.hin (E4 m) c)
    unfold Pipeline.ΦA
    iintro ⟨Hp, -, Hr⟩
    isplitl [Hr]; · iexact Hr
    iexact Hp
  hout c := by
    rw [Pipeline.ownSems0_none]
    refine (R2.hout (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (fun b => W5 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.K.FrameAll.lean ====
/-
  The frame of the whole program: @main's five items — a host stretch, two regions, a host stretch, the last region —
  chained over the contents between them; every execution ends, faults nowhere, and leaves the argument arrays as launched.
-/
import proofs.«123105_j28527172780035_1_alg».proof.Proof.Gen.Kernel.Launch
import proofs.«123105_j28527172780035_1_alg».proof.Proof.Gen.Kernel.Skeleton
import proofs.«123105_j28527172780035_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.K.Seg0
import proofs.«123105_j28527172780035_1_alg».proof.Proof.K.Seg1
import proofs.«123105_j28527172780035_1_alg».proof.Proof.K.Seg2
set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element yields the pipeline library's at every staging cell, and nothing besides. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the state that rides along: its generator register, and that it owes nothing. -/
theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (Rst (F := F)) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : Rst (F := F) c ⊢ (iprop(∃ W, owes (c : Thread nD τ) (0 : CellTallies nD τ sig Unit) W) : sProp 𝕄) := by
  iintro ⟨-, H⟩; iexact H

set_option backward.isDefEq.respectTransparency.types false in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none L lv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_ghost
    (fun _ c => Rst c) (launch_rest ρ) rest_owes
    (reg0 m) (fun c => .rfl) (fun c => by rw [V2_eq]; exact .rfl)
    (reg1 m) (fun c => by rw [V2_eq]; exact .rfl) (fun c => by rw [V3_eq]; exact .rfl)
    (reg2 m) (fun c => by rw [V4_eq]; exact .rfl) (fun c => by rw [V5_eq]; exact .rfl)

end Cert.Kernel.Asm

end
-- ==== Proof.KI.Scoped0.lean ====
/-
  Region 0's scoped buffers apart from its own staging buffers: its accumulator, and the other regions' staging buffers
  and accumulators, which it never touches. The region's standing invariant holds all of them at some contents; this module
  separates the accumulator from the rest.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the core that are neither a staging buffer of this region nor its accumulator. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The accumulator as a memref. -/
abbrev scM : Memref sig .tc .vmem S1024x512 .f32 := Memref.whole cc0_scratch0

/-- The region's scoped rest holds the accumulator at some contents, and the others; -/
theorem PhiA_in (c : Dev nD) :
    (Pipeline.ΦA spec0 c : sProp 𝕄) ⊢ iprop(((∃ d, owns (c : Thread nD τ) scM fullShare d) ∗ others (F := F) c) ∗ (∃ r, prngReg c r)) := by
  unfold Pipeline.ΦA others; rw [scopedRest0_eq]; simp only [scM, owns_whole]
  iintro ⟨⟨HS, H1, H2, H3, H4, H5, H6, H7, H8, H9, H10, H11, H12, H13, H14, H15, H16, H17, H18⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

/-- and is made of them. -/
theorem PhiA_out (c : Dev nD) :
    iprop(((∃ d, owns (c : Thread nD τ) scM fullShare d) ∗ others (F := F) c) ∗ (∃ r, prngReg c r)) ⊢ (Pipeline.ΦA spec0 c : sProp 𝕄) := by
  unfold Pipeline.ΦA others; rw [scopedRest0_eq]; simp only [scM, owns_whole]
  iintro ⟨⟨HS, H1, H2, H3, H4, H5, H6, H7, H8, H9, H10, H11, H12, H13, H14, H15, H16, H17, H18⟩, Hg⟩
  isplitr [Hg]
  ·
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

end Cert.KernelIdeal.R0

end
-- ==== Proof.KI.Data0.lean ====
/-
  The first projection, region 0 of the program: the grid is (row block i of 4, column block j of 12, depth block k of 4),
  point t = (i·12 + j)·4 + k. At each point the body adds the product of the 1024×512 block (i,k) of the left array and
  the 512×512 block (k,j) of the right array into a 1024×512 accumulator kept in scratch, which it clears at k = 0; at k = 3
  it adds the bias row's block j and stores the sum into the output window, the only point of the four that writes block (i,j) back.
  This module names what the scratch and the windows hold after each point.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Scoped0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left block, the right block and the bias block of point t, at their literal types. -/
abbrev xblk (c : Dev nD) (t : Fin cfg0.N) : Vec F S1024x512 .f32 := iblk V c 0 t
abbrev wblk (c : Dev nD) (t : Fin cfg0.N) : Vec F S512x512 .f32 := iblk V c 1 t
abbrev bblk (c : Dev nD) (t : Fin cfg0.N) : Vec F S1x512 .f32 := iblk V c 2 t

/-- The accumulator after point n: the product of point n's blocks added to what point n − 1 left, or to zero
    at the first of each run of four points. -/
def acc (c : Dev nD) : (n : ℕ) → n < cfg0.N → Vec F S1024x512 .f32
  | 0, h => k0_pay2 (xblk V c ⟨0, h⟩) (wblk V c ⟨0, h⟩) k0_pay1
  | n + 1, h => k0_pay2 (xblk V c ⟨n + 1, h⟩) (wblk V c ⟨n + 1, h⟩)
      (if (n + 1) % 4 = 0 then k0_pay1 else acc c n (Nat.lt_of_succ_lt h))

theorem acc_reset (c : Dev nD) (t : Fin cfg0.N) (h : t.val % 4 = 0) :
    acc V c t.val t.isLt = k0_pay2 (xblk V c t) (wblk V c t) k0_pay1 := by
  obtain ⟨n, hn⟩ := t
  cases n with
  | zero => rfl
  | succ n => simp only [acc]; rw [if_pos h]

theorem acc_step (c : Dev nD) (t : Fin cfg0.N) (h : ¬ t.val % 4 = 0) :
    acc V c t.val t.isLt = k0_pay2 (xblk V c t) (wblk V c t) (acc V c (t.val - 1) (Nat.lt_of_le_of_lt (Nat.sub_le _ _) t.isLt)) := by
  obtain ⟨n, hn⟩ := t
  cases n with
  | zero => exact absurd (Nat.zero_mod _) h
  | succ n => simp only [acc]; rw [if_neg h]; rfl

/-- The region invariant before position n: before the first point every scoped buffer at anything; afterwards the
    accumulator at what the point before left. -/
def PhiS (c : Dev nD) : (n : ℕ) → n ≤ cfg0.N → sProp 𝕄
  | 0, _ => Pipeline.ΦA spec0 c
  | n + 1, hn => iprop((owns (c : Thread nD τ) scM fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg0.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-- The proof data of the region on core c: the arrays as the region finds them; after the body each input window at its
    block and the output window at the accumulator plus the bias block; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (acc V c t.val t.isLt) (bblk V c t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay3 (acc V c t.val t.isLt) (bblk V c t) := by dsimp only [dat]

theorem Phi_castSucc (c : Dev nD) (t : Fin cfg0.N) :
    (dat V c).Φ t.castSucc = PhiS V c t.val (Nat.le_of_lt t.isLt) := by
  dsimp only [dat]; simp only [Fin.coe_castSucc]

end Cert.KernelIdeal.R0

end
-- ==== Proof.KI.Run0.lean ====
/-
  Region 0's body, case by case: at depth block k = 0 the accumulator is cleared and the first product added;
  at 0 < k < 3 the next product is added to what it holds; at k = 3 the last product is added and the sum plus the bias
  block is stored into the output window.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Data0
import Idealize.ShloMosaic.Lib.Pipeline.Value
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "The depth block is the first": the body's first test, over the grid coordinates. -/
abbrev isFirst (i : grid0.Coords) : Prop := (Scalar.cmpi .ne (Scalar.extui (Scalar.cmpi .eq (BitVec.ofNat 32 (i 2).val) 0#32)) 0#32) = 1#1
/-- "The depth block is the last": the body's second test. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- Every access of the body is the whole buffer: the offsets are zero. -/
theorem hz : (![0, 0] : Fin 2 → Nat) = fun _ => 0 := funext fun a => by fin_cases a <;> rfl

set_option maxHeartbeats 1000000 in
/-- A first point: the accumulator, whatever it held, is cleared and the product of the two input blocks added. -/
theorem run_first (c : Dev nD) (E : Set ℕ) (i : grid0.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : isFirst i) (h2 : ¬ isLast i)
    (x : Vec F S1024x512 .f32) (w : Vec F S512x512 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w ∗ owns (c : Thread nD τ) arg7 fullShare (k0_pay2 x w k0_pay1)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A middle point: the product of the two input blocks is added to the accumulator; nothing else is touched. -/
theorem run_mid (c : Dev nD) (E : Set ℕ) (i : grid0.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : ¬ isLast i)
    (x : Vec F S1024x512 .f32) (w : Vec F S512x512 .f32) (s : Vec F S1024x512 .f32) (K : PUnit → sProp 𝕄) :
    iprop(owns (c : Thread nD τ) arg3 fullShare x ∗ owns (c : Thread nD τ) arg4 fullShare w ∗ owns (c : Thread nD τ) arg7 fullShare s
        ∗ (iprop(owns (c : Thread nD τ) arg3 fullShare x ∗ owns (c : Thread nD τ) arg4 fullShare w ∗ owns (c : Thread nD τ) arg7 fullShare (k0_pay2 x w s)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A last point: the product is added to the accumulator, and the accumulator plus the bias block is stored into the
    output window's buffer, whatever that held. -/
theorem run_last (c : Dev nD) (E : Set ℕ) (i : grid0.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : isLast i)
    (x : Vec F S1024x512 .f32) (w : Vec F S512x512 .f32) (b : Vec F S1x512 .f32) (s : Vec F S1024x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k0_pay3 (k0_pay2 x w s) b) ∗ owns (c : Thread nD τ) arg7 fullShare (k0_pay2 x w s)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (View.cover_of_tiled _ S1024x512.size (by rfl))]
    rw [View.canon_cons_unit_zero (S := S1024x512) hz]
    simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

end Cert.KernelIdeal.R0

end
-- ==== Proof.KI.Frame0.lean ====
/-
  Region 0's body obligation: at every grid point the body, called on the windows' current buffers and the accumulator
  as the invariant holds it, leaves the input windows at their blocks, the accumulator at its next value and, at a last
  depth block, the output window at the accumulator plus the bias block; elsewhere the output window's buffer is handed
  back untouched.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Run0
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Where the output window is idle (not a last depth block) and where it is live; it is written back only where live. -/
theorem idle_3 : ∀ t : Fin cfg0.N, ¬ isLast (grid0.coords t) → cfg0.idle 3 (grid0.coords t) = true := by decide +kernel
theorem live_3 : ∀ t : Fin cfg0.N, isLast (grid0.coords t) → cfg0.idle 3 (grid0.coords t) = false := by decide +kernel
theorem noflush_3 : ∀ t : Fin cfg0.N, ¬ isLast (grid0.coords t) → (cfg0.win 3).flush t = false := by decide +kernel
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-- The windows' current staging memrefs at point t, spelled as the pipeline passes them. -/
abbrev ms0 (t : Fin cfg0.N) : Memref sig .tc .vmem S1024x512 .f32 := win0_0.stage (cfg0.slots t 0)
abbrev ms1 (t : Fin cfg0.N) : Memref sig .tc .vmem S512x512 .f32 := win0_1.stage (cfg0.slots t 1)
abbrev ms2 (t : Fin cfg0.N) : Memref sig .tc .vmem S1x512 .f32 := win0_2.stage (cfg0.slots t 2)
abbrev ms3 (t : Fin cfg0.N) : Memref sig .tc .vmem S1024x512 .f32 := win0_3.stage (cfg0.slots t 3)

/-- What the body is called with at point t, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Before any point the invariant holds the accumulator at some contents. -/
theorem Phi_some (c : Dev nD) (t : Fin cfg0.N) :
    (dat V c).Φ t.castSucc ⊢ iprop(((∃ s, owns (c : Thread nD τ) scM fullShare s) ∗ others (F := F) c) ∗ (∃ r, prngReg c r)) := by
  rw [Phi_castSucc]
  by_cases hz : t.val = 0
  · rw [PhiS_zero V c _ _ hz]; exact PhiA_in c
  · rw [PhiS_pos V c _ _ hz]
    iintro ⟨⟨HS, Ho⟩, Hg⟩
    isplitl [HS Ho]
    · isplitl [HS]
      · iexists _; iexact HS
      iexact Ho
    iexact Hg

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 192 := lt_of_lt_of_eq t.isLt (show cfg0.N = 192 from N_0)
  by_cases h0 : t.val % 4 = 0
  · have hF : isFirst (grid0.coords t) := (isFirst_iff t).mpr h0
    have hL : ¬ isLast (grid0.coords t) := fun h => by have := (isLast_iff t).mp h; omega
    rw [Dat.leavesExact_idle (dat V c) 3 t (idle_3 t hL) (noflush_3 t hL)]
    rw [acc_reset V c t h0]
    iintro ⟨HΦ, Ho, H0, H1, H2, H3⟩
    ihave HΦ' := (Phi_some V c t) $$ HΦ
    icases HΦ' with ⟨⟨HS, Hoth⟩, Hg⟩
    icases H0 with ⟨%d0, H0⟩
    icases H1 with ⟨%d1, H1⟩
    icases H2 with ⟨%d2, H2⟩
    iapply (run_first c Set.univ (grid0.coords t) _ _ _ _ _ _ _ _ _ _ hF hL (xblk V c t) (wblk V c t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hF : ¬ isFirst (grid0.coords t) := fun h => h0 ((isFirst_iff t).mp h)
    have hz : t.val ≠ 0 := fun e => h0 (by rw [e])
    rw [acc_step V c t h0]
    rw [Phi_castSucc, PhiS_pos V c _ _ hz]
    by_cases h3 : t.val % 4 = 3
    · have hL : isLast (grid0.coords t) := (isLast_iff t).mpr h3
      rw [show (dat V c).leavesExact 3 t = owns (c : Thread nD τ) (ms3 t) fullShare ((dat V c).after 3 t) from by
        unfold Dat.leavesExact; rw [live_3 t hL], after_3, acc_step V c t h0]
      iintro ⟨⟨⟨HS, Hoth⟩, Hg⟩, Ho, H0, H1, H2, H3⟩
      icases H0 with ⟨%d0, H0⟩
      icases H1 with ⟨%d1, H1⟩
      icases H2 with ⟨%d2, H2⟩
      iapply (run_last c Set.univ (grid0.coords t) _ _ _ _ _ _ _ _ _ _ hF hL (xblk V c t) (wblk V c t) (bblk V c t) _ _)
      isplitl [H0]; · iexact H0
      isplitl [H1]; · iexact H1
      isplitl [H2]; · iexact H2
      isplitl [H3]; · icases H3 with ⟨%d3, H3⟩; iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hL : ¬ isLast (grid0.coords t) := fun h => h3 ((isLast_iff t).mp h)
      rw [Dat.leavesExact_idle (dat V c) 3 t (idle_3 t hL) (noflush_3 t hL)]
      iintro ⟨⟨⟨HS, Hoth⟩, Hg⟩, Ho, H0, H1, H2, H3⟩
      icases H0 with ⟨%d0, H0⟩
      icases H1 with ⟨%d1, H1⟩
      icases H2 with ⟨%d2, H2⟩
      iapply (run_mid c Set.univ (grid0.coords t) _ _ _ _ _ _ _ _ _ _ hF hL (xblk V c t) (wblk V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the scoped rest back, the accumulator's contents forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 192 := N_0; omega)]
  refine .trans ?_ (PhiA_out c)
  iintro ⟨⟨HS, Ho⟩, Hg⟩
  isplitl [HS Ho]
  · isplitl [HS]
    · iexists _; iexact HS
    iexact Ho
  iexact Hg

end Cert.KernelIdeal.R0

end
-- ==== Proof.KI.Scoped1.lean ====
/-
  Region 1's scoped buffers apart from its own staging buffers: its accumulator, and the other regions' staging buffers
  and accumulators, which it never touches. The region's standing invariant holds all of them at some contents; this module
  separates the accumulator from the rest.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the core that are neither a staging buffer of this region nor its accumulator. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The accumulator as a memref. -/
abbrev scM : Memref sig .tc .vmem S1024x128 .f32 := Memref.whole cc1_scratch0

/-- The region's scoped rest holds the accumulator at some contents, and the others; -/
theorem PhiA_in (c : Dev nD) :
    (Pipeline.ΦA spec1 c : sProp 𝕄) ⊢ iprop(((∃ d, owns (c : Thread nD τ) scM fullShare d) ∗ others (F := F) c) ∗ (∃ r, prngReg c r)) := by
  unfold Pipeline.ΦA others; rw [scopedRest1_eq]; simp only [scM, owns_whole]
  iintro ⟨⟨H0, H1, H2, H3, H4, H5, H6, H7, H8, HS, H10, H11, H12, H13, H14, H15, H16, H17, H18⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

/-- and is made of them. -/
theorem PhiA_out (c : Dev nD) :
    iprop(((∃ d, owns (c : Thread nD τ) scM fullShare d) ∗ others (F := F) c) ∗ (∃ r, prngReg c r)) ⊢ (Pipeline.ΦA spec1 c : sProp 𝕄) := by
  unfold Pipeline.ΦA others; rw [scopedRest1_eq]; simp only [scM, owns_whole]
  iintro ⟨⟨HS, H0, H1, H2, H3, H4, H5, H6, H7, H8, H10, H11, H12, H13, H14, H15, H16, H17, H18⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iexact Hg

end Cert.KernelIdeal.R1

end
-- ==== Proof.KI.Data1.lean ====
/-
  The causal attention, region 1 of the program: the grid is (head h of 16, query block qi of 4, key block ki of 4),
  point t = (h·4 + qi)·4 + ki. The three input windows read ONE array, the projection: the query block (qi, 16 + h),
  the key block (ki, h) and the value block (ki, 32 + h), each 1024×128. An accumulator kept in scratch is cleared at
  ki = 0; where ki ≤ qi the body adds (mask ∘ (q·kᵀ))·v to it, the mask keeping the entries whose row index
  1024·qi + r is at least the column index 1024·ki + c; at ki = 3 the accumulator is stored into the output window,
  block (qi, h) of the result. This module names what the scratch and the windows hold after each point.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Scoped1
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block, the key block and the value block of point t, at their literal types. -/
abbrev qblk (c : Dev nD) (t : Fin cfg1.N) : Vec F S1024x128 .f32 := iblk V c 0 t
abbrev kblk (c : Dev nD) (t : Fin cfg1.N) : Vec F S1024x128 .f32 := iblk V c 1 t
abbrev vblk (c : Dev nD) (t : Fin cfg1.N) : Vec F S1024x128 .f32 := iblk V c 2 t

/-- "The key block is the first", "the key block is not after the query block", "the key block is the last": the body's three tests. -/
abbrev isFirst (i : grid1.Coords) : Prop := (Scalar.cmpi .ne (Scalar.extui (Scalar.cmpi .eq (BitVec.ofNat 32 (i 2).val) 0#32)) 0#32) = 1#1
abbrev isLE (i : grid1.Coords) : Prop := (Scalar.cmpi .ne (Scalar.extui (Scalar.cmpi .sle (BitVec.ofNat 32 (i 2).val) (BitVec.ofNat 32 (i 1).val))) 0#32) = 1#1
abbrev isLast (i : grid1.Coords) : Prop := k1_cond3 i = 1#1

theorem isFirst_iff : ∀ t : Fin cfg1.N, isFirst (grid1.coords t) ↔ t.val % 4 = 0 :=
  (by decide +kernel : ∀ t : Fin grid1.N, isFirst (grid1.coords t) ↔ t.val % 4 = 0)
theorem isLE_iff : ∀ t : Fin cfg1.N, isLE (grid1.coords t) ↔ t.val % 4 ≤ t.val / 4 % 4 :=
  (by decide +kernel : ∀ t : Fin grid1.N, isLE (grid1.coords t) ↔ t.val % 4 ≤ t.val / 4 % 4)
theorem isLast_iff : ∀ t : Fin cfg1.N, isLast (grid1.coords t) ↔ t.val % 4 = 3 :=
  (by decide +kernel : ∀ t : Fin grid1.N, isLast (grid1.coords t) ↔ t.val % 4 = 3)

/-- One point's contribution added to s where the key block is not after the query block; s unchanged elsewhere. -/
def step (c : Dev nD) (t : Fin cfg1.N) (s : Vec F S1024x128 .f32) : Vec F S1024x128 .f32 :=
  if isLE (grid1.coords t) then k1_pay2 (grid1.coords t) (qblk V c t) (kblk V c t) (vblk V c t) s else s

/-- The accumulator after point n: point n's step from what point n − 1 left, or from zero at the first of each run of four. -/
def acc (c : Dev nD) : (n : ℕ) → n < cfg1.N → Vec F S1024x128 .f32
  | 0, h => step V c ⟨0, h⟩ k1_pay1
  | n + 1, h => step V c ⟨n + 1, h⟩ (if (n + 1) % 4 = 0 then k1_pay1 else acc c n (Nat.lt_of_succ_lt h))

theorem acc_reset (c : Dev nD) (t : Fin cfg1.N) (h : t.val % 4 = 0) :
    acc V c t.val t.isLt = step V c t k1_pay1 := by
  obtain ⟨n, hn⟩ := t
  cases n with
  | zero => rfl
  | succ n => simp only [acc]; rw [if_pos h]

theorem acc_step (c : Dev nD) (t : Fin cfg1.N) (h : ¬ t.val % 4 = 0) :
    acc V c t.val t.isLt = step V c t (acc V c (t.val - 1) (Nat.lt_of_le_of_lt (Nat.sub_le _ _) t.isLt)) := by
  obtain ⟨n, hn⟩ := t
  cases n with
  | zero => exact absurd (Nat.zero_mod _) h
  | succ n => simp only [acc]; rw [if_neg h]; rfl

/-- The region invariant before position n: before the first point every scoped buffer at anything; afterwards the
    accumulator at what the point before left. -/
def PhiS (c : Dev nD) : (n : ℕ) → n ≤ cfg1.N → sProp 𝕄
  | 0, _ => Pipeline.ΦA spec1 c
  | n + 1, hn => iprop((owns (c : Thread nD τ) scM fullShare (acc V c n hn) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg1.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-- The three shares the one input array is held at, one per input window: a half and two quarters of the whole. -/
abbrev shQ : PosShare TreeShare := fullShare.left
abbrev shK : PosShare TreeShare := fullShare.right.left
abbrev shV : PosShare TreeShare := fullShare.right.right

/-- The proof data of the region on core c: the arrays as the region finds them; after the body each input window at its
    block and the output window at the accumulator; the invariant above; nothing owed; the input array shared three ways. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => acc V c t.val t.isLt
  Φ t := PhiS V c t.val (Nat.le_of_lt_succ t.isLt)
  q w := match w with
    | ⟨0, _⟩ => shQ
    | ⟨1, _⟩ => shK
    | ⟨2, _⟩ => shV
    | ⟨3, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = acc V c t.val t.isLt := by dsimp only [dat]

theorem Phi_castSucc (c : Dev nD) (t : Fin cfg1.N) :
    (dat V c).Φ t.castSucc = PhiS V c t.val (Nat.le_of_lt t.isLt) := by
  dsimp only [dat]; simp only [Fin.coe_castSucc]

end Cert.KernelIdeal.R1

end
-- ==== Proof.KI.Run1.lean ====
/-
  Region 1's body, case by case, by where the key block stands: first (the accumulator is cleared, and the key block,
  not being after the query block, contributes), in the middle and contributing, in the middle and skipped, last and
  contributing (the query block is the last too), last and skipped; at a last key block the accumulator is stored
  into the output window.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Data1
import Idealize.ShloMosaic.Lib.Pipeline.Value
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every access of the body is the whole buffer: the offsets are zero. -/
theorem hz : (![0, 0] : Fin 2 → Nat) = fun _ => 0 := funext fun a => by fin_cases a <;> rfl

set_option maxHeartbeats 2000000 in
/-- A first key block: the accumulator, whatever it held, is cleared and the block's contribution added. -/
theorem run_first (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : isFirst i) (h2 : isLE i) (h3 : ¬ isLast i)
    (q k v : Vec F S1024x128 .f32) (K : PUnit → sProp 𝕄) :
    iprop(owns (c : Thread nD τ) arg3 fullShare q ∗ owns (c : Thread nD τ) arg4 fullShare k ∗ owns (c : Thread nD τ) arg5 fullShare v ∗ (∃ s, owns (c : Thread nD τ) arg7 fullShare s)
        ∗ (iprop(owns (c : Thread nD τ) arg3 fullShare q ∗ owns (c : Thread nD τ) arg4 fullShare k ∗ owns (c : Thread nD τ) arg5 fullShare v ∗ owns (c : Thread nD τ) arg7 fullShare (k1_pay2 i q k v k1_pay1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%s, %f7, -, H7⟩, Hk⟩
  obtain rfl := harg3.eq_unread hf3; obtain rfl := harg4.eq_unread hf4; obtain rfl := harg5.eq_unread hf5
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (View.cover_of_tiled _ S1024x128.size (by rfl))]
  rw [View.canon_cons_unit_zero (S := S1024x128) hz]
  simp only [View.readAt_eq_ld, harg3.read_unread, harg4.read_unread, harg5.read_unread, harg7.read_unread, View.ld_unit_zero (S := S1024x128) hz, View.readCov_unit_zero (S := S1024x128) _ hz]

set_option maxHeartbeats 2000000 in
/-- A middle key block not after the query block: its contribution is added to the accumulator. -/
theorem run_add (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : isLE i) (h3 : ¬ isLast i)
    (q k v s : Vec F S1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg7 fullShare s
        ∗ (iprop(owns (c : Thread nD τ) arg3 fullShare q ∗ owns (c : Thread nD τ) arg4 fullShare k ∗ owns (c : Thread nD τ) arg5 fullShare v ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H7
  ipureintro
  sl_unfold_words
  rw [View.read_writes_eq_canon _ _ _ (View.cover_of_tiled _ S1024x128.size (by rfl))]
  rw [View.canon_cons_unit_zero (S := S1024x128) hz]
  simp only [View.readAt_eq_ld, harg3.read_unread, harg4.read_unread, harg5.read_unread, harg7.read_unread, View.ld_unit_zero (S := S1024x128) hz, View.readCov_unit_zero (S := S1024x128) _ hz]

set_option maxHeartbeats 2000000 in
/-- A middle key block after the query block: the body does nothing. -/
theorem run_skip (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : ¬ isLE i) (h3 : ¬ isLast i) (K : PUnit → sProp 𝕄) :
    iprop(K ⟨⟩) ⊢ wp frame (wpE (defs₀ (F := F)) Variants.none c none) E (cc1_kernel i arg3 harg3 arg4 harg4 arg5 harg5 arg6 harg6 arg7 harg7) K := by
  simp only [cc1_kernel_eq_skeleton]; unfold cc1_kernel_skel
  iintro Hk
  sl_exec (disch := first | exact h1 | exact h2 | exact h3)
  sl_step
  iexact Hk

set_option maxHeartbeats 2000000 in
/-- A last key block that contributes: its contribution is added, and the accumulator stored into the output window's buffer. -/
theorem run_last_add (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : isLE i) (h3 : isLast i)
    (q k v s : Vec F S1024x128 .f32) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d) ∗ owns (c : Thread nD τ) arg7 fullShare s
        ∗ (iprop(owns (c : Thread nD τ) arg3 fullShare q ∗ owns (c : Thread nD τ) arg4 fullShare k ∗ owns (c : Thread nD τ) arg5 fullShare v ∗ owns (c : Thread nD τ) arg6 fullShare (k1_pay2 i q k v s) ∗ owns (c : Thread nD τ) arg7 fullShare (k1_pay2 i q k v s)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (View.cover_of_tiled _ S1024x128.size (by rfl))]
    rw [View.canon_cons_unit_zero (S := S1024x128) hz]
    simp only [View.readAt_eq_ld, harg3.read_unread, harg4.read_unread, harg5.read_unread, harg7.read_unread, View.ld_unit_zero (S := S1024x128) hz, View.readCov_unit_zero (S := S1024x128) _ hz]
  iexists _; isplitr
  swap; · iexact H7
  ipureintro
  sl_unfold_words
  rw [View.read_writes_eq_canon _ _ _ (View.cover_of_tiled _ S1024x128.size (by rfl))]
  rw [View.canon_cons_unit_zero (S := S1024x128) hz]
  simp only [View.readAt_eq_ld, harg3.read_unread, harg4.read_unread, harg5.read_unread, harg7.read_unread, View.ld_unit_zero (S := S1024x128) hz, View.readCov_unit_zero (S := S1024x128) _ hz]

set_option maxHeartbeats 2000000 in
/-- A last key block that is skipped: the accumulator, unchanged, is stored into the output window's buffer. -/
theorem run_last_skip (c : Dev nD) (E : Set ℕ) (i : grid1.Coords)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .f32) (harg7 : arg7.IsWhole) (h1 : ¬ isFirst i) (h2 : ¬ isLE i) (h3 : isLast i)
    (s : Vec F S1024x128 .f32) (K : PUnit → sProp 𝕄) :
    iprop((∃ d, owns (c : Thread nD τ) arg6 fullShare d) ∗ owns (c : Thread nD τ) arg7 fullShare s
        ∗ (iprop(owns (c : Thread nD τ) arg6 fullShare s ∗ owns (c : Thread nD τ) arg7 fullShare s) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%d, %f6, -, H6⟩, ⟨%f7, %hf7, H7⟩, Hk⟩
  obtain rfl := harg7.eq_unread hf7
  sl_exec (disch := first | exact h1 | exact h2 | exact h3)
  sl_step
  iapply Hk
  isplitl [H6]
  · iexists _; isplitr
    swap; · iexact H6
    ipureintro
    sl_unfold_words
    rw [View.read_writes_eq_canon _ _ _ (View.cover_of_tiled _ S1024x128.size (by rfl))]
    rw [View.canon_cons_unit_zero (S := S1024x128) hz]
    simp only [View.readAt_eq_ld, harg3.read_unread, harg4.read_unread, harg5.read_unread, harg7.read_unread, View.ld_unit_zero (S := S1024x128) hz, View.readCov_unit_zero (S := S1024x128) _ hz]
  iexists _; isplitr; · ipureintro; exact harg7.read_unread _
  iexact H7

end Cert.KernelIdeal.R1

end
-- ==== Proof.KI.Frame1.lean ====
/-
  Region 1's body obligation: at every grid point the body, called on the windows' current buffers and the accumulator
  as the invariant holds it, leaves the input windows at their blocks, the accumulator at its next value (the point's
  step) and, at a last key block, the output window at the accumulator; elsewhere the output window's buffer is handed
  back untouched.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Run1
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem step_pos (c : Dev nD) (t : Fin cfg1.N) (s : Vec F S1024x128 .f32) (h : isLE (grid1.coords t)) :
    step V c t s = k1_pay2 (grid1.coords t) (qblk V c t) (kblk V c t) (vblk V c t) s := if_pos h
theorem step_neg (c : Dev nD) (t : Fin cfg1.N) (s : Vec F S1024x128 .f32) (h : ¬ isLE (grid1.coords t)) :
    step V c t s = s := if_neg h

/-- Each input window's current buffer holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Where the output window is idle (not a last key block) and where it is live; it is written back only where live. -/
theorem idle_3 : ∀ t : Fin cfg1.N, ¬ isLast (grid1.coords t) → cfg1.idle 3 (grid1.coords t) = true := by decide +kernel
theorem live_3 : ∀ t : Fin cfg1.N, isLast (grid1.coords t) → cfg1.idle 3 (grid1.coords t) = false := by decide +kernel
theorem noflush_3 : ∀ t : Fin cfg1.N, ¬ isLast (grid1.coords t) → (cfg1.win 3).flush t = false := by decide +kernel
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel

/-- The windows' current staging memrefs at point t, spelled as the pipeline passes them. -/
abbrev ms0 (t : Fin cfg1.N) : Memref sig .tc .vmem S1024x128 .f32 := win1_0.stage (cfg1.slots t 0)
abbrev ms1 (t : Fin cfg1.N) : Memref sig .tc .vmem S1024x128 .f32 := win1_1.stage (cfg1.slots t 1)
abbrev ms2 (t : Fin cfg1.N) : Memref sig .tc .vmem S1024x128 .f32 := win1_2.stage (cfg1.slots t 2)
abbrev ms3 (t : Fin cfg1.N) : Memref sig .tc .vmem S1024x128 .f32 := win1_3.stage (cfg1.slots t 3)

/-- What the body is called with at point t, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Before any point the invariant holds the accumulator at some contents. -/
theorem Phi_some (c : Dev nD) (t : Fin cfg1.N) :
    (dat V c).Φ t.castSucc ⊢ iprop(((∃ s, owns (c : Thread nD τ) scM fullShare s) ∗ others (F := F) c) ∗ (∃ r, prngReg c r)) := by
  rw [Phi_castSucc]
  by_cases hz : t.val = 0
  · rw [PhiS_zero V c _ _ hz]; exact PhiA_in c
  · rw [PhiS_pos V c _ _ hz]
    iintro ⟨⟨HS, Ho⟩, Hg⟩
    isplitl [HS Ho]
    · isplitl [HS]
      · iexists _; iexact HS
      iexact Ho
    iexact Hg

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 256 := lt_of_lt_of_eq t.isLt (show cfg1.N = 256 from N_1)
  by_cases h0 : t.val % 4 = 0
  · have hF : isFirst (grid1.coords t) := (isFirst_iff t).mpr h0
    have hLE : isLE (grid1.coords t) := (isLE_iff t).mpr (by omega)
    have hL : ¬ isLast (grid1.coords t) := fun h => by have := (isLast_iff t).mp h; omega
    rw [Dat.leavesExact_idle (dat V c) 3 t (idle_3 t hL) (noflush_3 t hL)]
    rw [acc_reset V c t h0, step_pos V c t _ hLE]
    iintro ⟨HΦ, Ho, H0, H1, H2, H3⟩
    ihave HΦ' := (Phi_some V c t) $$ HΦ
    icases HΦ' with ⟨⟨HS, Hoth⟩, Hg⟩
    icases H0 with ⟨%d0, H0⟩
    icases H1 with ⟨%d1, H1⟩
    icases H2 with ⟨%d2, H2⟩
    iapply (run_first c Set.univ (grid1.coords t) _ _ _ _ _ _ _ _ _ _ hF hLE hL (qblk V c t) (kblk V c t) (vblk V c t) _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hF : ¬ isFirst (grid1.coords t) := fun h => h0 ((isFirst_iff t).mp h)
    have hz : t.val ≠ 0 := fun e => h0 (by rw [e])
    rw [acc_step V c t h0]
    rw [Phi_castSucc, PhiS_pos V c _ _ hz]
    by_cases hLE : isLE (grid1.coords t)
    · rw [step_pos V c t _ hLE]
      by_cases h3 : t.val % 4 = 3
      · have hL : isLast (grid1.coords t) := (isLast_iff t).mpr h3
        rw [show (dat V c).leavesExact 3 t = owns (c : Thread nD τ) (ms3 t) fullShare ((dat V c).after 3 t) from by
          unfold Dat.leavesExact; rw [live_3 t hL], after_3, acc_step V c t h0, step_pos V c t _ hLE]
        iintro ⟨⟨⟨HS, Hoth⟩, Hg⟩, Ho, H0, H1, H2, H3⟩
        icases H0 with ⟨%d0, H0⟩
        icases H1 with ⟨%d1, H1⟩
        icases H2 with ⟨%d2, H2⟩
        iapply (run_last_add c Set.univ (grid1.coords t) _ _ _ _ _ _ _ _ _ _ hF hLE hL (qblk V c t) (kblk V c t) (vblk V c t) _ _)
        isplitl [H0]; · iexact H0
        isplitl [H1]; · iexact H1
        isplitl [H2]; · iexact H2
        isplitl [H3]; · icases H3 with ⟨%d3, H3⟩; iexists _; iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · have hL : ¬ isLast (grid1.coords t) := fun h => h3 ((isLast_iff t).mp h)
        rw [Dat.leavesExact_idle (dat V c) 3 t (idle_3 t hL) (noflush_3 t hL)]
        iintro ⟨⟨⟨HS, Hoth⟩, Hg⟩, Ho, H0, H1, H2, H3⟩
        icases H0 with ⟨%d0, H0⟩
        icases H1 with ⟨%d1, H1⟩
        icases H2 with ⟨%d2, H2⟩
        iapply (run_add c Set.univ (grid1.coords t) _ _ _ _ _ _ _ _ _ _ hF hLE hL (qblk V c t) (kblk V c t) (vblk V c t) _ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
    · rw [step_neg V c t _ hLE]
      by_cases h3 : t.val % 4 = 3
      · have hL : isLast (grid1.coords t) := (isLast_iff t).mpr h3
        rw [show (dat V c).leavesExact 3 t = owns (c : Thread nD τ) (ms3 t) fullShare ((dat V c).after 3 t) from by
          unfold Dat.leavesExact; rw [live_3 t hL], after_3, acc_step V c t h0, step_neg V c t _ hLE]
        iintro ⟨⟨⟨HS, Hoth⟩, Hg⟩, Ho, H0, H1, H2, H3⟩
        icases H0 with ⟨%d0, H0⟩
        icases H1 with ⟨%d1, H1⟩
        icases H2 with ⟨%d2, H2⟩
        iapply (run_last_skip c Set.univ (grid1.coords t) _ _ _ _ _ _ _ _ _ _ hF hLE hL _ _)
        isplitl [H3]; · icases H3 with ⟨%d3, H3⟩; iexists _; iexact H3
        isplitl [HS]; · iexact HS
        iintro ⟨H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3
      · have hL : ¬ isLast (grid1.coords t) := fun h => h3 ((isLast_iff t).mp h)
        rw [Dat.leavesExact_idle (dat V c) 3 t (idle_3 t hL) (noflush_3 t hL)]
        iintro ⟨⟨⟨HS, Hoth⟩, Hg⟩, Ho, H0, H1, H2, H3⟩
        icases H0 with ⟨%d0, H0⟩
        icases H1 with ⟨%d1, H1⟩
        icases H2 with ⟨%d2, H2⟩
        iapply (run_skip c Set.univ (grid1.coords t) _ _ _ _ _ _ _ _ _ _ hF hLE hL _)
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]

/-- After the last point the invariant gives the scoped rest back, the accumulator's contents forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  refine .trans ?_ (PhiA_out c)
  iintro ⟨⟨HS, Ho⟩, Hg⟩
  isplitl [HS Ho]
  · isplitl [HS]
    · iexists _; iexact HS
    iexact Ho
  iexact Hg

end Cert.KernelIdeal.R1

end
-- ==== Proof.KI.Scoped2.lean ====
/-
  Region 2's scoped buffers apart from its own staging buffers: its accumulator, and the other regions' staging buffers
  and accumulators, which it never touches. The region's standing invariant holds all of them at some contents; this module
  separates the accumulator from the rest.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers of the core that are neither a staging buffer of this region nor its accumulator. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The accumulator as a memref. -/
abbrev scM : Memref sig .tc .vmem S1024x512 .f32 := Memref.whole cc2_scratch0

/-- The region's scoped rest holds the accumulator at some contents, and the others; -/
theorem PhiA_in (c : Dev nD) :
    (Pipeline.ΦA spec2 c : sProp 𝕄) ⊢ iprop(((∃ d, owns (c : Thread nD τ) scM fullShare d) ∗ others (F := F) c) ∗ (∃ r, prngReg c r)) := by
  unfold Pipeline.ΦA others; rw [scopedRest2_eq]; simp only [scM, owns_whole]
  iintro ⟨⟨H0, H1, H2, H3, H4, H5, H6, H7, H8, H9, H10, H11, H12, H13, H14, H15, H16, H17, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hg

/-- and is made of them. -/
theorem PhiA_out (c : Dev nD) :
    iprop(((∃ d, owns (c : Thread nD τ) scM fullShare d) ∗ others (F := F) c) ∗ (∃ r, prngReg c r)) ⊢ (Pipeline.ΦA spec2 c : sProp 𝕄) := by
  unfold Pipeline.ΦA others; rw [scopedRest2_eq]; simp only [scM, owns_whole]
  iintro ⟨⟨HS, H0, H1, H2, H3, H4, H5, H6, H7, H8, H9, H10, H11, H12, H13, H14, H15, H16, H17⟩, Hg⟩
  isplitr [Hg]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact HS
  iexact Hg

end Cert.KernelIdeal.R2

end
-- ==== Proof.KI.Data2.lean ====
/-
  The last projection, region 2 of the program: the grid is (row block i of 4, column block j of 4, depth block k of 4),
  point t = (i·4 + j)·4 + k. At each point the body adds the product of the 1024×512 block (i,k) of the left array and
  the 512×512 block (k,j) of the right array into a 1024×512 accumulator kept in scratch, which it clears at k = 0; at k = 3
  it adds the bias row's block j and stores the sum into the output window, the only point of the four that writes block (i,j) back.
  This module names what the scratch and the windows hold after each point.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Scoped2

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left block, the right block and the bias block of point t, at their literal types. -/
abbrev xblk (c : Dev nD) (t : Fin cfg2.N) : Vec F S1024x512 .f32 := iblk V c 0 t
abbrev wblk (c : Dev nD) (t : Fin cfg2.N) : Vec F S512x512 .f32 := iblk V c 1 t
abbrev bblk (c : Dev nD) (t : Fin cfg2.N) : Vec F S1x512 .f32 := iblk V c 2 t

/-- The accumulator after point n: the product of point n's blocks added to what point n − 1 left, or to zero
    at the first of each run of four points. -/
def acc (c : Dev nD) : (n : ℕ) → n < cfg2.N → Vec F S1024x512 .f32
  | 0, h => k2_pay2 (xblk V c ⟨0, h⟩) (wblk V c ⟨0, h⟩) k2_pay1
  | n + 1, h => k2_pay2 (xblk V c ⟨n + 1, h⟩) (wblk V c ⟨n + 1, h⟩)
      (if (n + 1) % 4 = 0 then k2_pay1 else acc c n (Nat.lt_of_succ_lt h))

theorem acc_reset (c : Dev nD) (t : Fin cfg2.N) (h : t.val % 4 = 0) :
    acc V c t.val t.isLt = k2_pay2 (xblk V c t) (wblk V c t) k2_pay1 := by
  obtain ⟨n, hn⟩ := t
  cases n with
  | zero => rfl
  | succ n => simp only [acc]; rw [if_pos h]

theorem acc_step (c : Dev nD) (t : Fin cfg2.N) (h : ¬ t.val % 4 = 0) :
    acc V c t.val t.isLt = k2_pay2 (xblk V c t) (wblk V c t) (acc V c (t.val - 1) (Nat.lt_of_le_of_lt (Nat.sub_le _ _) t.isLt)) := by
  obtain ⟨n, hn⟩ := t
  cases n with
  | zero => exact absurd (Nat.zero_mod _) h
  | succ n => simp only [acc]; rw [if_neg h]; rfl

/-- The region invariant before position n: before the first point every scoped buffer at anything; afterwards the
    accumulator at what the point before left. -/
def PhiS (c : Dev nD) : (n : ℕ) → n ≤ cfg2.N → sProp 𝕄
  | 0, _ => Pipeline.ΦA spec2 c
  | n + 1, hn => iprop((owns (c : Thread nD τ) scM fullShare (acc V c n hn) ∗ others (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((owns (c : Thread nD τ) scM fullShare (acc V c n hn) ∗ others (F := F) c) ∗ (∃ r, prngReg c r)) := rfl

theorem PhiS_pos (c : Dev nD) (n : ℕ) (h : n ≤ cfg2.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

/-- The proof data of the region on core c: the arrays as the region finds them; after the body each input window at its
    block and the output window at the accumulator plus the bias block; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (acc V c t.val t.isLt) (bblk V c t)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay3 (acc V c t.val t.isLt) (bblk V c t) := by dsimp only [dat]

theorem Phi_castSucc (c : Dev nD) (t : Fin cfg2.N) :
    (dat V c).Φ t.castSucc = PhiS V c t.val (Nat.le_of_lt t.isLt) := by
  dsimp only [dat]; simp only [Fin.coe_castSucc]

end Cert.KernelIdeal.R2

end
-- ==== Proof.KI.Run2.lean ====
/-
  Region 2's body, case by case: at depth block k = 0 the accumulator is cleared and the first product added;
  at 0 < k < 3 the next product is added to what it holds; at k = 3 the last product is added and the sum plus the bias
  block is stored into the output window.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Data2
import Idealize.ShloMosaic.Lib.Pipeline.Value
set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "The depth block is the first": the body's first test, over the grid coordinates. -/
abbrev isFirst (i : grid2.Coords) : Prop := (Scalar.cmpi .ne (Scalar.extui (Scalar.cmpi .eq (BitVec.ofNat 32 (i 2).val) 0#32)) 0#32) = 1#1
/-- "The depth block is the last": the body's second test. -/
abbrev isLast (i : grid2.Coords) : Prop := k2_cond2 i = 1#1

theorem isFirst_iff : ∀ t : Fin cfg2.N, isFirst (grid2.coords t) ↔ t.val % 4 = 0 :=
  (by decide +kernel : ∀ t : Fin grid2.N, isFirst (grid2.coords t) ↔ t.val % 4 = 0)
theorem isLast_iff : ∀ t : Fin cfg2.N, isLast (grid2.coords t) ↔ t.val % 4 = 3 :=
  (by decide +kernel : ∀ t : Fin grid2.N, isLast (grid2.coords t) ↔ t.val % 4 = 3)

/-- Every access of the body is the whole buffer: the offsets are zero. -/
theorem hz : (![0, 0] : Fin 2 → Nat) = fun _ => 0 := funext fun a => by fin_cases a <;> rfl

set_option maxHeartbeats 1000000 in
/-- A first point: the accumulator, whatever it held, is cleared and the product of the two input blocks added. -/
theorem run_first (c : Dev nD) (E : Set ℕ) (i : grid2.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : isFirst i) (h2 : ¬ isLast i)
    (x : Vec F S1024x512 .f32) (w : Vec F S512x512 .f32) (K : PUnit → sProp 𝕄) :
    iprop(owns (c : Thread nD τ) arg3 fullShare x ∗ owns (c : Thread nD τ) arg4 fullShare w ∗ (∃ s, owns (c : Thread nD τ) arg7 fullShare s)
        ∗ (iprop(owns (c : Thread nD τ) arg3 fullShare x ∗ owns (c : Thread nD τ) arg4 fullShare w ∗ owns (c : Thread nD τ) arg7 fullShare (k2_pay2 x w k2_pay1)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f3, %hf3, H3⟩, ⟨%f4, %hf4, H4⟩, ⟨%s, %f7, -, H7⟩, Hk⟩
  obtain rfl := harg3.eq_unread hf3; obtain rfl := harg4.eq_unread hf4
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A middle point: the product of the two input blocks is added to the accumulator; nothing else is touched. -/
theorem run_mid (c : Dev nD) (E : Set ℕ) (i : grid2.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : ¬ isLast i)
    (x : Vec F S1024x512 .f32) (w : Vec F S512x512 .f32) (s : Vec F S1024x512 .f32) (K : PUnit → sProp 𝕄) :
    iprop(owns (c : Thread nD τ) arg3 fullShare x ∗ owns (c : Thread nD τ) arg4 fullShare w ∗ owns (c : Thread nD τ) arg7 fullShare s
        ∗ (iprop(owns (c : Thread nD τ) arg3 fullShare x ∗ owns (c : Thread nD τ) arg4 fullShare w ∗ owns (c : Thread nD τ) arg7 fullShare (k2_pay2 x w s)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

set_option maxHeartbeats 1000000 in
/-- A last point: the product is added to the accumulator, and the accumulator plus the bias block is stored into the
    output window's buffer, whatever that held. -/
theorem run_last (c : Dev nD) (E : Set ℕ) (i : grid2.Coords)
    (arg3 : Memref sig .tc .vmem S1024x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .f32) (harg6 : arg6.IsWhole)
    (arg7 : Memref sig .tc .vmem S1024x512 .f32) (harg7 : arg7.IsWhole) (h1 : ¬ isFirst i) (h2 : isLast i)
    (x : Vec F S1024x512 .f32) (w : Vec F S512x512 .f32) (b : Vec F S1x512 .f32) (s : Vec F S1024x512 .f32) (K : PUnit → sProp 𝕄) :
    iprop(owns (c : Thread nD τ) arg3 fullShare x ∗ owns (c : Thread nD τ) arg4 fullShare w ∗ owns (c : Thread nD τ) arg5 fullShare b
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare b
            ∗ owns (c : Thread nD τ) arg6 fullShare (k2_pay3 (k2_pay2 x w s) b) ∗ owns (c : Thread nD τ) arg7 fullShare (k2_pay2 x w s)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f3, %hf3, H3⟩, ⟨%f4, %hf4, H4⟩, ⟨%f5, %hf5, H5⟩, ⟨%d, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    rw [View.read_writes_eq_canon _ _ _ (View.cover_of_tiled _ S1024x512.size (by rfl))]
    rw [View.canon_cons_unit_zero (S := S1024x512) hz]
    simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]
  iexists _; isplitr
  swap; · iexact H7
  ipureintro
  sl_unfold_words
  rw [View.read_writes_eq_canon _ _ _ (View.cover_of_tiled _ S1024x512.size (by rfl))]
  rw [View.canon_cons_unit_zero (S := S1024x512) hz]
  simp only [View.readAt_eq_ld, harg3.read_unread, harg4.read_unread, harg5.read_unread, harg7.read_unread, View.ld_unit_zero (S := S1024x512) hz, View.ld_unit_zero (S := S512x512) hz, View.ld_unit_zero (S := S1x512) hz, View.readCov_unit_zero (S := S1024x512) _ hz]

end Cert.KernelIdeal.R2

end
-- ==== Proof.KI.Frame2.lean ====
/-
  Region 2's body obligation: at every grid point the body, called on the windows' current buffers and the accumulator
  as the invariant holds it, leaves the input windows at their blocks, the accumulator at its next value and, at a last
  depth block, the output window at the accumulator plus the bias block; elsewhere the output window's buffer is handed
  back untouched.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Run2
set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input window's current buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- Where the output window is idle (not a last depth block) and where it is live; it is written back only where live. -/
theorem idle_3 : ∀ t : Fin cfg2.N, ¬ isLast (grid2.coords t) → cfg2.idle 3 (grid2.coords t) = true := by decide +kernel
theorem live_3 : ∀ t : Fin cfg2.N, isLast (grid2.coords t) → cfg2.idle 3 (grid2.coords t) = false := by decide +kernel
theorem noflush_3 : ∀ t : Fin cfg2.N, ¬ isLast (grid2.coords t) → (cfg2.win 3).flush t = false := by decide +kernel
theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel

/-- The windows' current staging memrefs at point t, spelled as the pipeline passes them. -/
abbrev ms0 (t : Fin cfg2.N) : Memref sig .tc .vmem S1024x512 .f32 := win2_0.stage (cfg2.slots t 0)
abbrev ms1 (t : Fin cfg2.N) : Memref sig .tc .vmem S512x512 .f32 := win2_1.stage (cfg2.slots t 1)
abbrev ms2 (t : Fin cfg2.N) : Memref sig .tc .vmem S1x512 .f32 := win2_2.stage (cfg2.slots t 2)
abbrev ms3 (t : Fin cfg2.N) : Memref sig .tc .vmem S1024x512 .f32 := win2_3.stage (cfg2.slots t 3)

/-- What the body is called with at point t, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Before any point the invariant holds the accumulator at some contents. -/
theorem Phi_some (c : Dev nD) (t : Fin cfg2.N) :
    (dat V c).Φ t.castSucc ⊢ iprop(((∃ s, owns (c : Thread nD τ) scM fullShare s) ∗ others (F := F) c) ∗ (∃ r, prngReg c r)) := by
  rw [Phi_castSucc]
  by_cases hz : t.val = 0
  · rw [PhiS_zero V c _ _ hz]; exact PhiA_in c
  · rw [PhiS_pos V c _ _ hz]
    iintro ⟨⟨HS, Ho⟩, Hg⟩
    isplitl [HS Ho]
    · isplitl [HS]
      · iexists _; iexact HS
      iexact Ho
    iexact Hg

set_option maxHeartbeats 4000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live_0 t], after_0]
  rw [show (dat V c).leavesExact 1 t = owns (c : Thread nD τ) (ms1 t) fullShare ((dat V c).after 1 t) from by
    unfold Dat.leavesExact; rw [live_1 t], after_1]
  rw [show (dat V c).leavesExact 2 t = owns (c : Thread nD τ) (ms2 t) fullShare ((dat V c).after 2 t) from by
    unfold Dat.leavesExact; rw [live_2 t], after_2]
  have hN : t.val < 64 := lt_of_lt_of_eq t.isLt (show cfg2.N = 64 from N_2)
  by_cases h0 : t.val % 4 = 0
  · have hF : isFirst (grid2.coords t) := (isFirst_iff t).mpr h0
    have hL : ¬ isLast (grid2.coords t) := fun h => by have := (isLast_iff t).mp h; omega
    rw [Dat.leavesExact_idle (dat V c) 3 t (idle_3 t hL) (noflush_3 t hL)]
    rw [acc_reset V c t h0]
    iintro ⟨HΦ, Ho, H0, H1, H2, H3⟩
    ihave HΦ' := (Phi_some V c t) $$ HΦ
    icases HΦ' with ⟨⟨HS, Hoth⟩, Hg⟩
    icases H0 with ⟨%d0, H0⟩
    icases H1 with ⟨%d1, H1⟩
    icases H2 with ⟨%d2, H2⟩
    iapply (run_first c Set.univ (grid2.coords t) _ _ _ _ _ _ _ _ _ _ hF hL (xblk V c t) (wblk V c t) _)
    isplitl [H0]; · iexact H0
    isplitl [H1]; · iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hF : ¬ isFirst (grid2.coords t) := fun h => h0 ((isFirst_iff t).mp h)
    have hz : t.val ≠ 0 := fun e => h0 (by rw [e])
    rw [acc_step V c t h0]
    rw [Phi_castSucc, PhiS_pos V c _ _ hz]
    by_cases h3 : t.val % 4 = 3
    · have hL : isLast (grid2.coords t) := (isLast_iff t).mpr h3
      rw [show (dat V c).leavesExact 3 t = owns (c : Thread nD τ) (ms3 t) fullShare ((dat V c).after 3 t) from by
        unfold Dat.leavesExact; rw [live_3 t hL], after_3, acc_step V c t h0]
      iintro ⟨⟨⟨HS, Hoth⟩, Hg⟩, Ho, H0, H1, H2, H3⟩
      icases H0 with ⟨%d0, H0⟩
      icases H1 with ⟨%d1, H1⟩
      icases H2 with ⟨%d2, H2⟩
      iapply (run_last c Set.univ (grid2.coords t) _ _ _ _ _ _ _ _ _ _ hF hL (xblk V c t) (wblk V c t) (bblk V c t) _ _)
      isplitl [H0]; · iexact H0
      isplitl [H1]; · iexact H1
      isplitl [H2]; · iexact H2
      isplitl [H3]; · icases H3 with ⟨%d3, H3⟩; iexists _; iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3
    · have hL : ¬ isLast (grid2.coords t) := fun h => h3 ((isLast_iff t).mp h)
      rw [Dat.leavesExact_idle (dat V c) 3 t (idle_3 t hL) (noflush_3 t hL)]
      iintro ⟨⟨⟨HS, Hoth⟩, Hg⟩, Ho, H0, H1, H2, H3⟩
      icases H0 with ⟨%d0, H0⟩
      icases H1 with ⟨%d1, H1⟩
      icases H2 with ⟨%d2, H2⟩
      iapply (run_mid c Set.univ (grid2.coords t) _ _ _ _ _ _ _ _ _ _ hF hL (xblk V c t) (wblk V c t) _ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]

/-- After the last point the invariant gives the scoped rest back, the accumulator's contents forgotten. -/
theorem hout (c : Dev nD) : (dat V c).Φ (Fin.last cfg2.N) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 64 := N_2; omega)]
  refine .trans ?_ (PhiA_out c)
  iintro ⟨⟨HS, Ho⟩, Hg⟩
  isplitl [HS Ho]
  · isplitl [HS]
    · iexists _; iexact HS
    iexact Ho
  iexact Hg

end Cert.KernelIdeal.R2

end
-- ==== Proof.KI.Pdats.lean ====
/-
  The program as a whole: what the core's unscoped buffers hold between @main's items — the launch contents, the bias row
  reshaped, then after each region its output array at what that region's proof data compute — and, over them, every
  region's proof data at once.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Frame0
import proofs.«123105_j28527172780035_1_alg».proof.Proof.KI.Frame1
import proofs.«123105_j28527172780035_1_alg».proof.Proof.KI.Frame2
import proofs.«123105_j28527172780035_1_alg».proof.Proof.Gen.KernelIdeal.Regions
set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents region 0 is entered with: the launch contents after the first host stretch. -/
abbrev E1 (c : Dev nD) : (b : Ref sig .tc) → Buf (Elt F) ((c : Thread nD τ).loc b) := fun b => V1 m c b
/-- What region 0 leaves in its output array. -/
def o1 (c : Dev nD) : Buf (Elt F) ((c : Thread nD τ).loc main_v1) := (R0.dat (E1 m) c).arrAt 3 cfg0.N
/-- The contents after region 0, -/
abbrev W2 (c : Dev nD) : Valuation τ sig (Elt F) := Function.update (V1 m c) main_v1 (o1 m c)
abbrev E2 (c : Dev nD) : (b : Ref sig .tc) → Buf (Elt F) ((c : Thread nD τ).loc b) := fun b => W2 m c b
/-- what region 1 leaves in its output array, -/
def o2 (c : Dev nD) : Buf (Elt F) ((c : Thread nD τ).loc main_v2) := (R1.dat (E2 m) c).arrAt 3 cfg1.N
/-- the contents after region 1, after the second host stretch, -/
abbrev W3 (c : Dev nD) : Valuation τ sig (Elt F) := Function.update (W2 m c) main_v2 (o2 m c)
abbrev W4 (c : Dev nD) : Valuation τ sig (Elt F) := StableHlo.after hostOps2 (W3 m c)
abbrev E4 (c : Dev nD) : (b : Ref sig .tc) → Buf (Elt F) ((c : Thread nD τ).loc b) := fun b => W4 m c b
/-- what region 2 leaves in its output array, and the contents at the end. -/
def o4 (c : Dev nD) : Buf (Elt F) ((c : Thread nD τ).loc main_v4) := (R2.dat (E4 m) c).arrAt 3 cfg2.N
abbrev W5 (c : Dev nD) : Valuation τ sig (Elt F) := Function.update (W4 m c) main_v4 (o4 m c)

/-- What the regions leave, as the family the generated valuations are written over (read only at the three output arrays). -/
def outs : Outs (F := F) := fun _ r c =>
  if h : r = main_v1 then h ▸ o1 m c else if h : r = main_v2 then h ▸ o2 m c else if h : r = main_v4 then h ▸ o4 m c else V0 m c r

theorem outs_v1 (J : ℕ) (c : Dev nD) : outs m J main_v1 c = o1 m c := by
  unfold outs; rw [dif_pos rfl]
theorem outs_v2 (J : ℕ) (c : Dev nD) : outs m J main_v2 c = o2 m c := by
  unfold outs; rw [dif_neg (by decide), dif_pos rfl]
theorem outs_v4 (J : ℕ) (c : Dev nD) : outs m J main_v4 c = o4 m c := by
  unfold outs; rw [dif_neg (by decide), dif_neg (by decide), dif_pos rfl]

/-- The generated valuations at this family are the contents above. -/
theorem V2_eq (c : Dev nD) : V2 m (outs m) c = W2 m c := by
  show Function.update (V1 m c) main_v1 (outs m 2 main_v1 c) = Function.update (V1 m c) main_v1 (o1 m c)
  rw [outs_v1]
theorem V3_eq (c : Dev nD) : V3 m (outs m) c = W3 m c := by
  show Function.update (V2 m (outs m) c) main_v2 (outs m 3 main_v2 c) = Function.update (W2 m c) main_v2 (o2 m c)
  rw [outs_v2, V2_eq]
theorem V4_eq (c : Dev nD) : V4 m (outs m) c = W4 m c := by
  show StableHlo.after hostOps2 (V3 m (outs m) c) = StableHlo.after hostOps2 (W3 m c)
  rw [V3_eq]
theorem V5_eq (c : Dev nD) : V5 m (outs m) c = W5 m c := by
  show Function.update (V4 m (outs m) c) main_v4 (outs m 5 main_v4 c) = Function.update (W4 m c) main_v4 (o4 m c)
  rw [outs_v4, V4_eq]

/-- The contents after a region, read at its output array and off it. -/
theorem W2_v1 (c : Dev nD) : W2 m c main_v1 = o1 m c := by simp only [W2, Function.update_self]
theorem W2_of (c : Dev nD) (r : Ref sig .tc) (h : r ≠ main_v1) : W2 m c r = V1 m c r := by
  simp only [W2, Function.update_of_ne (StableHlo.devRef_ne_of_ne h : (Proc.devRef .tc r : DevRef τ sig) ≠ Proc.devRef .tc main_v1)]
theorem W3_v2 (c : Dev nD) : W3 m c main_v2 = o2 m c := by simp only [W3, Function.update_self]
theorem W3_of (c : Dev nD) (r : Ref sig .tc) (h : r ≠ main_v2) : W3 m c r = W2 m c r := by
  simp only [W3, Function.update_of_ne (StableHlo.devRef_ne_of_ne h : (Proc.devRef .tc r : DevRef τ sig) ≠ Proc.devRef .tc main_v2)]
theorem W5_v4 (c : Dev nD) : W5 m c main_v4 = o4 m c := by simp only [W5, Function.update_self]
theorem W5_of (c : Dev nD) (r : Ref sig .tc) (h : r ≠ main_v4) : W5 m c r = W4 m c r := by
  simp only [W5, Function.update_of_ne (StableHlo.devRef_ne_of_ne h : (Proc.devRef .tc r : DevRef τ sig) ≠ Proc.devRef .tc main_v4)]

/-- Every region's proof data, each at its region's entry contents: a literal match on the region. -/
def pdats : (p : Fin 3) → (c : Dev nD) → Dat τ (Elt F) Unit ℕ (UR sig nD τ) ℕ (cfgs p) c
  | ⟨0, _⟩ => fun c => R0.dat (E1 m) c
  | ⟨1, _⟩ => fun c => R1.dat (E2 m) c
  | ⟨2, _⟩ => fun c => R2.dat (E4 m) c

/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)

end Cert.KernelIdeal.Asm

end
-- ==== Proof.KI.Seg0.lean ====
/-
  Region 0 as a segment of @main: entered from the contents after the first host stretch, left at those contents with
  its output array at what its proof data compute.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Pdats
set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the valuation after it says: an input array what it held, the
    output array what the proof data compute. -/
theorem hF0 (c : Dev nD) : ∀ w : Fin cfg0.W, (pdats m 0 c).arrAt w cfg0.N = W2 m c (Pipeline.arrRef spec0 w)
  | ⟨0, h⟩ => by
      have h1 : (R0.dat (E1 m) c).arrAt ⟨0, h⟩ cfg0.N = (R0.dat (E1 m) c).A ⟨0, h⟩ := (R0.dat (E1 m) c).arrAt_in ⟨0, h⟩ rfl _
      have h2 : (R0.dat (E1 m) c).A ⟨0, h⟩ = V1 m c main_arg0 := rfl
      exact h1.trans (h2.trans (W2_of m c main_arg0 (by decide)).symm)
  | ⟨1, h⟩ => by
      have h1 : (R0.dat (E1 m) c).arrAt ⟨1, h⟩ cfg0.N = (R0.dat (E1 m) c).A ⟨1, h⟩ := (R0.dat (E1 m) c).arrAt_in ⟨1, h⟩ rfl _
      have h2 : (R0.dat (E1 m) c).A ⟨1, h⟩ = V1 m c main_arg1 := rfl
      exact h1.trans (h2.trans (W2_of m c main_arg1 (by decide)).symm)
  | ⟨2, h⟩ => by
      have h1 : (R0.dat (E1 m) c).arrAt ⟨2, h⟩ cfg0.N = (R0.dat (E1 m) c).A ⟨2, h⟩ := (R0.dat (E1 m) c).arrAt_in ⟨2, h⟩ rfl _
      have h2 : (R0.dat (E1 m) c).A ⟨2, h⟩ = V1 m c main_v0 := rfl
      exact h1.trans (h2.trans (W2_of m c main_v0 (by decide)).symm)
  | ⟨3, _⟩ => (W2_v1 m c).symm
/-- Off the region's arrays the valuation after it is the one before. -/
theorem hrest0 (c : Dev nD) : ∀ b, b ∉ Finset.univ.image (Pipeline.arrRef spec0) → W2 m c b = V1 m c b :=
  fun b hb => W2_of m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 0 over the thread state "every unscoped buffer at the contents before it, the generator register at some state,
    nothing owed": its arrays split out of the unscoped buffers at entry and put back at the exit contents; the generator
    register into the invariant and out; no semaphore of the kernel's own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (R0.body_obligation (E1 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R0.hin (E1 m) c)
    unfold Pipeline.ΦA
    iintro ⟨Hp, -, Hr⟩
    isplitl [Hr]; · iexact Hr
    iexact Hp
  hout c := by
    rw [Pipeline.ownSems0_none]
    refine (R0.hout (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KI.Shared1.lean ====
/-
  Region 1's three input windows read ONE array, the projection. At the region's entry the core's unscoped buffers,
  each held whole, give the region its arrays with that one buffer's full share dealt three ways (a half to the query
  window, a quarter each to the key and the value window); at its exit the three shares, all at the same contents,
  make the whole again, beside the output array at what the region wrote.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Data1
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Buffer b of core c held whole at share q at the contents G gives it. -/
abbrev pt (c : Dev nD) (G : (b : Ref sig .tc) → Buf (Elt F) ((c : Thread nD τ).loc b)) (q : PosShare TreeShare)
    (b : Ref sig .tc) : sProp 𝕄 :=
  ((c : Thread nD τ).loc b) ↦{q} G b

/-- The shares the region's data holds its four windows' arrays at: the three pieces of the whole for the inputs, the
    whole for the output. -/
theorem share_0 (c : Dev nD) : (dat V c).share 0 = shQ := by
  unfold Dat.share; rw [if_neg (by decide)]; rfl
theorem share_1 (c : Dev nD) : (dat V c).share 1 = shK := by
  unfold Dat.share; rw [if_neg (by decide)]; rfl
theorem share_2 (c : Dev nD) : (dat V c).share 2 = shV := by
  unfold Dat.share; rw [if_neg (by decide)]; rfl
theorem share_3 (c : Dev nD) : (dat V c).share 3 = fullShare := by
  unfold Dat.share; rw [if_pos (by decide)]

/-- One window's array, a whole buffer, at contents read off G is the buffer behind it at the window's share. -/
theorem win_eq (c : Dev nD) (G : (b : Ref sig .tc) → Buf (Elt F) ((c : Thread nD τ).loc b))
    (A : (w : Fin cfg1.W) → Buf (Elt F) ((cfg1.win w).arr.view.loc (c : Thread nD τ)))
    (h : ∀ w, A w = G (Pipeline.arrRef spec1 w)) (w : Fin cfg1.W) :
    ((cfg1.win w).arr.view.loc (c : Thread nD τ) ↦[(cfg1.win w).arr.view.set]{(dat V c).share w} A w : sProp 𝕄)
      = pt c G ((dat V c).share w) (Pipeline.arrRef spec1 w) := by
  rw [h w, (arr_whole1 w).set_eq_univ]

/-- The whole share of a buffer is its left half, and the left and the right half of its right half. -/
theorem pt_deal (c : Dev nD) (G : (b : Ref sig .tc) → Buf (Elt F) ((c : Thread nD τ).loc b)) (b : Ref sig .tc) :
    (pt c G fullShare b : sProp 𝕄) = iprop(pt c G shQ b ∗ pt c G shK b ∗ pt c G shV b) := by
  have h1 : (pt c G fullShare b : sProp 𝕄) = iprop(pt c G shQ b ∗ pt c G fullShare.right b) :=
    equiv_iff.mp ⟨(pointsTo_share (PosShare.mem_left_op_right fullShare)).1, (pointsTo_share (PosShare.mem_left_op_right fullShare)).2⟩
  have h2 : (pt c G fullShare.right b : sProp 𝕄) = iprop(pt c G shK b ∗ pt c G shV b) :=
    equiv_iff.mp ⟨(pointsTo_share (PosShare.mem_left_op_right fullShare.right)).1, (pointsTo_share (PosShare.mem_left_op_right fullShare.right)).2⟩
  rw [h1, h2]

/-- The distinct buffers behind the region's arrays are two: the shared input array and the output array. -/
theorem arrBufs_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop(pt c G fullShare main_v1 ∗ pt c G fullShare main_v2) := by
  unfold Pipeline.arrBufs
  exact bigSep_eq_bigSepL_of_eq [main_v1, main_v2] (by decide) (by decide) _

/-- The region's arrays at contents read off G: the input array three times, at the three pieces of the whole, and the
    output array whole. -/
theorem arrays_eq4 (c : Dev nD) (G : (b : Ref sig .tc) → Buf (Elt F) ((c : Thread nD τ).loc b))
    (A : (w : Fin cfg1.W) → Buf (Elt F) ((cfg1.win w).arr.view.loc (c : Thread nD τ)))
    (h : ∀ w, A w = G (Pipeline.arrRef spec1 w)) :
    ((dat V c).arrays A : sProp 𝕄)
      = iprop(pt c G shQ main_v1 ∗ pt c G shK main_v1 ∗ pt c G shV main_v1 ∗ pt c G fullShare main_v2) := by
  unfold Dat.arrays
  rw [bigSep_W1, win_eq V c G A h 0, win_eq V c G A h 1, win_eq V c G A h 2, win_eq V c G A h 3,
    share_0, share_1, share_2, share_3]

/-- ENTRY: the core's unscoped buffers at V are the region's arrays at their entry contents, the shared input array
    dealt among its three windows, and the unscoped buffers that are no array of the region. -/
theorem arrays_of_bufs (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec1 c (V c)) := by
  rw [Pipeline.PerCore.unscopedBufs_split₀ (fun _ (_ : Unit) => cfg1) () c winFacts₀1.arr_unscoped (V c),
    arrBufs_eq, pt_deal, arrays_eq4 V c (V c) ((dat V c).arrAt · 0) (fun w => rfl)]
  iintro ⟨⟨⟨H0, H1, H2⟩, H3⟩, HR⟩
  isplitr [HR]
  · isplitl [H0]; · iexact H0
    isplitl [H1]; · iexact H1
    isplitl [H2]; · iexact H2
    iexact H3
  · iexact HR

/-- EXIT: the region's arrays at their final contents and the unscoped rest at V are the core's unscoped buffers at any
    valuation V' that has the arrays at those contents and agrees with V off them. -/
theorem bufs_of_arrays (c : Dev nD) (V' : (b : Ref sig .tc) → Buf (Elt F) ((c : Thread nD τ).loc b))
    (hF : ∀ w, (dat V c).arrAt w cfg1.N = V' (Pipeline.arrRef spec1 w))
    (hrest : ∀ b, b ∉ Finset.univ.image (Pipeline.arrRef spec1) → V' b = V c b) :
    iprop((dat V c).arrays ((dat V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  have hR : (Pipeline.unscopedRest (Ix := Unit) (Name := ℕ) (U := UR sig nD τ) (Lvl := ℕ) spec1 c (V c) : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [Pipeline.PerCore.unscopedBufs_split₀ (fun _ (_ : Unit) => cfg1) () c winFacts₀1.arr_unscoped V',
    arrBufs_eq, pt_deal, arrays_eq4 V c V' ((dat V c).arrAt · cfg1.N) hF, hR]
  iintro ⟨⟨H0, H1, H2, H3⟩, HR⟩
  isplitr [HR]
  · isplitr [H3]
    · isplitl [H0]; · iexact H0
      isplitl [H1]; · iexact H1
      iexact H2
    · iexact H3
  · iexact HR

end Cert.KernelIdeal.R1

end
-- ==== Proof.KI.Seg1.lean ====
/-
  Region 1 as a segment of @main: entered from the contents after region 0, left at those contents with its output array
  at what its proof data compute. Its three input windows share one array: the entry and the exit deal that array's share
  among them and gather it again.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Pdats
import proofs.«123105_j28527172780035_1_alg».proof.Proof.KI.Shared1
set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the valuation after it says: an input array what it held, the
    output array what the proof data compute. -/
theorem hF1 (c : Dev nD) : ∀ w : Fin cfg1.W, (pdats m 1 c).arrAt w cfg1.N = W3 m c (Pipeline.arrRef spec1 w)
  | ⟨0, h⟩ => by
      have h1 : (R1.dat (E2 m) c).arrAt ⟨0, h⟩ cfg1.N = (R1.dat (E2 m) c).A ⟨0, h⟩ := (R1.dat (E2 m) c).arrAt_in ⟨0, h⟩ rfl _
      have h2 : (R1.dat (E2 m) c).A ⟨0, h⟩ = W2 m c main_v1 := rfl
      exact h1.trans (h2.trans (W3_of m c main_v1 (by decide)).symm)
  | ⟨1, h⟩ => by
      have h1 : (R1.dat (E2 m) c).arrAt ⟨1, h⟩ cfg1.N = (R1.dat (E2 m) c).A ⟨1, h⟩ := (R1.dat (E2 m) c).arrAt_in ⟨1, h⟩ rfl _
      have h2 : (R1.dat (E2 m) c).A ⟨1, h⟩ = W2 m c main_v1 := rfl
      exact h1.trans (h2.trans (W3_of m c main_v1 (by decide)).symm)
  | ⟨2, h⟩ => by
      have h1 : (R1.dat (E2 m) c).arrAt ⟨2, h⟩ cfg1.N = (R1.dat (E2 m) c).A ⟨2, h⟩ := (R1.dat (E2 m) c).arrAt_in ⟨2, h⟩ rfl _
      have h2 : (R1.dat (E2 m) c).A ⟨2, h⟩ = W2 m c main_v1 := rfl
      exact h1.trans (h2.trans (W3_of m c main_v1 (by decide)).symm)
  | ⟨3, _⟩ => (W3_v2 m c).symm
/-- Off the region's arrays the valuation after it is the one before. -/
theorem hrest1 (c : Dev nD) : ∀ b, b ∉ Finset.univ.image (Pipeline.arrRef spec1) → W3 m c b = W2 m c b :=
  fun b hb => W3_of m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 1 over the thread state "every unscoped buffer at the contents before it, the generator register at some state,
    nothing owed": its arrays split out of the unscoped buffers at entry and put back at the exit contents; the generator
    register into the invariant and out; no semaphore of the kernel's own. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (R1.body_obligation (E2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := R1.arrays_of_bufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R1.hin (E2 m) c)
    unfold Pipeline.ΦA
    iintro ⟨Hp, -, Hr⟩
    isplitl [Hr]; · iexact Hr
    iexact Hp
  hout c := by
    rw [Pipeline.ownSems0_none]
    refine (R1.hout (E2 m) c).trans ?_
    unfold Pipeline.ΦA
    iintro ⟨Hr, Hp⟩
    isplitl [Hp]; · iexact Hp
    isplitr; · iempintro
    iexact Hr
  hexit c := by
    have hjoin := R1.bufs_of_arrays (E2 m) c (fun b => W3 m c b) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Asm

end
-- ==== Proof.KI.Seg2.lean ====
/-
  Region 2 as a segment of @main: entered from the contents after the second host stretch, left at those contents with
  its output array at what its proof data compute.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Pdats
set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At the region's exit each of its arrays holds what the valuation after it says: an input array what it held, the
    output array what the proof data compute. -/
theorem hF2 (c : Dev nD) : ∀ w : Fin cfg2.W, (pdats m 2 c).arrAt w cfg2.N = W5 m c (Pipeline.arrRef spec2 w)
  | ⟨0, h⟩ => by
      have h1 : (R2.dat (E4 m) c).arrAt ⟨0, h⟩ cfg2.N = (R2.dat (E4 m) c).A ⟨0, h⟩ := (R2.dat (E4 m) c).arrAt_in ⟨0, h⟩ rfl _
      have h2 : (R2.dat (E4 m) c).A ⟨0, h⟩ = W4 m c main_v2 := rfl
      exact h1.trans (h2.trans (W5_of m c main_v2 (by decide)).symm)
  | ⟨1, h⟩ => by
      have h1 : (R2.dat (E4 m) c).arrAt ⟨1, h⟩ cfg2.N = (R2.dat (E4 m) c).A ⟨1, h⟩ := (R2.dat (E4 m) c).arrAt_in ⟨1, h⟩ rfl _
      have h2 : (R2.dat (E4 m) c).A ⟨1, h⟩ = W4 m c main_arg3 := rfl
      exact h1.trans (h2.trans (W5_of m c main_arg3 (by decide)).symm)
  | ⟨2, h⟩ => by
      have h1 : (R2.dat (E4 m) c).arrAt ⟨2, h⟩ cfg2.N = (R2.dat (E4 m) c).A ⟨2, h⟩ := (R2.dat (E4 m) c).arrAt_in ⟨2, h⟩ rfl _
      have h2 : (R2.dat (E4 m) c).A ⟨2, h⟩ = W4 m c main_v3 := rfl
      exact h1.trans (h2.trans (W5_of m c main_v3 (by decide)).symm)
  | ⟨3, _⟩ => (W5_v4 m c).symm
/-- Off the region's arrays the valuation after it is the one before. -/
theorem hrest2 (c : Dev nD) : ∀ b, b ∉ Finset.univ.image (Pipeline.arrRef spec2) → W5 m c b = W4 m c b :=
  fun b hb => W5_of m c b fun e => hb (Finset.mem_image.mpr ⟨3, Finset.mem_univ _, e.symm⟩)

-- a library lemma stated over the pinned configuration unifies with the printed one only when unification may unfold
-- plain definitions in a metavariable's type
set_option backward.isDefEq.respectTransparency.types false in
/-- REGION 2 over the thread state "every unscoped buffer at the contents before it, the generator register at some state,
    nothing owed": its arrays split out of the unscoped buffers at entry and put back at the exit contents; the generator
    register into the invariant and out; no semaphore of the kernel's own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (R2.body_obligation (E4 m) c).loose
  hwaits := Pipeline.hwaits_of_owed_zero _ _ _ _ L lv 2 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (R2.hin (E4 m) c)
    unfold Pipeline.ΦA
    iintro ⟨Hp, -, Hr⟩
    isplitl [Hr]; · iexact Hr
    iexact Hp
  hout c := by
    rw [Pipeline.ownSems0_none]
    refine (R2.hout (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (fun b => W5 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.KI.FrameAll.lean ====
/-
  The frame of the whole program: @main's five items — a host stretch, two regions, a host stretch, the last region —
  chained over the contents between them; every execution ends, faults nowhere, and leaves the argument arrays as launched.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.Seg0
import proofs.«123105_j28527172780035_1_alg».proof.Proof.KI.Seg1
import proofs.«123105_j28527172780035_1_alg».proof.Proof.KI.Seg2
set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element yields the pipeline library's at every staging cell, and nothing besides. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the state that rides along: its generator register, and that it owes nothing. -/
theorem launch_rest :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (Rst (F := F)) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : Rst (F := F) c ⊢ (iprop(∃ W, owes (c : Thread nD τ) (0 : CellTallies nD τ sig Unit) W) : sProp 𝕄) := by
  iintro ⟨-, H⟩; iexact H

set_option backward.isDefEq.respectTransparency.types false in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () Variants.none L lv (fun _ _ => rfl) ρ (outs m) (pdats m)
    (0 : Dev nD → CellTallies nD τ sig Unit) (fun _ => (BI.emp : sProp 𝕄))
    (initOf (Pipeline.cells cfgs cellOf_inj) (Pipeline.launchToks cfgs cellOf_inj)) launch_ghost
    (fun _ c => Rst c) (launch_rest ρ) rest_owes
    (reg0 m) (fun c => .rfl) (fun c => by rw [V2_eq]; exact .rfl)
    (reg1 m) (fun c => by rw [V2_eq]; exact .rfl) (fun c => by rw [V3_eq]; exact .rfl)
    (reg2 m) (fun c => by rw [V4_eq]; exact .rfl) (fun c => by rw [V5_eq]; exact .rfl)

end Cert.KernelIdeal.Asm

end
-- ==== Proof.KI.RunValue.lean ====
/-
  The run of the whole program with its result named: @main's five items chained over the contents between them, as in
  the frame, the last thread state read at EVERY unscoped buffer; so the result array ends at what the last region's
  proof data compute, and the argument arrays as launched.
-/
import proofs.«123105_j28527172780035_1_alg».proof.Proof.Gen.KernelIdeal.Launch
import proofs.«123105_j28527172780035_1_alg».proof.Proof.Gen.KernelIdeal.Skeleton
import proofs.«123105_j28527172780035_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«123105_j28527172780035_1_alg».proof.Proof.KI.FrameAll
set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

set_option backward.isDefEq.respectTransparency.types false in
/-- Every weakly fair execution of @main ends with every unscoped buffer at the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V5 m (outs m) c b) := by
  have hpre0 : ∀ c : Dev nD, iprop(StableHlo.held (c : Thread nD τ) (Pipeline.ucRefs τ sig) (V1 m c) ∗ Rst c) ⊢ (reg0 m).pre c := fun c => .rfl
  have hpost0 : ∀ c : Dev nD, (reg0 m).post c ⊢ iprop(StableHlo.held (c : Thread nD τ) (Pipeline.ucRefs τ sig) (V2 m (outs m) c) ∗ Rst c) :=
    fun c => by rw [V2_eq]; exact .rfl
  have hpre1 : ∀ c : Dev nD, iprop(StableHlo.held (c : Thread nD τ) (Pipeline.ucRefs τ sig) (V2 m (outs m) c) ∗ Rst c) ⊢ (reg1 m).pre c :=
    fun c => by rw [V2_eq]; exact .rfl
  have hpost1 : ∀ c : Dev nD, (reg1 m).post c ⊢ iprop(StableHlo.held (c : Thread nD τ) (Pipeline.ucRefs τ sig) (V3 m (outs m) c) ∗ Rst c) :=
    fun c => by rw [V3_eq]; exact .rfl
  have hpre2 : ∀ c : Dev nD, iprop(StableHlo.held (c : Thread nD τ) (Pipeline.ucRefs τ sig) (V4 m (outs m) c) ∗ Rst c) ⊢ (reg2 m).pre c :=
    fun c => by rw [V4_eq]; exact .rfl
  have hpost2 : ∀ c : Dev nD, (reg2 m).post c ⊢ iprop(StableHlo.held (c : Thread nD τ) (Pipeline.ucRefs τ sig) (V5 m (outs m) c) ∗ Rst c) :=
    fun c => by rw [V5_eq]; exact .rfl
  refine Pipeline.θ_run_regions_kit_dev (pcfgs (F := F)) adm (pdats m) () cellOf_inj emb₁ defs₀ Variants.none L lv m ρ main
    (segs m (outs m) Variants.none L lv (fun _ c => Rst c) () (pdats m) (reg0 m) (reg1 m) (reg2 m))
    (fun c Q => by
      rewrite [main_chain c, Seg.run_eq_chain,
        show (segs m (outs m) Variants.none L lv (fun _ c => Rst c) () (pdats m) (reg0 m) (reg1 m) (reg2 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄))
    (initOf (Pipeline.cells cfgs cellOf_inj) (Pipeline.launchToks cfgs cellOf_inj)) launch_ghost
    (T₀ := fun c => iprop(StableHlo.held (c : Thread nD τ) (Pipeline.ucRefs τ sig) (V0 m c) ∗ Rst c))
    (Tₙ := fun c => StableHlo.held (c : Thread nD τ) (Pipeline.ucRefs τ sig) (V5 m (outs m) c))
    (hch := fun c => ⟨.rfl, hpre0 c, (hpost0 c).trans (hpre1 c), hpost1 c, hpre2 c, (hpost2 c).trans (sep_mono .rfl (rest_owes c))⟩)
    (hinit := ?_) (QY := fun c s => ∀ b ∈ Pipeline.ucRefs τ sig, s.mem ((c : Thread nD τ).1, b) = V5 m (outs m) c b)
    (hfin := fun c s' => ?_) (hQ := fun _ h => h)
  · -- the launch: each core's unscoped buffers are held at the launch contents; its generator register and its dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro; exact h
    · iexact HSI

/-- The run with the result named: the result array at what region 2's proof data compute, the arguments as launched. -/
theorem run_value : θ_run defs (onTc (τ := τ) (main (F := F))) ⟨m, fun _ => 0, ρ⟩ (fun r => ∀ c : Dev nD,
      r.2.mem ((c.tc : Thread nD τ).loc main_v4) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (Proc.devRef .tc main_v4) (Finset.mem_filter.mpr ⟨StableHlo.devRef_mem_tcRefs main_v4, by decide⟩)).trans ((congrFun (V5_eq m c) _).trans (W5_v4 m c)),
     (h c (Proc.devRef .tc main_arg0) (Finset.mem_filter.mpr ⟨StableHlo.devRef_mem_tcRefs main_arg0, by decide⟩)).trans (V5_main_arg0 m (outs m) c),
     (h c (Proc.devRef .tc main_arg1) (Finset.mem_filter.mpr ⟨StableHlo.devRef_mem_tcRefs main_arg1, by decide⟩)).trans (V5_main_arg1 m (outs m) c),
     (h c (Proc.devRef .tc main_arg2) (Finset.mem_filter.mpr ⟨StableHlo.devRef_mem_tcRefs main_arg2, by decide⟩)).trans (V5_main_arg2 m (outs m) c),
     (h c (Proc.devRef .tc main_arg3) (Finset.mem_filter.mpr ⟨StableHlo.devRef_mem_tcRefs main_arg3, by decide⟩)).trans (V5_main_arg3 m (outs m) c),
     (h c (Proc.devRef .tc main_arg4) (Finset.mem_filter.mpr ⟨StableHlo.devRef_mem_tcRefs main_arg4, by decide⟩)).trans (V5_main_arg4 m (outs m) c)⟩)
    (run_all m ρ)

end Cert.KernelIdeal.Asm

end
-- ==== Proof.KI.Value0.lean ====
/-
  What region 0 leaves in its output array: each 1024×512 block (i,j) is written back once, after the fourth depth block,
  holding the four partial products summed in order plus the bias block; block by block that is the whole product
  x·W plus the bias row, index by index.
-/
import proofs.«123105_j28527172780035_1_alg».proof.Proof.KI.Data0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- x·W plus a bias ROW (a 1×6144 array), index by index. -/
def denseRow (x : FVec Ideal ⟨2, ![4096, 2048]⟩ .f32) (W : FVec Ideal ⟨2, ![2048, 6144]⟩ .f32) (b : FVec Ideal ⟨2, ![1, 6144]⟩ .f32) :
    FVec Ideal ⟨2, ![4096, 6144]⟩ .f32 :=
  fun j => (∑ k : Fin 2048, x (ix2 (j 0) k) * W (ix2 k (j 1))) + b (ix2 (0 : Fin 1) (j 1))

/-! ## The three payloads at an index, over the extended reals -/

theorem mm_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem mm_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem mm_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The cleared accumulator is zero everywhere. -/
theorem pay1_apply (j : S1024x512.Idx) : k0_pay1 (F := Ideal) j = 0 := by
  unfold k0_pay1
  rw [shapeCast_self]
  exact Ideal.ofBits_zero_f32

/-- One accumulation step at row r, column q: the accumulator there plus the inner product of row r of the left block
    and column q of the right block. -/
theorem pay2_apply (x : Vec Ideal S1024x512 .f32) (w : Vec Ideal S512x512 .f32) (s : Vec Ideal S1024x512 .f32)
    (r : Fin 1024) (q : Fin 512) :
    k0_pay2 (F := Ideal) x w s (ix2 r q) = s (ix2 r q) + ∑ e : Fin 512, x (ix2 r e) * w (ix2 e q) := by
  unfold k0_pay2
  simp only [shapeCast_self]
  rw [addf_apply]
  refine congrArg (s (ix2 r q) + ·) ?_
  simp only [matmul]
  rw [Ideal.matmul_constant_zero_apply,
    ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r q) ((ValueIdx.contrEquiv1 dot_S1024x512_S512x512_S1024x512_1_0_0_1_n_n 512 rfl rfl).symm k) = ix2 r k := funext fun a => Fin.ext (by
    match a with
    | ⟨0, _⟩ => exact mm_lhs_0 _ _
    | ⟨1, _⟩ => exact (mm_lhs_1 _ _).trans hk)
  have er : dot_S1024x512_S512x512_S1024x512_1_0_0_1_n_n.rhsIdx (ix2 r q) ((ValueIdx.contrEquiv1 dot_S1024x512_S512x512_S1024x512_1_0_0_1_n_n 512 rfl rfl).symm k) = ix2 k q := funext fun a => Fin.ext (by
    match a with
    | ⟨0, _⟩ => exact (mm_rhs_0 _ _).trans hk
    | ⟨1, _⟩ => exact mm_rhs_1 _ _)
  rw [el, er]
  rfl

/-- The epilogue at row r, column q: the accumulator there plus the bias block's entry of column q. -/
theorem pay3_apply (a : Vec Ideal S1024x512 .f32) (b : Vec Ideal S1x512 .f32) (r : Fin 1024) (q : Fin 512) :
    k0_pay3 (F := Ideal) a b (ix2 r q) = a (ix2 r q) + b (ix2 (0 : Fin 1) q) := by
  unfold k0_pay3
  rw [addf_apply, shapeCast_self]
  refine congrArg (a (ix2 r q) + ·) ?_
  exact broadcastTo_apply b broadcasts_S1x512_S1024x512 (ix2 r q) (ix2 (0 : Fin 1) q) (fun a => by
    match a with
    | ⟨0, _⟩ => rfl
    | ⟨1, _⟩ => rfl)

/-! ## The blocks a point reads and writes, in the arrays' own coordinates -/

/-- The printed index maps, decided once over the grid: at point t = (i·12 + j)·4 + k the left block is (i, k), the
    right block (k, j), the bias block (0, j) and the output block (i, j). -/
theorem idx_facts : ∀ t : Fin cfg0.N,
    win0_0.index t (0 : Fin 2) = t.val / 48 ∧ win0_0.index t (1 : Fin 2) = t.val % 4
    ∧ win0_1.index t (0 : Fin 2) = t.val % 4 ∧ win0_1.index t (1 : Fin 2) = t.val / 4 % 12
    ∧ win0_2.index t (0 : Fin 2) = 0 ∧ win0_2.index t (1 : Fin 2) = t.val / 4 % 12
    ∧ win0_3.index t (0 : Fin 2) = t.val / 48 ∧ win0_3.index t (1 : Fin 2) = t.val / 4 % 12 :=
  (by decide +kernel : ∀ t : Fin grid0.N, _)

theorem pt_lt (t : Fin cfg0.N) : t.val < 192 := lt_of_lt_of_eq t.isLt (show cfg0.N = 192 from N_0)

variable (V : (c : Dev nD) → (b : Ref sig .tc) → Buf (Elt Ideal) ((c : Thread nD τ).loc b))

/-- The left block of a point in row block i, depth block s: entry (r, e) is the left array's at (1024·i + r, 512·s + e). -/
theorem xblk_at (c : Dev nD) (t : Fin cfg0.N) (i s : Fin 4) (hi : t.val / 48 = i.val) (hs : t.val % 4 = s.val)
    (r : Fin 1024) (e : Fin 512) :
    xblk V c t (ix2 r e)
      = V c main_arg0 (ix2 (⟨1024 * i.val + r.val, by omega⟩ : Fin 4096) (⟨512 * s.val + e.val, by omega⟩ : Fin 2048)) := by
  obtain ⟨h0, h1, -⟩ := idx_facts t
  show V c main_arg0 (((cfg0.win 0).blk t).view.emb (ix2 r e)) = _
  refine congrArg _ (funext fun a => Fin.ext ?_)
  match a with
  | ⟨0, _⟩ => show win0_0.index t (0 : Fin 2) * 1024 + 1 * r.val = 1024 * i.val + r.val; rw [h0, hi]; omega
  | ⟨1, _⟩ => show win0_0.index t (1 : Fin 2) * 512 + 1 * e.val = 512 * s.val + e.val; rw [h1, hs]; omega

/-- The right block of a point in depth block s, column block j: entry (e, q) is the right array's at (512·s + e, 512·j + q). -/
theorem wblk_at (c : Dev nD) (t : Fin cfg0.N) (s : Fin 4) (j : Fin 12) (hs : t.val % 4 = s.val) (hj : t.val / 4 % 12 = j.val)
    (e q : Fin 512) :
    wblk V c t (ix2 e q)
      = V c main_arg1 (ix2 (⟨512 * s.val + e.val, by omega⟩ : Fin 2048) (⟨512 * j.val + q.val, by omega⟩ : Fin 6144)) := by
  obtain ⟨-, -, h0, h1, -⟩ := idx_facts t
  show V c main_arg1 (((cfg0.win 1).blk t).view.emb (ix2 e q)) = _
  refine congrArg _ (funext fun a => Fin.ext ?_)
  match a with
  | ⟨0, _⟩ => show win0_1.index t (0 : Fin 2) * 512 + 1 * e.val = 512 * s.val + e.val; rw [h0, hs]; omega
  | ⟨1, _⟩ => show win0_1.index t (1 : Fin 2) * 512 + 1 * q.val = 512 * j.val + q.val; rw [h1, hj]; omega

/-- The bias block of a point in column block j: entry (0, q) is the bias row's at column 512·j + q. -/
theorem bblk_at (c : Dev nD) (t : Fin cfg0.N) (j : Fin 12) (hj : t.val / 4 % 12 = j.val) (q : Fin 512) :
    bblk V c t (ix2 (0 : Fin 1) q)
      = V c main_v0 (ix2 (0 : Fin 1) (⟨512 * j.val + q.val, by omega⟩ : Fin 6144)) := by
  obtain ⟨-, -, -, -, h0, h1, -⟩ := idx_facts t
  show V c main_v0 (((cfg0.win 2).blk t).view.emb (ix2 (0 : Fin 1) q)) = _
  refine congrArg _ (funext fun a => Fin.ext ?_)
  match a with
  | ⟨0, _⟩ => show win0_2.index t (0 : Fin 2) * 1 + 1 * 0 = 0; rw [h0]
  | ⟨1, _⟩ => show win0_2.index t (1 : Fin 2) * 512 + 1 * q.val = 512 * j.val + q.val; rw [h1, hj]; omega

/-! ## The accumulator after the fourth point of a run -/

theorem acc_succ (c : Dev nD) (n : ℕ) (h : n + 1 < cfg0.N) (hm : ¬(n + 1) % 4 = 0) :
    acc V c (n + 1) h = k0_pay2 (xblk V c ⟨n + 1, h⟩) (wblk V c ⟨n + 1, h⟩) (acc V c n (Nat.lt_of_succ_lt h)) := by
  simp only [acc]; rw [if_neg hm]

/-- After point 4u + 3 the accumulator holds the four steps of its run, from the cleared block. -/
theorem acc_last (c : Dev nD) (u : ℕ) (h : 4 * u + 3 < cfg0.N) :
    acc V c (4 * u + 3) h
      = k0_pay2 (xblk V c ⟨4 * u + 3, h⟩) (wblk V c ⟨4 * u + 3, h⟩)
          (k0_pay2 (xblk V c ⟨4 * u + 2, by omega⟩) (wblk V c ⟨4 * u + 2, by omega⟩)
            (k0_pay2 (xblk V c ⟨4 * u + 1, by omega⟩) (wblk V c ⟨4 * u + 1, by omega⟩)
              (k0_pay2 (xblk V c ⟨4 * u, by omega⟩) (wblk V c ⟨4 * u, by omega⟩) (k0_pay1 (F := Ideal))))) := by
  rw [acc_succ V c (4 * u + 2) h (by omega), acc_succ V c (4 * u + 1) (by omega) (by omega),
    acc_succ V c (4 * u) (by omega) (by omega), acc_reset V c ⟨4 * u, by omega⟩ (by show 4 * u % 4 = 0; omega)]

/-! ## A sum over 2048 terms in four runs of 512 -/

theorem sum_split {M : Type*} [AddCommMonoid M] (f : Fin 2048 → M) :
    ∑ k : Fin 2048, f k = ∑ s : Fin 4, ∑ e : Fin 512, f ⟨512 * s.val + e.val, by omega⟩ := by
  rw [← Fintype.sum_prod_type' (f := fun (s : Fin 4) (e : Fin 512) => f ⟨512 * s.val + e.val, by omega⟩),
    ← Equiv.sum_comp (finProdFinEquiv (m := 4) (n := 512))]
  refine Finset.sum_congr rfl fun p _ => congrArg f (Fin.ext ?_)
  show p.2.val + 512 * p.1.val = 512 * p.1.val + p.2.val
  omega

/-- The block's value in the arrays' coordinates: the four partial products in order from zero, plus the bias entry,
    is the full inner product plus the bias entry. -/
theorem block_value (X : FVec Ideal ⟨2, ![4096, 2048]⟩ .f32) (W : FVec Ideal ⟨2, ![2048, 6144]⟩ .f32)
    (B : FVec Ideal ⟨2, ![1, 6144]⟩ .f32) (R : Fin 4096) (Q : Fin 6144) :
    ((((0 + ∑ e : Fin 512, X (ix2 R ⟨512 * (0 : Fin 4).val + e.val, by omega⟩) * W (ix2 ⟨512 * (0 : Fin 4).val + e.val, by omega⟩ Q))
        + ∑ e : Fin 512, X (ix2 R ⟨512 * (1 : Fin 4).val + e.val, by omega⟩) * W (ix2 ⟨512 * (1 : Fin 4).val + e.val, by omega⟩ Q))
        + ∑ e : Fin 512, X (ix2 R ⟨512 * (2 : Fin 4).val + e.val, by omega⟩) * W (ix2 ⟨512 * (2 : Fin 4).val + e.val, by omega⟩ Q))
        + ∑ e : Fin 512, X (ix2 R ⟨512 * (3 : Fin 4).val + e.val, by omega⟩) * W (ix2 ⟨512 * (3 : Fin 4).val + e.val, by omega⟩ Q))
      + B (ix2 (0 : Fin 1) Q)
      = denseRow X W B (ix2 R Q) := by
  show _ = (∑ k : Fin 2048, X (ix2 R k) * W (ix2 k Q)) + B (ix2 (0 : Fin 1) Q)
  rw [sum_split (fun k : Fin 2048 => X (ix2 R k) * W (ix2 k Q)), Fin.sum_univ_four, zero_add]

/-- One depth block's partial product, rewritten from the blocks' coordinates to the arrays'. -/
theorem prod_eq (X : FVec Ideal ⟨2, ![4096, 2048]⟩ .f32) (W : FVec Ideal ⟨2, ![2048, 6144]⟩ .f32)
    (xb : Vec Ideal S1024x512 .f32) (wb : Vec Ideal S512x512 .f32) (R : Fin 4096) (Q : Fin 6144) (s : Fin 4)
    (r : Fin 1024) (q : Fin 512)
    (hx : ∀ e : Fin 512, xb (ix2 r e) = X (ix2 R ⟨512 * s.val + e.val, by omega⟩))
    (hw : ∀ e : Fin 512, wb (ix2 e q) = W (ix2 ⟨512 * s.val + e.val, by omega⟩ Q)) :
    ∑ e : Fin 512, xb (ix2 r e) * wb (ix2 e q)
      = ∑ e : Fin 512, X (ix2 R ⟨512 * s.val + e.val, by omega⟩) * W (ix2 ⟨512 * s.val + e.val, by omega⟩ Q) :=
  Finset.sum_congr rfl fun e _ => by rw [hx e, hw e]

/-! ## What a writing point writes back, the cover, and the array after the run -/

/-- The point 4u + 3 writes back block (u/12, u%12) of the product plus bias. -/
theorem flushed_eq (c : Dev nD) (t : Fin cfg0.N) (h3 : t.val % 4 = 3) :
    (dat V c).flushed 3 t
      = ((cfg0.win 3).blk t).view.read (Elt Ideal) (denseRow (V c main_arg0) (V c main_arg1) (V c main_v0)) := by
  have hN := pt_lt t
  obtain ⟨n, hn⟩ := t
  obtain ⟨u, rfl⟩ : ∃ u, n = 4 * u + 3 := ⟨n / 4, by dsimp only at h3; omega⟩
  have hu : u < 48 := by dsimp only at hN; omega
  obtain ⟨-, -, -, -, -, -, h0, h1⟩ := idx_facts ⟨4 * u + 3, hn⟩
  show (cfg0.win 3).cut (grid0.coords ⟨4 * u + 3, hn⟩) ((dat V c).after 3 ⟨4 * u + 3, hn⟩) = _
  rw [after_3]
  funext y
  obtain ⟨r, q, rfl⟩ : ∃ (r : Fin 1024) (q : Fin 512), y = ix2 r q := ⟨y 0, y 1, eq_ix2 y⟩
  have hemb : ((cfg0.win 3).blk ⟨4 * u + 3, hn⟩).view.emb (ix2 r q)
      = ix2 (⟨1024 * (u / 12) + r.val, by omega⟩ : Fin 4096) (⟨512 * (u % 12) + q.val, by omega⟩ : Fin 6144) :=
    funext fun a => Fin.ext (by
      match a with
      | ⟨0, _⟩ => show win0_3.index ⟨4 * u + 3, hn⟩ (0 : Fin 2) * 1024 + 1 * r.val = 1024 * (u / 12) + r.val; rw [h0]; dsimp only; omega
      | ⟨1, _⟩ => show win0_3.index ⟨4 * u + 3, hn⟩ (1 : Fin 2) * 512 + 1 * q.val = 512 * (u % 12) + q.val; rw [h1]; dsimp only; omega)
  show k0_pay3 (acc V c (4 * u + 3) hn) (bblk V c ⟨4 * u + 3, hn⟩) (ix2 r q)
    = denseRow (V c main_arg0) (V c main_arg1) (V c main_v0) (((cfg0.win 3).blk ⟨4 * u + 3, hn⟩).view.emb (ix2 r q))
  rw [hemb, ← block_value, pay3_apply, acc_last, pay2_apply, pay2_apply, pay2_apply, pay2_apply, pay1_apply,
    bblk_at V c ⟨4 * u + 3, hn⟩ ⟨u % 12, by omega⟩ (by dsimp only; omega)]
  have prod : ∀ (s : Fin 4) (hs : 4 * u + s.val < cfg0.N), _ := fun s hs =>
    prod_eq (V c main_arg0) (V c main_arg1) (xblk V c ⟨4 * u + s.val, hs⟩) (wblk V c ⟨4 * u + s.val, hs⟩)
      (⟨1024 * (u / 12) + r.val, by omega⟩ : Fin 4096) (⟨512 * (u % 12) + q.val, by omega⟩ : Fin 6144) s r q
      (fun e => xblk_at V c ⟨4 * u + s.val, hs⟩ ⟨u / 12, by omega⟩ s (by dsimp only; omega) (by dsimp only; omega) r e)
      (fun e => wblk_at V c ⟨4 * u + s.val, hs⟩ s ⟨u % 12, by omega⟩ (by dsimp only; omega) (by dsimp only; omega) e q)
  have p0 := prod 0 (by show 4 * u + 0 < cfg0.N; omega)
  have p1 := prod 1 (by show 4 * u + 1 < cfg0.N; omega)
  have p2 := prod 2 (by show 4 * u + 2 < cfg0.N; omega)
  have p3 := prod 3 (by show 4 * u + 3 < cfg0.N; omega)
  exact congrArg₂ (· + ·) (congrArg₂ (· + ·) (congrArg₂ (· + ·) (congrArg₂ (· + ·) (congrArg (0 + ·) p0) p1) p2) p3) rfl

/-- An index of the output array is in point t's block iff each coordinate is in the block's range on its axis. -/
theorem mem_blk3 (t : Fin cfg0.N) (i : S4096x6144.Idx) :
    i ∈ ((cfg0.win 3).blk t).view.set
      ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every index (R, Q) of the output lies in the block of the writing point ((R/1024)·12 + Q/512)·4 + 3. -/
theorem cover (i : S4096x6144.Idx) :
    ∃ t : Fin cfg0.N, (cfg0.win 3).flush t = true ∧ i ∈ ((cfg0.win 3).blk t).view.set := by
  have hi0 : (i 0).val < 4096 := (i 0).isLt
  have hi1 : (i 1).val < 6144 := (i 1).isLt
  have hN : cfg0.N = 192 := N_0
  refine ⟨⟨(((i 0).val / 1024) * 12 + (i 1).val / 512) * 4 + 3, by omega⟩, (flush0_3 _).mpr (by dsimp only; omega), ?_⟩
  obtain ⟨-, -, -, -, -, -, h0, h1⟩ := idx_facts ⟨(((i 0).val / 1024) * 12 + (i 1).val / 512) * 4 + 3, by omega⟩
  rw [mem_blk3]
  intro a
  match a with
  | ⟨0, _⟩ =>
    show win0_3.index _ (0 : Fin 2) * 1024 ≤ (i 0).val ∧ (i 0).val < win0_3.index _ (0 : Fin 2) * 1024 + 1024
    rw [h0]; dsimp only; omega
  | ⟨1, _⟩ =>
    show win0_3.index _ (1 : Fin 2) * 512 ≤ (i 1).val ∧ (i 1).val < win0_3.index _ (1 : Fin 2) * 512 + 512
    rw [h1]; dsimp only; omega

/-- After the region's last point its output array holds x·W plus the bias row of the arrays it was entered with. -/
theorem final (c : Dev nD) :
    (dat (F := Ideal) V c).arrAt 3 cfg0.N = denseRow (V c main_arg0) (V c main_arg1) (V c main_v0) :=
  (dat V c).arrAt_eq_of_cover 3 (denseRow (V c main_arg0) (V c main_arg1) (V c main_v0))
    (fun t hf => flushed_eq V c t ((flush0_3 t).mp hf)) cover

end Cert.KernelIdeal.R0

end
-- ==== Proof.Spec.lean ====
/-
  The computation both programs perform, as whole-array functions on the extended reals, index by index.
  A token row x[s,·] of width 2048 is projected to kqv[s,·] of width 6144 = x·W1 + b1, whose columns hold,
  head by head (16 heads of width 128), the keys [0,2048), the queries [2048,4096) and the values [4096,6144).
  The causal (lower-triangular) linear attention of head h sends row s to
      Σ_{t ≤ s} ⟨q[s,h,·], k[t,h,·]⟩ · v[t,h,·]
  and the result is projected once more, ·W2 + b2.
-/
import Idealize.ShloMosaic.PureOps.Ideal
import Idealize.ShloMosaic.Lib.ValueIdx

noncomputable section

open scoped BigOperators

namespace Cert.Spec

open Idealize.ShloMosaic Idealize.ShloMosaic.ValueIdx

/-- One entry of x·W1 + b1: row s, column n. -/
def kqvAt (x : FVec Ideal ⟨2, ![4096, 2048]⟩ .f32) (W1 : FVec Ideal ⟨2, ![2048, 6144]⟩ .f32) (b1 : FVec Ideal ⟨1, ![6144]⟩ .f32)
    (s : Fin 4096) (n : Fin 6144) : EReal :=
  (∑ k : Fin 2048, x (ix2 s k) * W1 (ix2 k n)) + b1 (ix1 n)

/-- The projection x·W1 + b1 as an array. -/
def kqv (x : FVec Ideal ⟨2, ![4096, 2048]⟩ .f32) (W1 : FVec Ideal ⟨2, ![2048, 6144]⟩ .f32) (b1 : FVec Ideal ⟨1, ![6144]⟩ .f32) :
    FVec Ideal ⟨2, ![4096, 6144]⟩ .f32 :=
  fun i => kqvAt x W1 b1 (i 0) (i 1)

/-- The score of query row s against key row t in the head that owns output column n: the inner product over
    the head's 128 columns, the query read at column 2048 + 128·(n/128) + e and the key at 128·(n/128) + e. -/
def scoreAt (p : FVec Ideal ⟨2, ![4096, 6144]⟩ .f32) (s t : Fin 4096) (n : Fin 2048) : EReal :=
  ∑ e : Fin 128, p (ix2 s ⟨2048 + 128 * (n.val / 128) + e.val, by omega⟩) * p (ix2 t ⟨128 * (n.val / 128) + e.val, by omega⟩)

/-- One entry of the causal attention: row s, column n (head n/128, lane n%128); the value read at column 4096 + n. -/
def attnAt (p : FVec Ideal ⟨2, ![4096, 6144]⟩ .f32) (s : Fin 4096) (n : Fin 2048) : EReal :=
  ∑ t : Fin 4096, (if t.val ≤ s.val then scoreAt p s t n else 0) * p (ix2 t ⟨4096 + n.val, by omega⟩)

/-- The causal attention as an array. -/
def attn (p : FVec Ideal ⟨2, ![4096, 6144]⟩ .f32) : FVec Ideal ⟨2, ![4096, 2048]⟩ .f32 :=
  fun i => attnAt p (i 0) (i 1)

/-- One entry of a·W2 + b2. -/
def outAt (a : FVec Ideal ⟨2, ![4096, 2048]⟩ .f32) (W2 : FVec Ideal ⟨2, ![2048, 2048]⟩ .f32) (b2 : FVec Ideal ⟨1, ![2048]⟩ .f32)
    (s : Fin 4096) (n : Fin 2048) : EReal :=
  (∑ k : Fin 2048, a (ix2 s k) * W2 (ix2 k n)) + b2 (ix1 n)

/-- The output projection as an array. -/
def out (a : FVec Ideal ⟨2, ![4096, 2048]⟩ .f32) (W2 : FVec Ideal ⟨2, ![2048, 2048]⟩ .f32) (b2 : FVec Ideal ⟨1, ![2048]⟩ .f32) :
    FVec Ideal ⟨2, ![4096, 2048]⟩ .f32 :=
  fun i => outAt a W2 b2 (i 0) (i 1)

/-- The whole computation. -/
def result (x : FVec Ideal ⟨2, ![4096, 2048]⟩ .f32) (W1 : FVec Ideal ⟨2, ![2048, 6144]⟩ .f32) (b1 : FVec Ideal ⟨1, ![6144]⟩ .f32)
    (W2 : FVec Ideal ⟨2, ![2048, 2048]⟩ .f32) (b2 : FVec Ideal ⟨1, ![2048]⟩ .f32) : FVec Ideal ⟨2, ![4096, 2048]⟩ .f32 :=
  out (attn (kqv x W1 b1)) W2 b2

end Cert.Spec

end
-- ==== Proof.KI.Value1.lean ====
/-
  What region 1 leaves in its output array: block (qi, h) of the result is written back once, after the fourth key
  block, holding the contributions of the key blocks ki ≤ qi summed in order from zero. A key block after the query block
  holds only column indices above every row index of the query block, so the reference's masked terms there are zero
  times a value, and zero; within a contributing block the mask is the comparison of the global indices. Block by block
  that is the specification's causal attention of the projection, index by index.
-/
import proofs.«123105_j28527172780035_1_alg».proof.Proof.KI.Data1
import proofs.«123105_j28527172780035_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.KernelIdeal.R1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Attn

/-! ## The two products of the body, entry by entry -/

/-- The score product: the left operand's row is the output's row. -/
theorem lhsA_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The score product: the left operand's column is the contraction index. -/
theorem lhsA_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- The score product: the right operand's row is the contraction index. -/
theorem rhsA_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- The score product: the right operand's column is the output's column. -/
theorem rhsA_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The score product into the zero accumulator, entry by entry: the sum over the head's 128 columns. -/
theorem mmA_apply (a : FVec Ideal S1024x128 .bf16) (b : FVec Ideal S128x1024 .bf16) (r c : Fin 1024) :
    matmul dot_S1024x128_S128x1024_S1024x1024_1_0_0_1_n_n none a b (constant (F := Ideal) S1024x1024 .f32 0x00000000#32) (ix2 r c)
      = ∑ e : Fin 128, a (ix2 r e) * b (ix2 e c) := by
  simp only [matmul]
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 r c) ((ValueIdx.contrEquiv1 dot_S1024x128_S128x1024_S1024x1024_1_0_0_1_n_n 128 rfl rfl).symm k) = ix2 r k := funext fun a => Fin.ext (by
    match a with
    | ⟨0, _⟩ => exact lhsA_0 _ _
    | ⟨1, _⟩ => exact (lhsA_1 _ _).trans hk)
  have er : dot_S1024x128_S128x1024_S1024x1024_1_0_0_1_n_n.rhsIdx (ix2 r c) ((ValueIdx.contrEquiv1 dot_S1024x128_S128x1024_S1024x1024_1_0_0_1_n_n 128 rfl rfl).symm k) = ix2 k c := funext fun a => Fin.ext (by
    match a with
    | ⟨0, _⟩ => exact (rhsA_0 _ _).trans hk
    | ⟨1, _⟩ => exact rhsA_1 _ _)
  rw [el, er]

/-- The product with the values: the left operand's row is the output's row. -/
theorem lhsB_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
/-- The product with the values: the left operand's column is the contraction index. -/
theorem lhsB_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The product with the values: the right operand's row is the contraction index. -/
theorem rhsB_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- The product with the values: the right operand's column is the output's column. -/
theorem rhsB_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product with the values into the zero accumulator, entry by entry: the sum over the key block's 1024 rows. -/
theorem mmB_apply (a : FVec Ideal S1024x1024 .bf16) (b : FVec Ideal S1024x128 .bf16) (r : Fin 1024) (d : Fin 128) :
    matmul dot_S1024x1024_S1024x128_S1024x128_1_0_0_1_n_n none a b (constant (F := Ideal) S1024x128 .f32 0x00000000#32) (ix2 r d)
      = ∑ c : Fin 1024, a (ix2 r c) * b (ix2 c d) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r d) ((ValueIdx.contrEquiv1 dot_S1024x1024_S1024x128_S1024x128_1_0_0_1_n_n 1024 rfl rfl).symm k) = ix2 r k := funext fun a => Fin.ext (by
    match a with
    | ⟨0, _⟩ => exact lhsB_0 _ _
    | ⟨1, _⟩ => exact (lhsB_1 _ _).trans hk)
  have er : dot_S1024x1024_S1024x128_S1024x128_1_0_0_1_n_n.rhsIdx (ix2 r d) ((ValueIdx.contrEquiv1 dot_S1024x1024_S1024x128_S1024x128_1_0_0_1_n_n 1024 rfl rfl).symm k) = ix2 k d := funext fun a => Fin.ext (by
    match a with
    | ⟨0, _⟩ => exact (rhsB_0 _ _).trans hk
    | ⟨1, _⟩ => exact rhsB_1 _ _)
  rw [el, er]

/-! ## The causal mask, entry by entry -/

/-- A column broadcast over the columns: a [a, 1] array read at (p, c) is its entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A selection on a one-bit word that encodes a decidable proposition is the conditional on it. -/
theorem select_of_iff {α : Type} (b : BitVec 1) (P : Prop) [Decidable P] (h : b = 1#1 ↔ P) (x y : α) :
    Scalar.select b x y = if P then x else y := by
  by_cases hb : b = 1#1
  · rw [hb, select_one, if_pos (h.mp hb)]
  · rw [eq_zero_of_ne_one hb, select_zero, if_neg (fun hp => hb (h.mpr hp))]

/-- The words the mask compares are small: block number times 1024 plus an offset below 1024 does not wrap. -/
theorem word_toNat (a x : ℕ) (ha : a < 4) (hx : x < 1024) :
    (IntOp.addi (Scalar.muli (BitVec.ofNat 32 a) 1024#32) (BitVec.ofNat 32 x)).toNat = 1024 * a + x := by
  simp only [Scalar.muli, IntOp.muli, IntOp.addi, BitVec.toNat_add, BitVec.toNat_mul, BitVec.toNat_ofNat, Nat.reducePow, Nat.reduceMod]
  omega

/-- The causal mask of the point whose query block is a1 and key block a2, entry by entry: the global row index is
    at least the global column index. -/
theorem mask_apply (a1 a2 : ℕ) (h1 : a1 < 4) (h2 : a2 < 4) (r c : Fin 1024) :
    cmpi .sge
      (broadcastTo S1024x1024 (addi (broadcast S1024x1 (Scalar.muli (BitVec.ofNat 32 a1) 1024#32)) (iota .tc S1024x1 32 [0] iota_S1024x1_d0_w32)) broadcasts_S1024x1_S1024x1024)
      (broadcastTo S1024x1024 (addi (broadcast S1x1024 (Scalar.muli (BitVec.ofNat 32 a2) 1024#32)) (iota .tc S1x1024 32 [1] iota_S1x1024_d1_w32)) broadcasts_S1x1024_S1024x1024)
      (ix2 r c) = 1#1 ↔ 1024 * a2 + c.val ≤ 1024 * a1 + r.val := by
  show IntOp.cmpi .sge
      (broadcastTo S1024x1024 (addi (broadcast S1024x1 (Scalar.muli (BitVec.ofNat 32 a1) 1024#32)) (iota .tc S1024x1 32 [0] iota_S1024x1_d0_w32)) broadcasts_S1024x1_S1024x1024 (ix2 r c))
      (broadcastTo S1024x1024 (addi (broadcast S1x1024 (Scalar.muli (BitVec.ofNat 32 a2) 1024#32)) (iota .tc S1x1024 32 [1] iota_S1x1024_d1_w32)) broadcasts_S1x1024_S1024x1024 (ix2 r c)) = 1#1 ↔ _
  rw [broadcastTo_a1_ab_apply, broadcastTo_1b_ab_apply]
  show IntOp.cmpi .sge
      (IntOp.addi (Scalar.muli (BitVec.ofNat 32 a1) 1024#32) (iota .tc S1024x1 32 [0] iota_S1024x1_d0_w32 (ix2 r (0 : Fin 1))))
      (IntOp.addi (Scalar.muli (BitVec.ofNat 32 a2) 1024#32) (iota .tc S1x1024 32 [1] iota_S1x1024_d1_w32 (ix2 (0 : Fin 1) c))) = 1#1 ↔ _
  rw [iota_single_apply, iota_single_apply]
  show IntOp.cmpi .sge
      (IntOp.addi (Scalar.muli (BitVec.ofNat 32 a1) 1024#32) (BitVec.ofNat 32 r.val))
      (IntOp.addi (Scalar.muli (BitVec.ofNat 32 a2) 1024#32) (BitVec.ofNat 32 c.val)) = 1#1 ↔ _
  have er := word_toNat a1 r.val h1 r.isLt
  have ec := word_toNat a2 c.val h2 c.isLt
  rw [StableHlo.Predicate.sge_iff_toNat (by rw [er]; have := r.isLt; omega) (by rw [ec]; have := c.isLt; omega), er, ec]

/-! ## The body's two stored values, entry by entry -/

/-- The zero block the accumulator is cleared to, entry by entry. -/
theorem pay1_apply (j : S1024x128.Idx) : k1_pay1 (F := Ideal) j = 0 := by
  unfold k1_pay1
  simp only [shapeCast_self]
  exact Ideal.ofBits_zero_f32

/-- One point's update of the accumulator, entry by entry: to what was there it adds, over the key block's rows, the
    masked score of the query row against the key row times the value row's entry. -/
theorem pay2_apply (i : grid1.Coords) (h1 : (i 1).val < 4) (h2 : (i 2).val < 4)
    (q k v s : Vec Ideal S1024x128 .f32) (r : Fin 1024) (d : Fin 128) :
    k1_pay2 (F := Ideal) i q k v s (ix2 r d)
      = s (ix2 r d) + ∑ c : Fin 1024,
          (if 1024 * (i 2).val + c.val ≤ 1024 * (i 1).val + r.val then ∑ e : Fin 128, q (ix2 r e) * k (ix2 c e) else 0) * v (ix2 c d) := by
  unfold k1_pay2
  simp only [shapeCast_self]
  show s (ix2 r d) + _ = s (ix2 r d) + _
  refine congrArg (s (ix2 r d) + ·) ?_
  refine (mmB_apply _ _ r d).trans ?_
  refine Finset.sum_congr rfl fun c _ => ?_
  have hz : (FloatOps.ofBits (F := Ideal) .f32 0#32) = 0 := Ideal.ofBits_zero_f32
  rw [truncf_apply, truncf_apply, select_apply, select_of_iff _ _ (mask_apply _ _ h1 h2 r c), mmA_apply, broadcast_apply, hz]
  refine congrArg (· * v (ix2 c d)) (if_congr Iff.rfl (Finset.sum_congr rfl fun e _ => ?_) rfl)
  refine congrArg (q (ix2 r e) * ·) ?_
  exact transpose_ix2_apply (truncf (F := Ideal) .bf16 k bitsLt_bf16_f32) transposes_S1024x128_p1_0_S128x1024 e c

/-! ## The blocks a point reads, as entries of the projection -/

variable (V : (c : Dev nD) → (b : Ref sig .tc) → Buf (Elt Ideal) ((c : Thread nD τ).loc b))

/-- The projection array the region reads, at its literal type. -/
abbrev parr (c : Dev nD) : FVec Ideal S4096x6144 .f32 := V c main_v1

/-- The projection read at natural-number coordinates (zero outside the array, which no use reaches). -/
def rd (p : FVec Ideal S4096x6144 .f32) (s n : ℕ) : EReal :=
  if h : s < 4096 ∧ n < 6144 then p (ix2 ⟨s, h.1⟩ ⟨n, h.2⟩) else 0

theorem rd_of_lt (p : FVec Ideal S4096x6144 .f32) (s n : ℕ) (hs : s < 4096) (hn : n < 6144) :
    rd p s n = p (ix2 ⟨s, hs⟩ ⟨n, hn⟩) := dif_pos ⟨hs, hn⟩

/-- The printed index maps and grid coordinates in closed form over the point number t = (h·4 + qi)·4 + ki. -/
theorem idx_facts : ∀ t : Fin cfg1.N,
    win1_0.index t (0 : Fin 2) = t.val / 4 % 4 ∧ win1_0.index t (1 : Fin 2) = 16 + t.val / 16
    ∧ win1_1.index t (0 : Fin 2) = t.val % 4 ∧ win1_1.index t (1 : Fin 2) = t.val / 16
    ∧ win1_2.index t (0 : Fin 2) = t.val % 4 ∧ win1_2.index t (1 : Fin 2) = 32 + t.val / 16
    ∧ win1_3.index t (0 : Fin 2) = t.val / 4 % 4 ∧ win1_3.index t (1 : Fin 2) = t.val / 16
    ∧ ((grid1.coords t) 1).val = t.val / 4 % 4 ∧ ((grid1.coords t) 2).val = t.val % 4 :=
  (by decide +kernel : ∀ t : Fin grid1.N, _)

theorem N_eq : cfg1.N = 256 := N_1

/-- The query block of point t: rows of query block qi, the head's query columns. -/
theorem qblk_apply (c : Dev nD) (t : Fin cfg1.N) (r : Fin 1024) (e : Fin 128) :
    qblk V c t (ix2 r e) = rd (parr V c) (1024 * (t.val / 4 % 4) + r.val) (2048 + 128 * (t.val / 16) + e.val) := by
  have ht : t.val < 256 := N_eq ▸ t.isLt
  obtain ⟨e0, e1, -, -, -, -, -, -, -, -⟩ := idx_facts t
  rw [rd_of_lt _ _ _ (by have := r.isLt; omega) (by have := e.isLt; omega)]
  show V c main_v1 (((cfg1.win 0).blk t).view.emb (ix2 r e)) = V c main_v1 _
  congr 1
  funext a; apply Fin.ext
  match a with
  | ⟨0, _⟩ => show win1_0.index t (0 : Fin 2) * 1024 + 1 * r.val = 1024 * (t.val / 4 % 4) + r.val; omega
  | ⟨1, _⟩ => show win1_0.index t (1 : Fin 2) * 128 + 1 * e.val = 2048 + 128 * (t.val / 16) + e.val; omega

/-- The key block of point t: rows of key block ki, the head's key columns. -/
theorem kblk_apply (c : Dev nD) (t : Fin cfg1.N) (x : Fin 1024) (e : Fin 128) :
    kblk V c t (ix2 x e) = rd (parr V c) (1024 * (t.val % 4) + x.val) (128 * (t.val / 16) + e.val) := by
  have ht : t.val < 256 := N_eq ▸ t.isLt
  obtain ⟨-, -, e0, e1, -, -, -, -, -, -⟩ := idx_facts t
  rw [rd_of_lt _ _ _ (by have := x.isLt; omega) (by have := e.isLt; omega)]
  show V c main_v1 (((cfg1.win 1).blk t).view.emb (ix2 x e)) = V c main_v1 _
  congr 1
  funext a; apply Fin.ext
  match a with
  | ⟨0, _⟩ => show win1_1.index t (0 : Fin 2) * 1024 + 1 * x.val = 1024 * (t.val % 4) + x.val; omega
  | ⟨1, _⟩ => show win1_1.index t (1 : Fin 2) * 128 + 1 * e.val = 128 * (t.val / 16) + e.val; omega

/-- The value block of point t: rows of key block ki, the head's value columns. -/
theorem vblk_apply (c : Dev nD) (t : Fin cfg1.N) (x : Fin 1024) (d : Fin 128) :
    vblk V c t (ix2 x d) = rd (parr V c) (1024 * (t.val % 4) + x.val) (4096 + (128 * (t.val / 16) + d.val)) := by
  have ht : t.val < 256 := N_eq ▸ t.isLt
  obtain ⟨-, -, -, -, e0, e1, -, -, -, -⟩ := idx_facts t
  rw [rd_of_lt _ _ _ (by have := x.isLt; omega) (by have := d.isLt; omega)]
  show V c main_v1 (((cfg1.win 2).blk t).view.emb (ix2 x d)) = V c main_v1 _
  congr 1
  funext a; apply Fin.ext
  match a with
  | ⟨0, _⟩ => show win1_2.index t (0 : Fin 2) * 1024 + 1 * x.val = 1024 * (t.val % 4) + x.val; omega
  | ⟨1, _⟩ => show win1_2.index t (1 : Fin 2) * 128 + 1 * d.val = 4096 + (128 * (t.val / 16) + d.val); omega

/-! ## The specification, cut into key blocks -/

/-- The summand of the causal attention at query row s, output column n and key row x: the masked score times the
    value entry, over natural-number coordinates. -/
def term (p : FVec Ideal S4096x6144 .f32) (s n x : ℕ) : EReal :=
  (if x ≤ s then ∑ e : Fin 128, rd p s (2048 + 128 * (n / 128) + e.val) * rd p x (128 * (n / 128) + e.val) else 0)
    * rd p x (4096 + n)

/-- What key block kb adds to the entry (s, n): the summands of its 1024 key rows. -/
def contrib (p : FVec Ideal S4096x6144 .f32) (s n kb : ℕ) : EReal :=
  ∑ c ∈ Finset.range 1024, term p s n (1024 * kb + c)

/-- A key block after the query row's block adds nothing: every key row of it is after the query row, so each masked
    score is zero, and zero times anything is zero. -/
theorem contrib_eq_zero (p : FVec Ideal S4096x6144 .f32) (s n kb : ℕ) (h : s < 1024 * kb) : contrib p s n kb = 0 := by
  unfold contrib
  refine Finset.sum_eq_zero fun c _ => ?_
  unfold term
  rw [if_neg (by omega), zero_mul]

theorem sum_range_four (f : ℕ → EReal) : ∑ j ∈ Finset.range 4, f j = f 0 + f 1 + f 2 + f 3 := by
  simp [Finset.sum_range_succ]

/-- A sum over 4096 consecutive naturals, cut into four runs of 1024. -/
theorem sum_range_blocks (f : ℕ → EReal) :
    ∑ x ∈ Finset.range 4096, f x = ∑ j ∈ Finset.range 4, ∑ c ∈ Finset.range 1024, f (1024 * j + c) := by
  rw [sum_range_four]
  rw [show (4096 : ℕ) = 1024 + (1024 + (1024 + 1024)) from rfl, Finset.sum_range_add, Finset.sum_range_add, Finset.sum_range_add]
  have e0 : ∑ c ∈ Finset.range 1024, f (1024 * 0 + c) = ∑ x ∈ Finset.range 1024, f x :=
    Finset.sum_congr rfl fun x _ => by rw [show 1024 * 0 + x = x by omega]
  have e1 : ∑ c ∈ Finset.range 1024, f (1024 * 1 + c) = ∑ x ∈ Finset.range 1024, f (1024 + x) :=
    Finset.sum_congr rfl fun x _ => by rw [show 1024 * 1 + x = 1024 + x by omega]
  have e2 : ∑ c ∈ Finset.range 1024, f (1024 * 2 + c) = ∑ x ∈ Finset.range 1024, f (1024 + (1024 + x)) :=
    Finset.sum_congr rfl fun x _ => by rw [show 1024 * 2 + x = 1024 + (1024 + x) by omega]
  have e3 : ∑ c ∈ Finset.range 1024, f (1024 * 3 + c) = ∑ x ∈ Finset.range 1024, f (1024 + (1024 + (1024 + x))) :=
    Finset.sum_congr rfl fun x _ => by rw [show 1024 * 3 + x = 1024 + (1024 + (1024 + x)) by omega]
  rw [e0, e1, e2, e3, add_assoc, add_assoc]

/-- The specification's entry is the sum of the summands over all 4096 key rows. -/
theorem attnAt_eq_sum (p : FVec Ideal S4096x6144 .f32) (s : Fin 4096) (n : Fin 2048) :
    Cert.Spec.attnAt p s n = ∑ x ∈ Finset.range 4096, term p s.val n.val x := by
  rw [← Fin.sum_univ_eq_sum_range (fun x => term p s.val n.val x) 4096]
  unfold Cert.Spec.attnAt
  refine Finset.sum_congr rfl fun t _ => ?_
  unfold term Cert.Spec.scoreAt
  have hs := s.isLt
  have hn := n.isLt
  have ht := t.isLt
  rw [rd_of_lt p t.val (4096 + n.val) ht (by omega)]
  refine congrArg (· * p (ix2 t ⟨4096 + n.val, by omega⟩)) ?_
  refine if_congr Iff.rfl ?_ rfl
  refine Finset.sum_congr rfl fun e _ => ?_
  have he := e.isLt
  rw [rd_of_lt p s.val (2048 + 128 * (n.val / 128) + e.val) hs (by omega),
    rd_of_lt p t.val (128 * (n.val / 128) + e.val) ht (by omega)]

/-- The sum over the 4096 key rows, cut into the four key blocks of 1024. -/
theorem attnAt_blocks (p : FVec Ideal S4096x6144 .f32) (s : Fin 4096) (n : Fin 2048) :
    Cert.Spec.attnAt p s n = ∑ j ∈ Finset.range 4, contrib p s.val n.val j := by
  rw [attnAt_eq_sum, sum_range_blocks]
  rfl

/-! ## The accumulator along a run of four key blocks -/

/-- Where the key block is not after the query block, the point's step adds the key block's contribution. -/
theorem step_apply_le (c : Dev nD) (t : Fin cfg1.N) (hle : t.val % 4 ≤ t.val / 4 % 4)
    (s : Vec Ideal S1024x128 .f32) (r : Fin 1024) (d : Fin 128) :
    step V c t s (ix2 r d)
      = s (ix2 r d) + contrib (parr V c) (1024 * (t.val / 4 % 4) + r.val) (128 * (t.val / 16) + d.val) (t.val % 4) := by
  have ht : t.val < 256 := N_eq ▸ t.isLt
  obtain ⟨-, -, -, -, -, -, -, -, c1, c2⟩ := idx_facts t
  unfold step
  rw [if_pos ((isLE_iff t).mpr hle)]
  refine (pay2_apply (grid1.coords t) (by omega) (by omega) (qblk V c t) (kblk V c t) (vblk V c t) s r d).trans ?_
  refine congrArg (s (ix2 r d) + ·) ?_
  unfold contrib
  rw [← Fin.sum_univ_eq_sum_range (fun x => term (parr V c) (1024 * (t.val / 4 % 4) + r.val) (128 * (t.val / 16) + d.val) (1024 * (t.val % 4) + x)) 1024]
  refine Finset.sum_congr rfl fun x _ => ?_
  show _ = term (parr V c) (1024 * (t.val / 4 % 4) + r.val) (128 * (t.val / 16) + d.val) (1024 * (t.val % 4) + x.val)
  unfold term
  have hd := d.isLt
  have hh : (128 * (t.val / 16) + d.val) / 128 = t.val / 16 := by omega
  rw [c1, c2, vblk_apply, hh]
  refine congrArg (· * rd (parr V c) (1024 * (t.val % 4) + x.val) (4096 + (128 * (t.val / 16) + d.val))) ?_
  refine if_congr Iff.rfl (Finset.sum_congr rfl fun e _ => ?_) rfl
  rw [qblk_apply, kblk_apply]

/-- Where the key block is after the query block the step leaves the accumulator as it was. -/
theorem step_apply_gt (c : Dev nD) (t : Fin cfg1.N) (hgt : ¬ t.val % 4 ≤ t.val / 4 % 4) (s : Vec Ideal S1024x128 .f32) :
    step V c t s = s := by
  unfold step
  rw [if_neg (fun h => hgt ((isLE_iff t).mp h))]

/-- Every point's step adds its key block's contribution (zero where the key block is after the query block). -/
theorem step_apply (c : Dev nD) (n : ℕ) (hn : n < cfg1.N) (s : Vec Ideal S1024x128 .f32) (r : Fin 1024) (d : Fin 128) :
    step V c ⟨n, hn⟩ s (ix2 r d)
      = s (ix2 r d) + contrib (parr V c) (1024 * (n / 4 % 4) + r.val) (128 * (n / 16) + d.val) (n % 4) := by
  by_cases hle : n % 4 ≤ n / 4 % 4
  · exact step_apply_le V c ⟨n, hn⟩ hle s r d
  · rw [step_apply_gt V c ⟨n, hn⟩ hle, contrib_eq_zero _ _ _ _ (by have := r.isLt; omega), add_zero]

/-- The accumulator after a point: the contributions of the key blocks of its run so far, summed in order. -/
theorem acc_apply (c : Dev nD) : ∀ (n : ℕ) (hn : n < cfg1.N) (r : Fin 1024) (d : Fin 128),
    acc V c n hn (ix2 r d)
      = ∑ j ∈ Finset.range (n % 4 + 1), contrib (parr V c) (1024 * (n / 4 % 4) + r.val) (128 * (n / 16) + d.val) j := by
  intro n
  induction n with
  | zero =>
    intro hn r d
    rw [acc_reset V c ⟨0, hn⟩ rfl, step_apply V c 0 hn, pay1_apply, zero_add]
    exact (Finset.sum_range_one _).symm
  | succ n ih =>
    intro hn r d
    by_cases h0 : (n + 1) % 4 = 0
    · rw [acc_reset V c ⟨n + 1, hn⟩ h0, step_apply V c (n + 1) hn, pay1_apply, zero_add, h0]
      exact (Finset.sum_range_one _).symm
    · rw [acc_step V c ⟨n + 1, hn⟩ h0, step_apply V c (n + 1) hn]
      show acc V c n (Nat.lt_of_succ_lt hn) (ix2 r d) + _ = _
      rw [ih (Nat.lt_of_succ_lt hn) r d]
      have e1 : (n + 1) % 4 = n % 4 + 1 := by omega
      have e2 : (n + 1) / 4 % 4 = n / 4 % 4 := by omega
      have e3 : (n + 1) / 16 = n / 16 := by omega
      rw [e1, e2, e3, Finset.sum_range_succ _ (n % 4 + 1)]

/-! ## From the flushed blocks to the array -/

/-- What a flushing point writes back is its block of the causal attention of the projection. -/
theorem flushed_eq (c : Dev nD) (t : Fin cfg1.N) (hf : (cfg1.win 3).flush t = true) :
    (dat (F := Ideal) V c).flushed 3 t = ((cfg1.win 3).blk t).view.read (Elt Ideal) (Cert.Spec.attn (parr V c)) := by
  have h3 : t.val % 4 = 3 := (flush1_3 t).mp hf
  have ht : t.val < 256 := N_eq ▸ t.isLt
  obtain ⟨-, -, -, -, -, -, e0, e1, -, -⟩ := idx_facts t
  show (cfg1.win 3).cut (grid1.coords t) ((dat (F := Ideal) V c).after 3 t) = _
  rw [after_3]
  funext j
  show acc V c t.val t.isLt j = Cert.Spec.attn (parr V c) (((cfg1.win 3).blk t).view.emb j)
  obtain ⟨r, d, rfl⟩ : ∃ (r : Fin 1024) (d : Fin 128), j = ix2 r d := ⟨j 0, j 1, eq_ix2 j⟩
  show acc V c t.val t.isLt (ix2 r d)
    = Cert.Spec.attnAt (parr V c) ((((cfg1.win 3).blk t).view.emb (ix2 r d)) 0) ((((cfg1.win 3).blk t).view.emb (ix2 r d)) 1)
  have hs : ((((cfg1.win 3).blk t).view.emb (ix2 r d)) 0).val = 1024 * (t.val / 4 % 4) + r.val := by
    show win1_3.index t (0 : Fin 2) * 1024 + 1 * r.val = _
    omega
  have hn : ((((cfg1.win 3).blk t).view.emb (ix2 r d)) 1).val = 128 * (t.val / 16) + d.val := by
    show win1_3.index t (1 : Fin 2) * 128 + 1 * d.val = _
    omega
  have h4 : t.val % 4 + 1 = 4 := by omega
  have key : ∀ (s' : Fin 4096) (n' : Fin 2048), s'.val = 1024 * (t.val / 4 % 4) + r.val → n'.val = 128 * (t.val / 16) + d.val →
      acc V c t.val t.isLt (ix2 r d) = Cert.Spec.attnAt (parr V c) s' n' := by
    intro s' n' hs' hn'
    rw [attnAt_blocks, hs', hn', acc_apply V c t.val t.isLt r d, h4]
  exact key _ _ hs hn

/-- Every entry of the output array is in the block of a flushing point: row s and column n in that of the last point
    of the run of head n / 128 and query block s / 1024. -/
theorem cover (i : S4096x2048.Idx) :
    ∃ t : Fin cfg1.N, (cfg1.win 3).flush t = true ∧ i ∈ ((cfg1.win 3).blk t).view.set := by
  have h0 : (i 0).val < 4096 := (i 0).isLt
  have h1 : (i 1).val < 2048 := (i 1).isLt
  obtain ⟨tn, htn⟩ : ∃ tn : ℕ, tn = ((i 1).val / 128 * 4 + (i 0).val / 1024) * 4 + 3 := ⟨_, rfl⟩
  have hlt : tn < cfg1.N := by rw [N_eq]; omega
  obtain ⟨-, -, -, -, -, -, e0, e1, -, -⟩ := idx_facts ⟨tn, hlt⟩
  have e0' : win1_3.index ⟨tn, hlt⟩ (0 : Fin 2) = tn / 4 % 4 := e0
  have e1' : win1_3.index ⟨tn, hlt⟩ (1 : Fin 2) = tn / 16 := e1
  refine ⟨⟨tn, hlt⟩, (flush1_3 _).mpr (by show tn % 4 = 3; omega), ?_⟩
  show i ∈ ((View.whole main_v2).slice (win1_3.rect ⟨tn, hlt⟩)).set
  rw [View.set_slice_whole, Rect.mem_set_unit]
  intro a
  match a with
  | ⟨0, _⟩ =>
    show win1_3.index ⟨tn, hlt⟩ (0 : Fin 2) * 1024 ≤ (i 0).val ∧ (i 0).val < win1_3.index ⟨tn, hlt⟩ (0 : Fin 2) * 1024 + 1024
    omega
  | ⟨1, _⟩ =>
    show win1_3.index ⟨tn, hlt⟩ (1 : Fin 2) * 128 ≤ (i 1).val ∧ (i 1).val < win1_3.index ⟨tn, hlt⟩ (1 : Fin 2) * 128 + 128
    omega

end Attn

variable (V : (c : Dev nD) → (b : Ref sig .tc) → Buf (Elt Ideal) ((c : Thread nD τ).loc b))

/-- After the region's last point its output array holds the causal attention of the projection it was entered with. -/
theorem final (c : Dev nD) :
    (dat (F := Ideal) V c).arrAt 3 cfg1.N = Cert.Spec.attn (V c main_v1) :=
  (dat (F := Ideal) V c).arrAt_eq_of_cover 3 (Cert.Spec.attn (Attn.parr V c)) (fun t hf => Attn.flushed_eq V c t hf) Attn.cover

end Cert.KernelIdeal.R1

end
-- ==== Proof.KI.Value2.lean ====
/-
  What region 2 leaves in its output array: each 1024×512 block (i,j) is written back once, after the fourth depth block,
  holding the four partial products summed in order plus the bias block; block by block that is the whole product
  x·W plus the bias row, index by index.
-/
import proofs.«123105_j28527172780035_1_alg».proof.Proof.KI.Data2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- x·W plus a bias ROW (a 1×2048 array), index by index. -/
def denseRow (x : FVec Ideal ⟨2, ![4096, 2048]⟩ .f32) (W : FVec Ideal ⟨2, ![2048, 2048]⟩ .f32) (b : FVec Ideal ⟨2, ![1, 2048]⟩ .f32) :
    FVec Ideal ⟨2, ![4096, 2048]⟩ .f32 :=
  fun j => (∑ k : Fin 2048, x (ix2 (j 0) k) * W (ix2 k (j 1))) + b (ix2 (0 : Fin 1) (j 1))

/-! ## The three payloads at an index, over the extended reals -/

theorem mm_lhs_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm_lhs_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem mm_rhs_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem mm_rhs_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The cleared accumulator is zero everywhere. -/
theorem pay1_apply (j : S1024x512.Idx) : k2_pay1 (F := Ideal) j = 0 := by
  unfold k2_pay1
  rw [shapeCast_self]
  exact Ideal.ofBits_zero_f32

/-- One accumulation step at row r, column q: the accumulator there plus the inner product of row r of the left block
    and column q of the right block. -/
theorem pay2_apply (x : Vec Ideal S1024x512 .f32) (w : Vec Ideal S512x512 .f32) (s : Vec Ideal S1024x512 .f32)
    (r : Fin 1024) (q : Fin 512) :
    k2_pay2 (F := Ideal) x w s (ix2 r q) = s (ix2 r q) + ∑ e : Fin 512, x (ix2 r e) * w (ix2 e q) := by
  unfold k2_pay2
  simp only [shapeCast_self]
  rw [addf_apply]
  refine congrArg (s (ix2 r q) + ·) ?_
  simp only [matmul]
  rw [Ideal.matmul_constant_zero_apply,
    ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r q) ((ValueIdx.contrEquiv1 dot_S1024x512_S512x512_S1024x512_1_0_0_1_n_n 512 rfl rfl).symm k) = ix2 r k := funext fun a => Fin.ext (by
    match a with
    | ⟨0, _⟩ => exact mm_lhs_0 _ _
    | ⟨1, _⟩ => exact (mm_lhs_1 _ _).trans hk)
  have er : dot_S1024x512_S512x512_S1024x512_1_0_0_1_n_n.rhsIdx (ix2 r q) ((ValueIdx.contrEquiv1 dot_S1024x512_S512x512_S1024x512_1_0_0_1_n_n 512 rfl rfl).symm k) = ix2 k q := funext fun a => Fin.ext (by
    match a with
    | ⟨0, _⟩ => exact (mm_rhs_0 _ _).trans hk
    | ⟨1, _⟩ => exact mm_rhs_1 _ _)
  rw [el, er]
  rfl

/-- The epilogue at row r, column q: the accumulator there plus the bias block's entry of column q. -/
theorem pay3_apply (a : Vec Ideal S1024x512 .f32) (b : Vec Ideal S1x512 .f32) (r : Fin 1024) (q : Fin 512) :
    k2_pay3 (F := Ideal) a b (ix2 r q) = a (ix2 r q) + b (ix2 (0 : Fin 1) q) := by
  unfold k2_pay3
  rw [addf_apply, shapeCast_self]
  refine congrArg (a (ix2 r q) + ·) ?_
  exact broadcastTo_apply b broadcasts_S1x512_S1024x512 (ix2 r q) (ix2 (0 : Fin 1) q) (fun a => by
    match a with
    | ⟨0, _⟩ => rfl
    | ⟨1, _⟩ => rfl)

/-! ## The blocks a point reads and writes, in the arrays' own coordinates -/

/-- The printed index maps, decided once over the grid: at point t = (i·4 + j)·4 + k the left block is (i, k), the
    right block (k, j), the bias block (0, j) and the output block (i, j). -/
theorem idx_facts : ∀ t : Fin cfg2.N,
    win2_0.index t (0 : Fin 2) = t.val / 16 ∧ win2_0.index t (1 : Fin 2) = t.val % 4
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

theorem pt_lt (t : Fin cfg2.N) : t.val < 64 := lt_of_lt_of_eq t.isLt (show cfg2.N = 64 from N_2)

variable (V : (c : Dev nD) → (b : Ref sig .tc) → Buf (Elt Ideal) ((c : Thread nD τ).loc b))

/-- The left block of a point in row block i, depth block s: entry (r, e) is the left array's at (1024·i + r, 512·s + e). -/
theorem xblk_at (c : Dev nD) (t : Fin cfg2.N) (i s : Fin 4) (hi : t.val / 16 = i.val) (hs : t.val % 4 = s.val)
    (r : Fin 1024) (e : Fin 512) :
    xblk V c t (ix2 r e)
      = V c main_v2 (ix2 (⟨1024 * i.val + r.val, by omega⟩ : Fin 4096) (⟨512 * s.val + e.val, by omega⟩ : Fin 2048)) := by
  obtain ⟨h0, h1, -⟩ := idx_facts t
  show V c main_v2 (((cfg2.win 0).blk t).view.emb (ix2 r e)) = _
  refine congrArg _ (funext fun a => Fin.ext ?_)
  match a with
  | ⟨0, _⟩ => show win2_0.index t (0 : Fin 2) * 1024 + 1 * r.val = 1024 * i.val + r.val; rw [h0, hi]; omega
  | ⟨1, _⟩ => show win2_0.index t (1 : Fin 2) * 512 + 1 * e.val = 512 * s.val + e.val; rw [h1, hs]; omega

/-- The right block of a point in depth block s, column block j: entry (e, q) is the right array's at (512·s + e, 512·j + q). -/
theorem wblk_at (c : Dev nD) (t : Fin cfg2.N) (s : Fin 4) (j : Fin 4) (hs : t.val % 4 = s.val) (hj : t.val / 4 % 4 = j.val)
    (e q : Fin 512) :
    wblk V c t (ix2 e q)
      = V c main_arg3 (ix2 (⟨512 * s.val + e.val, by omega⟩ : Fin 2048) (⟨512 * j.val + q.val, by omega⟩ : Fin 2048)) := by
  obtain ⟨-, -, h0, h1, -⟩ := idx_facts t
  show V c main_arg3 (((cfg2.win 1).blk t).view.emb (ix2 e q)) = _
  refine congrArg _ (funext fun a => Fin.ext ?_)
  match a with
  | ⟨0, _⟩ => show win2_1.index t (0 : Fin 2) * 512 + 1 * e.val = 512 * s.val + e.val; rw [h0, hs]; omega
  | ⟨1, _⟩ => show win2_1.index t (1 : Fin 2) * 512 + 1 * q.val = 512 * j.val + q.val; rw [h1, hj]; omega

/-- The bias block of a point in column block j: entry (0, q) is the bias row's at column 512·j + q. -/
theorem bblk_at (c : Dev nD) (t : Fin cfg2.N) (j : Fin 4) (hj : t.val / 4 % 4 = j.val) (q : Fin 512) :
    bblk V c t (ix2 (0 : Fin 1) q)
      = V c main_v3 (ix2 (0 : Fin 1) (⟨512 * j.val + q.val, by omega⟩ : Fin 2048)) := by
  obtain ⟨-, -, -, -, h0, h1, -⟩ := idx_facts t
  show V c main_v3 (((cfg2.win 2).blk t).view.emb (ix2 (0 : Fin 1) q)) = _
  refine congrArg _ (funext fun a => Fin.ext ?_)
  match a with
  | ⟨0, _⟩ => show win2_2.index t (0 : Fin 2) * 1 + 1 * 0 = 0; rw [h0]
  | ⟨1, _⟩ => show win2_2.index t (1 : Fin 2) * 512 + 1 * q.val = 512 * j.val + q.val; rw [h1, hj]; omega

/-! ## The accumulator after the fourth point of a run -/

theorem acc_succ (c : Dev nD) (n : ℕ) (h : n + 1 < cfg2.N) (hm : ¬(n + 1) % 4 = 0) :
    acc V c (n + 1) h = k2_pay2 (xblk V c ⟨n + 1, h⟩) (wblk V c ⟨n + 1, h⟩) (acc V c n (Nat.lt_of_succ_lt h)) := by
  simp only [acc]; rw [if_neg hm]

/-- After point 4u + 3 the accumulator holds the four steps of its run, from the cleared block. -/
theorem acc_last (c : Dev nD) (u : ℕ) (h : 4 * u + 3 < cfg2.N) :
    acc V c (4 * u + 3) h
      = k2_pay2 (xblk V c ⟨4 * u + 3, h⟩) (wblk V c ⟨4 * u + 3, h⟩)
          (k2_pay2 (xblk V c ⟨4 * u + 2, by omega⟩) (wblk V c ⟨4 * u + 2, by omega⟩)
            (k2_pay2 (xblk V c ⟨4 * u + 1, by omega⟩) (wblk V c ⟨4 * u + 1, by omega⟩)
              (k2_pay2 (xblk V c ⟨4 * u, by omega⟩) (wblk V c ⟨4 * u, by omega⟩) (k2_pay1 (F := Ideal))))) := by
  rw [acc_succ V c (4 * u + 2) h (by omega), acc_succ V c (4 * u + 1) (by omega) (by omega),
    acc_succ V c (4 * u) (by omega) (by omega), acc_reset V c ⟨4 * u, by omega⟩ (by show 4 * u % 4 = 0; omega)]

/-! ## A sum over 2048 terms in four runs of 512 -/

theorem sum_split {M : Type*} [AddCommMonoid M] (f : Fin 2048 → M) :
    ∑ k : Fin 2048, f k = ∑ s : Fin 4, ∑ e : Fin 512, f ⟨512 * s.val + e.val, by omega⟩ := by
  rw [← Fintype.sum_prod_type' (f := fun (s : Fin 4) (e : Fin 512) => f ⟨512 * s.val + e.val, by omega⟩),
    ← Equiv.sum_comp (finProdFinEquiv (m := 4) (n := 512))]
  refine Finset.sum_congr rfl fun p _ => congrArg f (Fin.ext ?_)
  show p.2.val + 512 * p.1.val = 512 * p.1.val + p.2.val
  omega

/-- The block's value in the arrays' coordinates: the four partial products in order from zero, plus the bias entry,
    is the full inner product plus the bias entry. -/
theorem block_value (X : FVec Ideal ⟨2, ![4096, 2048]⟩ .f32) (W : FVec Ideal ⟨2, ![2048, 2048]⟩ .f32)
    (B : FVec Ideal ⟨2, ![1, 2048]⟩ .f32) (R : Fin 4096) (Q : Fin 2048) :
    ((((0 + ∑ e : Fin 512, X (ix2 R ⟨512 * (0 : Fin 4).val + e.val, by omega⟩) * W (ix2 ⟨512 * (0 : Fin 4).val + e.val, by omega⟩ Q))
        + ∑ e : Fin 512, X (ix2 R ⟨512 * (1 : Fin 4).val + e.val, by omega⟩) * W (ix2 ⟨512 * (1 : Fin 4).val + e.val, by omega⟩ Q))
        + ∑ e : Fin 512, X (ix2 R ⟨512 * (2 : Fin 4).val + e.val, by omega⟩) * W (ix2 ⟨512 * (2 : Fin 4).val + e.val, by omega⟩ Q))
        + ∑ e : Fin 512, X (ix2 R ⟨512 * (3 : Fin 4).val + e.val, by omega⟩) * W (ix2 ⟨512 * (3 : Fin 4).val + e.val, by omega⟩ Q))
      + B (ix2 (0 : Fin 1) Q)
      = denseRow X W B (ix2 R Q) := by
  show _ = (∑ k : Fin 2048, X (ix2 R k) * W (ix2 k Q)) + B (ix2 (0 : Fin 1) Q)
  rw [sum_split (fun k : Fin 2048 => X (ix2 R k) * W (ix2 k Q)), Fin.sum_univ_four, zero_add]

/-- One depth block's partial product, rewritten from the blocks' coordinates to the arrays'. -/
theorem prod_eq (X : FVec Ideal ⟨2, ![4096, 2048]⟩ .f32) (W : FVec Ideal ⟨2, ![2048, 2048]⟩ .f32)
    (xb : Vec Ideal S1024x512 .f32) (wb : Vec Ideal S512x512 .f32) (R : Fin 4096) (Q : Fin 2048) (s : Fin 4)
    (r : Fin 1024) (q : Fin 512)
    (hx : ∀ e : Fin 512, xb (ix2 r e) = X (ix2 R ⟨512 * s.val + e.val, by omega⟩))
    (hw : ∀ e : Fin 512, wb (ix2 e q) = W (ix2 ⟨512 * s.val + e.val, by omega⟩ Q)) :
    ∑ e : Fin 512, xb (ix2 r e) * wb (ix2 e q)
      = ∑ e : Fin 512, X (ix2 R ⟨512 * s.val + e.val, by omega⟩) * W (ix2 ⟨512 * s.val + e.val, by omega⟩ Q) :=
  Finset.sum_congr rfl fun e _ => by rw [hx e, hw e]

/-! ## What a writing point writes back, the cover, and the array after the run -/

/-- The point 4u + 3 writes back block (u/4, u%4) of the product plus bias. -/
theorem flushed_eq (c : Dev nD) (t : Fin cfg2.N) (h3 : t.val % 4 = 3) :
    (dat V c).flushed 3 t
      = ((cfg2.win 3).blk t).view.read (Elt Ideal) (denseRow (V c main_v2) (V c main_arg3) (V c main_v3)) := by
  have hN := pt_lt t
  obtain ⟨n, hn⟩ := t
  obtain ⟨u, rfl⟩ : ∃ u, n = 4 * u + 3 := ⟨n / 4, by dsimp only at h3; omega⟩
  have hu : u < 16 := by dsimp only at hN; omega
  obtain ⟨-, -, -, -, -, -, h0, h1⟩ := idx_facts ⟨4 * u + 3, hn⟩
  show (cfg2.win 3).cut (grid2.coords ⟨4 * u + 3, hn⟩) ((dat V c).after 3 ⟨4 * u + 3, hn⟩) = _
  rw [after_3]
  funext y
  obtain ⟨r, q, rfl⟩ : ∃ (r : Fin 1024) (q : Fin 512), y = ix2 r q := ⟨y 0, y 1, eq_ix2 y⟩
  have hemb : ((cfg2.win 3).blk ⟨4 * u + 3, hn⟩).view.emb (ix2 r q)
      = ix2 (⟨1024 * (u / 4) + r.val, by omega⟩ : Fin 4096) (⟨512 * (u % 4) + q.val, by omega⟩ : Fin 2048) :=
    funext fun a => Fin.ext (by
      match a with
      | ⟨0, _⟩ => show win2_3.index ⟨4 * u + 3, hn⟩ (0 : Fin 2) * 1024 + 1 * r.val = 1024 * (u / 4) + r.val; rw [h0]; dsimp only; omega
      | ⟨1, _⟩ => show win2_3.index ⟨4 * u + 3, hn⟩ (1 : Fin 2) * 512 + 1 * q.val = 512 * (u % 4) + q.val; rw [h1]; dsimp only; omega)
  show k2_pay3 (acc V c (4 * u + 3) hn) (bblk V c ⟨4 * u + 3, hn⟩) (ix2 r q)
    = denseRow (V c main_v2) (V c main_arg3) (V c main_v3) (((cfg2.win 3).blk ⟨4 * u + 3, hn⟩).view.emb (ix2 r q))
  rw [hemb, ← block_value, pay3_apply, acc_last, pay2_apply, pay2_apply, pay2_apply, pay2_apply, pay1_apply,
    bblk_at V c ⟨4 * u + 3, hn⟩ ⟨u % 4, by omega⟩ (by dsimp only; omega)]
  have prod : ∀ (s : Fin 4) (hs : 4 * u + s.val < cfg2.N), _ := fun s hs =>
    prod_eq (V c main_v2) (V c main_arg3) (xblk V c ⟨4 * u + s.val, hs⟩) (wblk V c ⟨4 * u + s.val, hs⟩)
      (⟨1024 * (u / 4) + r.val, by omega⟩ : Fin 4096) (⟨512 * (u % 4) + q.val, by omega⟩ : Fin 2048) s r q
      (fun e => xblk_at V c ⟨4 * u + s.val, hs⟩ ⟨u / 4, by omega⟩ s (by dsimp only; omega) (by dsimp only; omega) r e)
      (fun e => wblk_at V c ⟨4 * u + s.val, hs⟩ s ⟨u % 4, by omega⟩ (by dsimp only; omega) (by dsimp only; omega) e q)
  have p0 := prod 0 (by show 4 * u + 0 < cfg2.N; omega)
  have p1 := prod 1 (by show 4 * u + 1 < cfg2.N; omega)
  have p2 := prod 2 (by show 4 * u + 2 < cfg2.N; omega)
  have p3 := prod 3 (by show 4 * u + 3 < cfg2.N; omega)
  exact congrArg₂ (· + ·) (congrArg₂ (· + ·) (congrArg₂ (· + ·) (congrArg₂ (· + ·) (congrArg (0 + ·) p0) p1) p2) p3) rfl

/-- An index of the output array is in point t's block iff each coordinate is in the block's range on its axis. -/
theorem mem_blk3 (t : Fin cfg2.N) (i : S4096x2048.Idx) :
    i ∈ ((cfg2.win 3).blk t).view.set
      ↔ ∀ a : Fin 2, win2_3.index t a * S1024x512.size a ≤ (i a).val ∧ (i a).val < win2_3.index t a * S1024x512.size a + S1024x512.size a := by
  show i ∈ ((View.whole main_v4).slice (win2_3.rect t)).set ↔ _
  rw [View.set_slice_whole, Rect.mem_set_unit]
  exact Iff.rfl

/-- Every index (R, Q) of the output lies in the block of the writing point ((R/1024)·4 + Q/512)·4 + 3. -/
theorem cover (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  have hN : cfg2.N = 64 := N_2
  refine ⟨⟨(((i 0).val / 1024) * 4 + (i 1).val / 512) * 4 + 3, by omega⟩, (flush2_3 _).mpr (by dsimp only; omega), ?_⟩
  obtain ⟨-, -, -, -, -, -, h0, h1⟩ := idx_facts ⟨(((i 0).val / 1024) * 4 + (i 1).val / 512) * 4 + 3, by omega⟩
  rw [mem_blk3]
  intro a
  match a with
  | ⟨0, _⟩ =>
    show win2_3.index _ (0 : Fin 2) * 1024 ≤ (i 0).val ∧ (i 0).val < win2_3.index _ (0 : Fin 2) * 1024 + 1024
    rw [h0]; dsimp only; omega
  | ⟨1, _⟩ =>
    show win2_3.index _ (1 : Fin 2) * 512 ≤ (i 1).val ∧ (i 1).val < win2_3.index _ (1 : Fin 2) * 512 + 512
    rw [h1]; dsimp only; omega

/-- After the region's last point its output array holds x·W plus the bias row of the arrays it was entered with. -/
theorem final (c : Dev nD) :
    (dat (F := Ideal) V c).arrAt 3 cfg2.N = denseRow (V c main_v2) (V c main_arg3) (V c main_v3) :=
  (dat V c).arrAt_eq_of_cover 3 (denseRow (V c main_v2) (V c main_arg3) (V c main_v3))
    (fun t hf => flushed_eq V c t ((flush2_3 t).mp hf)) cover

end Cert.KernelIdeal.R2

end
-- ==== Proof.KI.Bridge.lean ====
/-
  What the idealized kernel's program leaves in its result array is the specification's function of its arguments:
  region 0 leaves x·W1 plus the bias row (the bias reshaped to a row by the first host stretch), region 1 the causal
  attention of that, region 2 its product with W2 plus the second bias row; a bias row reshaped from a vector b reads
  b's entry at the column.
-/
import proofs.«123105_j28527172780035_1_alg».proof.Proof.KI.RunValue
import proofs.«123105_j28527172780035_1_alg».proof.Proof.KI.Value0
import proofs.«123105_j28527172780035_1_alg».proof.Proof.KI.Value1
import proofs.«123105_j28527172780035_1_alg».proof.Proof.KI.Value2
import proofs.«123105_j28527172780035_1_alg».proof.Proof.Spec
import Idealize.ShloMosaic.Lib.ValueLayout
import Idealize.ShloMosaic.Lib.StableHlo.Run

set_option maxRecDepth 16384

noncomputable section

open scoped BigOperators

namespace Cert.KernelIdeal.Asm

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ)

/-- x·W plus a bias row reshaped from a vector is x·W plus the vector's entry at the column. -/
theorem denseRow0_eq (x : FVec Ideal ⟨2, ![4096, 2048]⟩ .f32) (W : FVec Ideal ⟨2, ![2048, 6144]⟩ .f32) (b : FVec Ideal ⟨1, ![6144]⟩ .f32)
    (h : (⟨1, ![6144]⟩ : Shape).ShapeCasts ⟨2, ![1, 6144]⟩) :
    R0.denseRow x W (shapeCast ⟨2, ![1, 6144]⟩ b h) = Cert.Spec.kqv x W b := by
  funext j
  unfold R0.denseRow Cert.Spec.kqv Cert.Spec.kqvAt
  exact congrArg (fun z => (∑ k : Fin 2048, x (ix2 (j 0) k) * W (ix2 k (j 1))) + z) (shapeCast_a_1a_apply b h (0 : Fin 1) (j 1))

theorem denseRow2_eq (x : FVec Ideal ⟨2, ![4096, 2048]⟩ .f32) (W : FVec Ideal ⟨2, ![2048, 2048]⟩ .f32) (b : FVec Ideal ⟨1, ![2048]⟩ .f32)
    (h : (⟨1, ![2048]⟩ : Shape).ShapeCasts ⟨2, ![1, 2048]⟩) :
    R2.denseRow x W (shapeCast ⟨2, ![1, 2048]⟩ b h) = Cert.Spec.out x W b := by
  funext j
  unfold R2.denseRow Cert.Spec.out Cert.Spec.outAt
  exact congrArg (fun z => (∑ k : Fin 2048, x (ix2 (j 0) k) * W (ix2 k (j 1))) + z) (shapeCast_a_1a_apply b h (0 : Fin 1) (j 1))

/-- The contents region 0 is entered with, at the arrays it reads. -/
theorem E1_arg0 (c : Dev nD) : E1 m c main_arg0 = m ((c : Thread nD τ).loc main_arg0) := (V1_of m c main_arg0 (by decide)).trans rfl
theorem E1_arg1 (c : Dev nD) : E1 m c main_arg1 = m ((c : Thread nD τ).loc main_arg1) := (V1_of m c main_arg1 (by decide)).trans rfl
theorem E1_v0 (c : Dev nD) : E1 m c main_v0 = shapeCast S1x6144 (m ((c : Thread nD τ).loc main_arg2)) shapeCasts_S6144_S1x6144 := by
  show StableHlo.after hostOps0 (V0 m c) (Proc.devRef .tc main_v0) = _
  after_results; rfl

/-- The contents region 2 is entered with, at the arrays it reads. -/
theorem E4_v2 (c : Dev nD) : E4 m c main_v2 = o2 m c :=
  (StableHlo.after_of_writes_sub hostOps2 _ hostOps2_writes (by decide : main_v2 ∉ hostOps2_W)).trans (W3_v2 m c)
theorem E4_arg3 (c : Dev nD) : E4 m c main_arg3 = m ((c : Thread nD τ).loc main_arg3) :=
  (StableHlo.after_of_writes_sub hostOps2 _ hostOps2_writes (by decide : main_arg3 ∉ hostOps2_W)).trans
    ((W3_of m c main_arg3 (by decide)).trans ((W2_of m c main_arg3 (by decide)).trans ((V1_of m c main_arg3 (by decide)).trans rfl)))
theorem E4_v3 (c : Dev nD) : E4 m c main_v3 = shapeCast S1x2048 (m ((c : Thread nD τ).loc main_arg4)) shapeCasts_S2048_S1x2048 := by
  have h4 : W3 m c main_arg4 = m ((c : Thread nD τ).loc main_arg4) :=
    (W3_of m c main_arg4 (by decide)).trans ((W2_of m c main_arg4 (by decide)).trans ((V1_of m c main_arg4 (by decide)).trans rfl))
  show StableHlo.after hostOps2 (W3 m c) (Proc.devRef .tc main_v3) = _
  after_results
  rw [h4]
  rfl

/-- The result array ends holding the specification's result of the argument arrays. -/
theorem result_value (c : Dev nD) :
    o4 m c = Cert.Spec.result (m ((c : Thread nD τ).loc main_arg0)) (m ((c : Thread nD τ).loc main_arg1)) (m ((c : Thread nD τ).loc main_arg2))
      (m ((c : Thread nD τ).loc main_arg3)) (m ((c : Thread nD τ).loc main_arg4)) := by
  have h1 : o1 m c = Cert.Spec.kqv (m ((c : Thread nD τ).loc main_arg0)) (m ((c : Thread nD τ).loc main_arg1)) (m ((c : Thread nD τ).loc main_arg2)) := by
    unfold o1; rw [R0.final (E1 m) c, E1_arg0, E1_arg1, E1_v0]; exact denseRow0_eq _ _ _ _
  have h2 : o2 m c = Cert.Spec.attn (o1 m c) := by
    unfold o2; rw [R1.final (E2 m) c]; exact congrArg Cert.Spec.attn (W2_v1 m c)
  unfold o4 Cert.Spec.result
  rw [R2.final (E4 m) c, E4_v2, E4_arg3, E4_v3, h2, h1]
  exact denseRow2_eq _ _ _ _

end Cert.KernelIdeal.Asm

end
-- ==== Proof.RefValue.lean ====
/-
  The reference program's result, read stage by stage, is the specification's function of the arguments:
  x·W1 + b1, split into keys, queries and values by column, the lower-triangular scores times the values head by head,
  laid back out as rows of width 2048, then ·W2 + b2.
-/
import proofs.«123105_j28527172780035_1_alg».proof.Proof.Gen.ReferenceIdeal.Run
import proofs.«123105_j28527172780035_1_alg».proof.Proof.Gen.ReferenceIdeal.Read
import proofs.«123105_j28527172780035_1_alg».proof.Proof.Spec
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx

/-- The projection stage: x·W1 + b1. -/
theorem kqv_eq (x0 : (⟨S4096x2048, .f32⟩ : BufTy).Contents (Elt Ideal)) (x1 : (⟨S2048x6144, .f32⟩ : BufTy).Contents (Elt Ideal))
    (x2 : (⟨S6144, .f32⟩ : BufTy).Contents (Elt Ideal)) :
    val_main_v3 (F := Ideal) x0 x1 x2 = Cert.Spec.kqv x0 x1 x2 := by
  funext i
  obtain ⟨s, n, rfl⟩ : ∃ (s : Fin 4096) (n : Fin 6144), i = ix2 s n := ⟨i 0, i 1, eq_ix2 i⟩
  rw [val_main_v3_apply, val_main_v0_apply, val_main_v2_apply, val_main_v1_apply]
  have eb : idx_main_v1 (idx_main_v2 (ix2 s n)) = ix1 n := funext fun a => Fin.ext (by match a with | ⟨0, _⟩ => rfl)
  rw [eb]
  refine congrArg₂ (· + ·) (Finset.sum_congr rfl fun k _ => ?_) rfl
  have el : lidx_main_v0 (ix2 s n) k = ix2 s k := funext fun a => Fin.ext (by match a with | ⟨0, _⟩ => rfl | ⟨1, _⟩ => rfl)
  have er : ridx_main_v0 (ix2 s n) k = ix2 k n := funext fun a => Fin.ext (by match a with | ⟨0, _⟩ => rfl | ⟨1, _⟩ => rfl)
  rw [el, er]

section Stages

variable (x0 : (⟨S4096x2048, .f32⟩ : BufTy).Contents (Elt Ideal)) (x1 : (⟨S2048x6144, .f32⟩ : BufTy).Contents (Elt Ideal))
    (x2 : (⟨S6144, .f32⟩ : BufTy).Contents (Elt Ideal))

/-- The queries, head h, row s, lane e: column 2048 + 128·h + e of row s of the projection. -/
theorem q_at (h : Fin 16) (s : Fin 4096) (e : Fin 128) :
    val_main_v8 (F := Ideal) x0 x1 x2 (ix3 h s e)
      = val_main_v3 (F := Ideal) x0 x1 x2 (ix2 s ⟨2048 + 128 * h.val + e.val, by omega⟩) := by
  rw [val_main_v8_apply, val_main_v7_apply, val_main_v5_apply]
  refine congrArg _ (funext fun a => Fin.ext ?_)
  match a with
  | ⟨0, _⟩ => show ((s.val * 16 + h.val) * 128 + e.val) / 2048 = s.val; omega
  | ⟨1, _⟩ => show 2048 + ((s.val * 16 + h.val) * 128 + e.val) % 2048 = 2048 + 128 * h.val + e.val; omega

/-- The keys, head h, row t, lane e: column 128·h + e of row t of the projection. -/
theorem k_at (h : Fin 16) (t : Fin 4096) (e : Fin 128) :
    val_main_v10 (F := Ideal) x0 x1 x2 (ix3 h t e)
      = val_main_v3 (F := Ideal) x0 x1 x2 (ix2 t ⟨128 * h.val + e.val, by omega⟩) := by
  rw [val_main_v10_apply, val_main_v9_apply, val_main_v4_apply]
  refine congrArg _ (funext fun a => Fin.ext ?_)
  match a with
  | ⟨0, _⟩ => show ((t.val * 16 + h.val) * 128 + e.val) / 2048 = t.val; omega
  | ⟨1, _⟩ => show ((t.val * 16 + h.val) * 128 + e.val) % 2048 = 128 * h.val + e.val; omega

/-- The values, head h, row t, lane e: column 4096 + 128·h + e of row t of the projection. -/
theorem v_at (h : Fin 16) (t : Fin 4096) (e : Fin 128) :
    val_main_v12 (F := Ideal) x0 x1 x2 (ix3 h t e)
      = val_main_v3 (F := Ideal) x0 x1 x2 (ix2 t ⟨4096 + 128 * h.val + e.val, by omega⟩) := by
  rw [val_main_v12_apply, val_main_v11_apply, val_main_v6_apply]
  refine congrArg _ (funext fun a => Fin.ext ?_)
  match a with
  | ⟨0, _⟩ => show ((t.val * 16 + h.val) * 128 + e.val) / 2048 = t.val; omega
  | ⟨1, _⟩ => show 4096 + ((t.val * 16 + h.val) * 128 + e.val) % 2048 = 4096 + 128 * h.val + e.val; omega

/-- The lower-triangular comparison on words: row number s (plus the zero offset) against column number t, both below 4096,
    is the bit of t ≤ s. -/
theorem tril_bit (s t : Nat) (hs : s < 4096) (ht : t < 4096) :
    IntOp.cmpi .sge (IntOp.addi (BitVec.ofNat 32 s) 0#32) (BitVec.ofNat 32 t) = if t ≤ s then 1#1 else 0#1 := by
  have ea : (IntOp.addi (BitVec.ofNat 32 s) 0#32).toNat = s := by
    simp only [IntOp.addi, BitVec.add_zero, BitVec.toNat_ofNat]; omega
  have eb : (BitVec.ofNat 32 t).toNat = t := by
    simp only [BitVec.toNat_ofNat]; omega
  have key := StableHlo.Predicate.sge_iff_toNat (a := IntOp.addi (BitVec.ofNat 32 s) 0#32) (b := BitVec.ofNat 32 t)
    (by rw [ea]; omega) (by rw [eb]; omega)
  rw [ea, eb] at key
  split
  · next hle => exact key.mpr hle
  · next hle => exact eq_zero_of_ne_one (fun h1 => hle (key.mp h1))

/-- The mask at row s, column t. -/
theorem mask_at (s t : Fin 4096) :
    val_main_v14 (F := Ideal) (ix2 s t) = if t.val ≤ s.val then 1#1 else 0#1 := by
  rw [val_main_v14_apply, val_main_call0_v4_apply, val_main_call0_v2_apply, val_main_call0_v0_apply, val_main_call0_v1_apply,
    val_main_call0_c_apply, val_main_call0_v3_apply, val_main_v13_apply, val_main_c_apply, val_main_call0_v5_apply,
    val_main_call0_c_0_apply]
  show Scalar.select (IntOp.cmpi .sge (IntOp.addi (BitVec.ofNat 32 s.val) 0#32) (BitVec.ofNat 32 t.val)) 1#1 0#1 = _
  rw [tril_bit s.val t.val s.isLt t.isLt]
  split
  · exact select_one _ _
  · exact select_zero _ _

/-- The masked scores, head h, query row s, key row t. -/
theorem score_at (h : Fin 16) (s t : Fin 4096) :
    val_main_v16 (F := Ideal) x0 x1 x2 (ix3 h s t)
      = if t.val ≤ s.val then ∑ e : Fin 128, val_main_v8 (F := Ideal) x0 x1 x2 (ix3 h s e) * val_main_v10 (F := Ideal) x0 x1 x2 (ix3 h t e)
        else 0 := by
  rw [val_main_v16_apply, val_main_call1_v1_apply, val_main_call1_v2_apply, val_main_call1_v0_apply, val_main_cst_apply,
    val_main_v15_apply]
  have em : idx_main_call1_v1 (ix3 h s t) = ix2 s t :=
    funext fun a => Fin.ext (by match a with | ⟨0, _⟩ => rfl | ⟨1, _⟩ => rfl)
  rw [em, mask_at]
  split
  · rw [select_one]
    refine Finset.sum_congr rfl fun e _ => ?_
    have el : lidx_main_v15 (ix3 h s t) e = ix3 h s e :=
      funext fun a => Fin.ext (by match a with | ⟨0, _⟩ => rfl | ⟨1, _⟩ => rfl | ⟨2, _⟩ => rfl)
    have er : ridx_main_v15 (ix3 h s t) e = ix3 h t e :=
      funext fun a => Fin.ext (by match a with | ⟨0, _⟩ => rfl | ⟨1, _⟩ => rfl | ⟨2, _⟩ => rfl)
    rw [el, er]
  · rw [select_zero]
    exact Ideal.ofBits_zero_f32

/-- The attention stage: the reference's rows of width 2048, laid back out head by head, are the causal attention of the projection. -/
theorem attn_eq : val_main_v19 (F := Ideal) x0 x1 x2 = Cert.Spec.attn (Cert.Spec.kqv x0 x1 x2) := by
  funext i
  obtain ⟨s, n, rfl⟩ : ∃ (s : Fin 4096) (n : Fin 2048), i = ix2 s n := ⟨i 0, i 1, eq_ix2 i⟩
  rw [val_main_v19_apply, val_main_v18_apply, val_main_v17_apply]
  show _ = Cert.Spec.attnAt (Cert.Spec.kqv x0 x1 x2) s n
  unfold Cert.Spec.attnAt Cert.Spec.scoreAt
  rw [← kqv_eq x0 x1 x2]
  refine Finset.sum_congr rfl fun t _ => ?_
  have el : lidx_main_v17 (idx_main_v18 (idx_main_v19 (ix2 s n))) t = ix3 (⟨n.val / 128, by omega⟩ : Fin 16) s t :=
    funext fun a => Fin.ext (by
      match a with
      | ⟨0, _⟩ => show (s.val * 2048 + n.val) / 128 % 16 = n.val / 128; omega
      | ⟨1, _⟩ => show (s.val * 2048 + n.val) / 2048 = s.val; omega
      | ⟨2, _⟩ => rfl)
  have er : ridx_main_v17 (idx_main_v18 (idx_main_v19 (ix2 s n))) t
      = ix3 (⟨n.val / 128, by omega⟩ : Fin 16) t (⟨n.val % 128, by omega⟩ : Fin 128) :=
    funext fun a => Fin.ext (by
      match a with
      | ⟨0, _⟩ => show (s.val * 2048 + n.val) / 128 % 16 = n.val / 128; omega
      | ⟨1, _⟩ => rfl
      | ⟨2, _⟩ => show (s.val * 2048 + n.val) % 128 = n.val % 128; omega)
  rw [el, er, score_at, v_at]
  refine congrArg₂ (· * ·) ?_ (congrArg _ (funext fun a => Fin.ext ?_))
  · split
    · refine Finset.sum_congr rfl fun e _ => ?_
      rw [q_at, k_at]
    · rfl
  · match a with
    | ⟨0, _⟩ => rfl
    | ⟨1, _⟩ => show 4096 + 128 * (n.val / 128) + n.val % 128 = 4096 + n.val; omega

end Stages

/-- The last stage of the reference (the generated reading of its run) is the specification's result. -/
theorem result_eq (x0 : (⟨S4096x2048, .f32⟩ : BufTy).Contents (Elt Ideal)) (x1 : (⟨S2048x6144, .f32⟩ : BufTy).Contents (Elt Ideal))
    (x2 : (⟨S6144, .f32⟩ : BufTy).Contents (Elt Ideal)) (x3 : (⟨S2048x2048, .f32⟩ : BufTy).Contents (Elt Ideal))
    (x4 : (⟨S2048, .f32⟩ : BufTy).Contents (Elt Ideal)) :
    Cert.ReferenceIdeal.Read.val_main_v23 (F := Ideal) x0 x1 x2 x3 x4 = Cert.Spec.result x0 x1 x2 x3 x4 := by
  funext i
  obtain ⟨s, n, rfl⟩ : ∃ (s : Fin 4096) (n : Fin 2048), i = ix2 s n := ⟨i 0, i 1, eq_ix2 i⟩
  rw [val_main_v23_apply, val_main_v20_apply, val_main_v22_apply, val_main_v21_apply, attn_eq]
  show _ = Cert.Spec.outAt (Cert.Spec.attn (Cert.Spec.kqv x0 x1 x2)) x3 x4 s n
  unfold Cert.Spec.outAt
  generalize Cert.Spec.attn (Cert.Spec.kqv x0 x1 x2) = A
  have eb : idx_main_v21 (idx_main_v22 (ix2 s n)) = ix1 n := funext fun a => Fin.ext (by match a with | ⟨0, _⟩ => rfl)
  rw [eb]
  refine congrArg₂ (· + ·) (Finset.sum_congr rfl fun k _ => ?_) rfl
  have el : lidx_main_v20 (ix2 s n) k = ix2 s k := funext fun a => Fin.ext (by match a with | ⟨0, _⟩ => rfl | ⟨1, _⟩ => rfl)
  have er : ridx_main_v20 (ix2 s n) k = ix2 k n := funext fun a => Fin.ext (by match a with | ⟨0, _⟩ => rfl | ⟨1, _⟩ => rfl)
  rw [el, er]

end Cert.ReferenceIdeal.RefValue

end
-- ==== Proof.lean ====
/-
  The certificate: the kernel — three pallas calls, x·W1 + b1, a causal linear attention over 16 heads, ·W2 + b2 — against
  its jnp reference, over the extended reals.
  Frames: each kernel region's body is run case by case over the accumulator it carries between grid points, the regions
  and the two host reshapes chained over the buffer contents between them; the reference's frame is its run.
  Values: at the ideal instance each region's output array is a closed function of its input arrays (the block products
  summed in order are the whole product; the key blocks the kernel skips are those the reference's mask zeroes), so the
  kernel's result is the specification's result of the arguments, and the reference's last stage is the same function.
  The idealization rewrote nothing, so there is nothing to preserve.
-/
import proofs.«123105_j28527172780035_1_alg».proof.Defs
import proofs.«123105_j28527172780035_1_alg».proof.Proof.Gen.Kernel
import proofs.«123105_j28527172780035_1_alg».proof.Proof.Gen.KernelIdeal
import proofs.«123105_j28527172780035_1_alg».proof.Proof.Gen.ReferenceIdeal
import proofs.«123105_j28527172780035_1_alg».proof.Proof.Gen.Pre_finite_inputs
import proofs.«123105_j28527172780035_1_alg».proof.Proof.Gen.ReferenceIdeal.Run
import proofs.«123105_j28527172780035_1_alg».proof.Proof.Gen.ReferenceIdeal.Read
import proofs.«123105_j28527172780035_1_alg».proof.Proof.K.FrameAll
import proofs.«123105_j28527172780035_1_alg».proof.Proof.KI.FrameAll
import proofs.«123105_j28527172780035_1_alg».proof.Proof.KI.RunValue
import proofs.«123105_j28527172780035_1_alg».proof.Proof.KI.Bridge
import proofs.«123105_j28527172780035_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Asm.frame m ρ
theorem frame_ki : Cert.frame_KernelIdeal := fun m ρ _ => Cert.KernelIdeal.Asm.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's result of the (agreeing) arguments in their result arrays. -/
theorem algebraic : Cert.algebraic_KernelIdeal_ReferenceIdeal := by
  intro m ρ m' ρ' _ hagree
  refine ⟨fun c => Cert.KernelIdeal.Asm.o4 m c, Cert.KernelIdeal.Asm.run_value m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Asm.o4 m c
  rw [Cert.KernelIdeal.Asm.result_value m c, (hagree c).1, (hagree c).2.1, (hagree c).2.2.1, (hagree c).2.2.2.1, (hagree c).2.2.2.2]
  exact (Cert.ReferenceIdeal.Read.val_main_v23_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
